-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x128x96x96 : Shape := ⟨4, ![1, 128, 96, 96]⟩
abbrev S64x128 : Shape := ⟨2, ![64, 128]⟩
abbrev S64 : Shape := ⟨1, ![64]⟩
abbrev S128x64 : Shape := ⟨2, ![128, 64]⟩
abbrev S128 : Shape := ⟨1, ![128]⟩
abbrev S_ : Shape := ⟨0, ![]⟩

class Facts : Prop where
  bcast_S_S1x128x96x96 : S_.BroadcastsInDim S1x128x96x96 (![] : Fin 0 → Fin S1x128x96x96.rank)
  reducesTo_S1x128x96x96_S_d0_1_2_3 : S1x128x96x96.ReducesTo [0, 1, 2, 3] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128x64 .f32) (main_arg8 : FVec F S128 .f32) (main_v33 : IVec S_ 1) : IVec S_ 1 :=
  let main_v34 : FVec F S128x64 .f32 := Host.absf main_arg7
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg4 : FVec F S64 .f32) (main_arg5 : FVec F S64x128 .f32) (main_arg6 : FVec F S64 .f32) (main_arg7 : FVec F S128x64 .f32) (main_arg8 : FVec F S128 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x128 .f32 := Host.absf main_arg5
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_v33

def fn {F : FTy → Type} [FloatOps F] (main_arg0 : FVec F S1x128x96x96 .f32) (main_arg1 : FVec F S64x128 .f32) (main_arg2 : FVec F S64 .f32) (main_arg3 : FVec F S64x128 .f32) (main_arg4 : FVec F S64 .f32) (main_arg5 : FVec F S64x128 .f32) (main_arg6 : FVec F S64 .f32) (main_arg7 : FVec F S128x64 .f32) (main_arg8 : FVec F S128 .f32) : IVec S_ 1 :=
  let main_v0 : FVec F S1x128x96x96 .f32 := Host.absf main_arg0
  let main_cst : FVec F S_ .f32 := constant S_ .f32 0x7F800000#32
  let main_v1 : FVec F S1x128x96x96 .f32 := broadcastInDim S1x128x96x96 ![] bcast_S_S1x128x96x96 main_cst
  let main_v2 : IVec S1x128x96x96 1 := cmpf .olt main_v0 main_v1
  let main_c : IVec S_ 1 := constantI S_ 1 1#1
  let main_v3 : IVec S_ 1 := (fun x v => Host.reduce IntOp.andi x v reducesTo_S1x128x96x96_S_d0_1_2_3 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x128 .f32 := Host.absf main_arg3
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg4 main_arg5 main_arg6 main_arg7 main_arg8 main_v13 main_v16
-- ==== Kernel.lean ====
abbrev S1x128x96x96 : Shape := ⟨4, ![1, 128, 96, 96]⟩
abbrev S64x128 : Shape := ⟨2, ![64, 128]⟩
abbrev S64 : Shape := ⟨1, ![64]⟩
abbrev S128x64 : Shape := ⟨2, ![128, 64]⟩
abbrev S128 : Shape := ⟨1, ![128]⟩
abbrev S1x96x96x128 : Shape := ⟨4, ![1, 96, 96, 128]⟩
abbrev S9216x128 : Shape := ⟨2, ![9216, 128]⟩
abbrev S128x128 : Shape := ⟨2, ![128, 128]⟩
abbrev S9216x64 : Shape := ⟨2, ![9216, 64]⟩
abbrev S9216x65 : Shape := ⟨2, ![9216, 65]⟩
abbrev S1152x128 : Shape := ⟨2, ![1152, 128]⟩
abbrev S1152x64 : Shape := ⟨2, ![1152, 64]⟩
abbrev S1152x65 : Shape := ⟨2, ![1152, 65]⟩
abbrev S1x128 : Shape := ⟨2, ![1, 128]⟩
abbrev S1152x1 : Shape := ⟨2, ![1152, 1]⟩
abbrev S1x64 : Shape := ⟨2, ![1, 64]⟩
abbrev S1024x64 : Shape := ⟨2, ![1024, 64]⟩
abbrev S1024x65 : Shape := ⟨2, ![1024, 65]⟩
abbrev S64x1024 : Shape := ⟨2, ![64, 1024]⟩
abbrev S1152x1024 : Shape := ⟨2, ![1152, 1024]⟩
abbrev S1152 : Shape := ⟨1, ![1152]⟩

abbrev nBuf : Space → Nat
  | .hbm => 18
  | .vmem => 20
  | .smem => 0
  | _ => 0

abbrev bufTy : (tb : Table) → Fin (tcTables nBuf tb) → BufTy
  | .hbm, ⟨0, _⟩ => ⟨S1x128x96x96, .f32⟩
  | .hbm, ⟨1, _⟩ => ⟨S64x128, .f32⟩
  | .hbm, ⟨2, _⟩ => ⟨S64, .f32⟩
  | .hbm, ⟨3, _⟩ => ⟨S64x128, .f32⟩
  | .hbm, ⟨4, _⟩ => ⟨S64, .f32⟩
  | .hbm, ⟨5, _⟩ => ⟨S64x128, .f32⟩
  | .hbm, ⟨6, _⟩ => ⟨S64, .f32⟩
  | .hbm, ⟨7, _⟩ => ⟨S128x64, .f32⟩
  | .hbm, ⟨8, _⟩ => ⟨S128, .f32⟩
  | .hbm, ⟨9, _⟩ => ⟨S1x96x96x128, .f32⟩
  | .hbm, ⟨10, _⟩ => ⟨S9216x128, .f32⟩
  | .hbm, ⟨11, _⟩ => ⟨S128x128, .f32⟩
  | .hbm, ⟨12, _⟩ => ⟨S128, .f32⟩
  | .hbm, ⟨13, _⟩ => ⟨S9216x64, .f32⟩
  | .hbm, ⟨14, _⟩ => ⟨S9216x65, .f32⟩
  | .hbm, ⟨15, _⟩ => ⟨S9216x128, .f32⟩
  | .hbm, ⟨16, _⟩ => ⟨S1x96x96x128, .f32⟩
  | .hbm, ⟨17, _⟩ => ⟨S1x128x96x96, .f32⟩
  | .local _ .vmem, ⟨0, _⟩ => ⟨S1152x128, .f32⟩
  | .local _ .vmem, ⟨1, _⟩ => ⟨S1152x128, .f32⟩
  | .local _ .vmem, ⟨2, _⟩ => ⟨S128x128, .f32⟩
  | .local _ .vmem, ⟨3, _⟩ => ⟨S128, .f32⟩
  | .local _ .vmem, ⟨4, _⟩ => ⟨S1152x64, .f32⟩
  | .local _ .vmem, ⟨5, _⟩ => ⟨S1152x64, .f32⟩
  | .local _ .vmem, ⟨6, _⟩ => ⟨S1152x65, .f32⟩
  | .local _ .vmem, ⟨7, _⟩ => ⟨S1152x65, .f32⟩
  | .local _ .vmem, ⟨8, _⟩ => ⟨S1152x128, .f32⟩
  | .local _ .vmem, ⟨9, _⟩ => ⟨S1152x128, .f32⟩
  | .local _ .vmem, ⟨10, _⟩ => ⟨S64x128, .f32⟩
  | .local _ .vmem, ⟨11, _⟩ => ⟨S64, .f32⟩
  | .local _ .vmem, ⟨12, _⟩ => ⟨S9216x64, .f32⟩
  | .local _ .vmem, ⟨13, _⟩ => ⟨S9216x65, .f32⟩
  | .local _ .vmem, ⟨14, _⟩ => ⟨S128x64, .f32⟩
  | .local _ .vmem, ⟨15, _⟩ => ⟨S128, .f32⟩
  | .local _ .vmem, ⟨16, _⟩ => ⟨S1152x128, .f32⟩
  | .local _ .vmem, ⟨17, _⟩ => ⟨S1152x128, .f32⟩
  | .local _ .vmem, ⟨18, _⟩ => ⟨S1152x1, .f32⟩
  | .local _ .vmem, ⟨19, _⟩ => ⟨S1152x65, .f32⟩
  | _, _ => ⟨S1x128x96x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc1_scratch0 : Ref sig .tc := ⟨.vmem, 18, rfl⟩
abbrev cc1_scratch1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1152x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1152x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1152x65 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![8], ![false]⟩

@[reducible] def k1_t1_loop : Scf.Loop 32 :=
  let c0_i32 : BitVec 32 := 0#32
  let c9_i32 : BitVec 32 := 9#32
  let v20 : BitVec 32 := Scalar.addi c0_i32 c9_i32
  let c1_i32 : BitVec 32 := 1#32
  ⟨c0_i32, v20, c1_i32⟩
def k1_mult1 (k1_t1 : Fin k1_t1_loop.trips) : BitVec 32 :=
  let c0_i32_22 : BitVec 32 := 0#32
  let c0_i32 : BitVec 32 := 0#32
  let c1_i32 : BitVec 32 := 1#32
  let arg11 : BitVec 32 := Scf.iv c0_i32 c1_i32 k1_t1
  let c1_i32_21 : BitVec 32 := 1#32
  let v46 : BitVec 32 := Scalar.muli arg11 c1_i32_21
  let v47 : BitVec 32 := Scalar.addi c0_i32_22 v46
  let c1024_i32 : BitVec 32 := 1024#32
  let v48 : BitVec 32 := Scalar.muli v47 c1024_i32
  v48
def k1_off1 (k1_t1 : Fin k1_t1_loop.trips) : Fin 2 → Nat :=
  let c0_i32_22 : BitVec 32 := 0#32
  let c0_i32 : BitVec 32 := 0#32
  let c1_i32 : BitVec 32 := 1#32
  let arg11 : BitVec 32 := Scf.iv c0_i32 c1_i32 k1_t1
  let c1_i32_21 : BitVec 32 := 1#32
  let v46 : BitVec 32 := Scalar.muli arg11 c1_i32_21
  let v47 : BitVec 32 := Scalar.addi c0_i32_22 v46
  let c1024_i32 : BitVec 32 := 1024#32
  let v48 : BitVec 32 := Scalar.muli v47 c1024_i32
  let v49 : BitVec 32 := v48
  let v50 : Index := Scalar.indexCast v49
  let c0_23 : Index := 0#32
  ![v50.toNat, 0]
def k1_off2 (k1_t1 : Fin k1_t1_loop.trips) : Fin 2 → Nat :=
  let c0_i32_22 : BitVec 32 := 0#32
  let c0_i32 : BitVec 32 := 0#32
  let c1_i32 : BitVec 32 := 1#32
  let arg11 : BitVec 32 := Scf.iv c0_i32 c1_i32 k1_t1
  let c1_i32_21 : BitVec 32 := 1#32
  let v46 : BitVec 32 := Scalar.muli arg11 c1_i32_21
  let v47 : BitVec 32 := Scalar.addi c0_i32_22 v46
  let c1024_i32 : BitVec 32 := 1024#32
  let v48 : BitVec 32 := Scalar.muli v47 c1024_i32
  let v49 : BitVec 32 := v48
  let v54 : Index := Scalar.indexCast v49
  let c0_24 : Index := 0#32
  ![v54.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1152x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S9216x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S9216x65 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S1152x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  transposes_S1x128x96x96_S1x96x96x128_0_2_3_1 : S1x128x96x96.Transposes [0, 2, 3, 1] S1x96x96x128
  shapeCasts_S1x96x96x128_S9216x128 : S1x96x96x128.ShapeCasts S9216x128
  concatenates_S64x128_S64x128_S128x128_d0 : Shape.Concatenates [S64x128, S64x128] S128x128 0
  concatenates_S64_S64_S128_d0 : Shape.Concatenates [S64, S64] S128 0
  inb_S1152x128_S1152x128_0_0 : ∀ a, (![0, 0] : Fin 2 → Nat) a + S1152x128.size a ≤ S1152x128.size a
  h_S1152x128 : 0 < S1152x128.numel
  shapeCasts_S1152x128_S1152x128 : S1152x128.ShapeCasts S1152x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  transposes_S128x128_p1_0_S128x128 : S128x128.Transposes [1, 0] S128x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S1152x128 : S1x128.Broadcasts S1152x128
  slices_S1152x128_o0_0_S1152x64 : S1152x128.Slices ![0, 0] S1152x64
  inb_S1152x64_S1152x64_0_0 : ∀ a, (![0, 0] : Fin 2 → Nat) a + S1152x64.size a ≤ S1152x64.size a
  h_S1152x64 : 0 < S1152x64.numel
  slices_S1152x128_o0_64_S1152x64 : S1152x128.Slices ![0, 64] S1152x64
  inb_S1152x65_S1152x64_0_0 : ∀ a, (![0, 0] : Fin 2 → Nat) a + S1152x64.size a ≤ S1152x65.size a
  inb_S1152x65_S1152x1_0_64 : ∀ a, (![0, 64] : Fin 2 → Nat) a + S1152x1.size a ≤ S1152x65.size a
  h_S1152x1 : 0 < S1152x1.numel
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  inb_S64_S64_0 : ∀ a, (![0] : Fin 1 → Nat) a + S64.size a ≤ S64.size a
  h_S64 : 0 < S64.numel
  shapeCasts_S64_S1x64 : S64.ShapeCasts S1x64
  broadcasts_S1x64_S1152x64 : S1x64.Broadcasts S1152x64
  inb_S1152x1_S1152x1_0_0 : ∀ a, (![0, 0] : Fin 2 → Nat) a + S1152x1.size a ≤ S1152x1.size a
  shapeCasts_S1152x1_S1152x1 : S1152x1.ShapeCasts S1152x1
  inb_S1152x65_S1152x65_0_0 : ∀ a, (![0, 0] : Fin 2 → Nat) a + S1152x65.size a ≤ S1152x65.size a
  h_S1152x65 : 0 < S1152x65.numel
  shapeCasts_S1152x65_S1152x65 : S1152x65.ShapeCasts S1152x65
  h_S1024x64 : 0 < S1024x64.numel
  shapeCasts_S1024x64_S1024x64 : S1024x64.ShapeCasts S1024x64
  h_S1024x65 : 0 < S1024x65.numel
  shapeCasts_S1024x65_S1024x65 : S1024x65.ShapeCasts S1024x65
  transposes_S1024x64_p1_0_S64x1024 : S1024x64.Transposes [1, 0] S64x1024
  reduces_S1152x1024_S1152 : S1152x1024.Reduces [1] S1152
  shapeCasts_S1152_S1152x1 : S1152.ShapeCasts S1152x1
  broadcasts_S1152x1_S1152x1024 : S1152x1.Broadcasts S1152x1024
  broadcasts_S1152x1_S1152x65 : S1152x1.Broadcasts S1152x65
  slices_S1152x65_o0_0_S1152x64 : S1152x65.Slices ![0, 0] S1152x64
  slices_S1152x65_o0_64_S1152x1 : S1152x65.Slices ![0, 64] S1152x1
  broadcasts_S1152x1_S1152x64 : S1152x1.Broadcasts S1152x64
  reduces_S1152x64_S1152 : S1152x64.Reduces [1] S1152
  inb_S128x64_S128x64_0_0 : ∀ a, (![0, 0] : Fin 2 → Nat) a + S128x64.size a ≤ S128x64.size a
  h_S128x64 : 0 < S128x64.numel
  transposes_S128x64_p1_0_S64x128 : S128x64.Transposes [1, 0] S64x128
  shapeCasts_S9216x128_S1x96x96x128 : S9216x128.ShapeCasts S1x96x96x128
  transposes_S1x96x96x128_S1x128x96x96_0_3_1_2 : S1x96x96x128.Transposes [0, 3, 1, 2] S1x128x96x96
  dot_S1152x128_S128x128_S1152x128_1_0_0_1_n_n_wf : DotDims.WF S1152x128 S128x128 S1152x128 [1] [0] [0] [1] [] []
  dot_S1152x128_S128x64_S1152x64_1_0_0_1_n_n_wf : DotDims.WF S1152x128 S128x64 S1152x64 [1] [0] [0] [1] [] []
  dot_S1152x64_S64x1024_S1152x1024_1_0_0_1_n_n_wf : DotDims.WF S1152x64 S64x1024 S1152x1024 [1] [0] [0] [1] [] []
  dot_S1152x1024_S1024x65_S1152x65_1_0_0_1_n_n_wf : DotDims.WF S1152x1024 S1024x65 S1152x65 [1] [0] [0] [1] [] []
  dot_S1152x64_S64x128_S1152x128_1_0_0_1_n_n_wf : DotDims.WF S1152x64 S64x128 S1152x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1152x128.size a ≤ S9216x128.size a
  hwx0_0 : ∀ i : grid0.Coords, EltTy.bits .f32 = 32 ∨ (Rect.block (s := S9216x128) S1152x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1152x64.size a ≤ S9216x64.size a
  hwx0_3 : ∀ i : grid0.Coords, EltTy.bits .f32 = 32 ∨ (Rect.block (s := S9216x64) S1152x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1152x65.size a ≤ S9216x65.size a
  hwx0_4 : ∀ i : grid0.Coords, EltTy.bits .f32 = 32 ∨ (Rect.block (s := S9216x65) S1152x65.size (cc0_transform_4 i) (hinb0_4 i)).WholeWords (EltTy.packing .f32)
  hrank1 : 0 < grid1.rank
  k1_t1_ok : k1_t1_loop.OK
  k1_mult1_dvd : ∀ k1_t1 : Fin k1_t1_loop.trips, 1024 ∣ (k1_mult1 k1_t1).toNat
  k1_off1_inb : ∀ k1_t1 : Fin k1_t1_loop.trips, ∀ a, (k1_off1 k1_t1) a + S1024x64.size a ≤ S9216x64.size a
  k1_off2_inb : ∀ k1_t1 : Fin k1_t1_loop.trips, ∀ a, (k1_off2 k1_t1) a + S1024x65.size a ≤ S9216x65.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1152x128.size a ≤ S9216x128.size a
  hwx1_0 : ∀ i : grid1.Coords, EltTy.bits .f32 = 32 ∨ (Rect.block (s := S9216x128) S1152x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x128.size a ≤ S64x128.size a
  hwx1_1 : ∀ i : grid1.Coords, EltTy.bits .f32 = 32 ∨ (Rect.block (s := S64x128) S64x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S9216x64.size a ≤ S9216x64.size a
  hwx1_3 : ∀ i : grid1.Coords, EltTy.bits .f32 = 32 ∨ (Rect.block (s := S9216x64) S9216x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S9216x65.size a ≤ S9216x65.size a
  hwx1_4 : ∀ i : grid1.Coords, EltTy.bits .f32 = 32 ∨ (Rect.block (s := S9216x65) S9216x65.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x64.size a ≤ S128x64.size a
  hwx1_5 : ∀ i : grid1.Coords, EltTy.bits .f32 = 32 ∨ (Rect.block (s := S128x64) S128x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1152x128.size a ≤ S9216x128.size a
  hwx1_7 : ∀ i : grid1.Coords, EltTy.bits .f32 = 32 ∨ (Rect.block (s := S9216x128) S1152x128.size (cc1_transform_7 i) (hinb1_7 i)).WholeWords (EltTy.packing .f32)

variable [Facts₀]

def dot_S1152x128_S128x128_S1152x128_1_0_0_1_n_n : DotDims S1152x128 S128x128 S1152x128 where
  lhsContracting := [1]
  rhsContracting := [0]
  lhsNonContracting := [0]
  rhsNonContracting := [1]
  lhsBatch := []
  rhsBatch := []
  wf := dot_S1152x128_S128x128_S1152x128_1_0_0_1_n_n_wf
def dot_S1152x128_S128x64_S1152x64_1_0_0_1_n_n : DotDims S1152x128 S128x64 S1152x64 where
  lhsContracting := [1]
  rhsContracting := [0]
  lhsNonContracting := [0]
  rhsNonContracting := [1]
  lhsBatch := []
  rhsBatch := []
  wf := dot_S1152x128_S128x64_S1152x64_1_0_0_1_n_n_wf
def dot_S1152x64_S64x1024_S1152x1024_1_0_0_1_n_n : DotDims S1152x64 S64x1024 S1152x1024 where
  lhsContracting := [1]
  rhsContracting := [0]
  lhsNonContracting := [0]
  rhsNonContracting := [1]
  lhsBatch := []
  rhsBatch := []
  wf := dot_S1152x64_S64x1024_S1152x1024_1_0_0_1_n_n_wf
def dot_S1152x1024_S1024x65_S1152x65_1_0_0_1_n_n : DotDims S1152x1024 S1024x65 S1152x65 where
  lhsContracting := [1]
  rhsContracting := [0]
  lhsNonContracting := [0]
  rhsNonContracting := [1]
  lhsBatch := []
  rhsBatch := []
  wf := dot_S1152x1024_S1024x65_S1152x65_1_0_0_1_n_n_wf
def dot_S1152x64_S64x128_S1152x128_1_0_0_1_n_n : DotDims S1152x64 S64x128 S1152x128 where
  lhsContracting := [1]
  rhsContracting := [0]
  lhsNonContracting := [0]
  rhsNonContracting := [1]
  lhsBatch := []
  rhsBatch := []
  wf := dot_S1152x64_S64x128_S1152x128_1_0_0_1_n_n_wf

abbrev win0_0 : Pipeline.Window sig grid0 :=
  Pipeline.Window.ofSpec (Memref.whole main_v1) S1152x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4_0) S1152x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_1) S1152x65.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v1) S1152x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S64x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4_0) S9216x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4_1) S9216x65.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v5) S1152x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S1x128x96x96 : Shape := ⟨4, ![1, 128, 96, 96]⟩
abbrev S64x128 : Shape := ⟨2, ![64, 128]⟩
abbrev S64 : Shape := ⟨1, ![64]⟩
abbrev S128x64 : Shape := ⟨2, ![128, 64]⟩
abbrev S128 : Shape := ⟨1, ![128]⟩
abbrev S1x96x96x128 : Shape := ⟨4, ![1, 96, 96, 128]⟩
abbrev S9216x128 : Shape := ⟨2, ![9216, 128]⟩
abbrev S9216x64 : Shape := ⟨2, ![9216, 64]⟩
abbrev S1x64 : Shape := ⟨2, ![1, 64]⟩
abbrev S64x9216 : Shape := ⟨2, ![64, 9216]⟩
abbrev S9216x9216 : Shape := ⟨2, ![9216, 9216]⟩
abbrev S_ : Shape := ⟨0, ![]⟩
abbrev S9216 : Shape := ⟨1, ![9216]⟩
abbrev S9216x1 : Shape := ⟨2, ![9216, 1]⟩
abbrev S1x128 : Shape := ⟨2, ![1, 128]⟩

abbrev nBuf : Space → Nat
  | .hbm => 65
  | .vmem => 0
  | .smem => 0
  | _ => 0

abbrev bufTy : (tb : Table) → Fin (tcTables nBuf tb) → BufTy
  | .hbm, ⟨0, _⟩ => ⟨S1x128x96x96, .f32⟩
  | .hbm, ⟨1, _⟩ => ⟨S64x128, .f32⟩
  | .hbm, ⟨2, _⟩ => ⟨S64, .f32⟩
  | .hbm, ⟨3, _⟩ => ⟨S64x128, .f32⟩
  | .hbm, ⟨4, _⟩ => ⟨S64, .f32⟩
  | .hbm, ⟨5, _⟩ => ⟨S64x128, .f32⟩
  | .hbm, ⟨6, _⟩ => ⟨S64, .f32⟩
  | .hbm, ⟨7, _⟩ => ⟨S128x64, .f32⟩
  | .hbm, ⟨8, _⟩ => ⟨S128, .f32⟩
  | .hbm, ⟨9, _⟩ => ⟨S1x96x96x128, .f32⟩
  | .hbm, ⟨10, _⟩ => ⟨S9216x128, .f32⟩
  | .hbm, ⟨11, _⟩ => ⟨S128x64, .f32⟩
  | .hbm, ⟨12, _⟩ => ⟨S9216x64, .f32⟩
  | .hbm, ⟨13, _⟩ => ⟨S1x64, .f32⟩
  | .hbm, ⟨14, _⟩ => ⟨S9216x64, .f32⟩
  | .hbm, ⟨15, _⟩ => ⟨S9216x64, .f32⟩
  | .hbm, ⟨16, _⟩ => ⟨S128x64, .f32⟩
  | .hbm, ⟨17, _⟩ => ⟨S9216x64, .f32⟩
  | .hbm, ⟨18, _⟩ => ⟨S1x64, .f32⟩
  | .hbm, ⟨19, _⟩ => ⟨S9216x64, .f32⟩
  | .hbm, ⟨20, _⟩ => ⟨S9216x64, .f32⟩
  | .hbm, ⟨21, _⟩ => ⟨S128x64, .f32⟩
  | .hbm, ⟨22, _⟩ => ⟨S9216x64, .f32⟩
  | .hbm, ⟨23, _⟩ => ⟨S1x64, .f32⟩
  | .hbm, ⟨24, _⟩ => ⟨S9216x64, .f32⟩
  | .hbm, ⟨25, _⟩ => ⟨S9216x64, .f32⟩
  | .hbm, ⟨26, _⟩ => ⟨S64x9216, .f32⟩
  | .hbm, ⟨27, _⟩ => ⟨S9216x9216, .f32⟩
  | .hbm, ⟨28, _⟩ => ⟨S_, .f32⟩
  | .hbm, ⟨29, _⟩ => ⟨S9216, .f32⟩
  | .hbm, ⟨30, _⟩ => ⟨S_, .f32⟩
  | .hbm, ⟨31, _⟩ => ⟨S9216, .f32⟩
  | .hbm, ⟨32, _⟩ => ⟨S9216, .f32⟩
  | .hbm, ⟨33, _⟩ => ⟨S9216x1, .f32⟩
  | .hbm, ⟨34, _⟩ => ⟨S9216x9216, .f32⟩
  | .hbm, ⟨35, _⟩ => ⟨S9216x9216, .f32⟩
  | .hbm, ⟨36, _⟩ => ⟨S9216x9216, .f32⟩
  | .hbm, ⟨37, _⟩ => ⟨S_, .f32⟩
  | .hbm, ⟨38, _⟩ => ⟨S9216, .f32⟩
  | .hbm, ⟨39, _⟩ => ⟨S9216x1, .f32⟩
  | .hbm, ⟨40, _⟩ => ⟨S9216x9216, .f32⟩
  | .hbm, ⟨41, _⟩ => ⟨S9216x9216, .f32⟩
  | .hbm, ⟨42, _⟩ => ⟨S9216x64, .f32⟩
  | .hbm, ⟨43, _⟩ => ⟨S_, .f32⟩
  | .hbm, ⟨44, _⟩ => ⟨S9216, .f32⟩
  | .hbm, ⟨45, _⟩ => ⟨S_, .f32⟩
  | .hbm, ⟨46, _⟩ => ⟨S9216, .f32⟩
  | .hbm, ⟨47, _⟩ => ⟨S9216, .f32⟩
  | .hbm, ⟨48, _⟩ => ⟨S9216x1, .f32⟩
  | .hbm, ⟨49, _⟩ => ⟨S9216x64, .f32⟩
  | .hbm, ⟨50, _⟩ => ⟨S9216x64, .f32⟩
  | .hbm, ⟨51, _⟩ => ⟨S9216x64, .f32⟩
  | .hbm, ⟨52, _⟩ => ⟨S_, .f32⟩
  | .hbm, ⟨53, _⟩ => ⟨S9216, .f32⟩
  | .hbm, ⟨54, _⟩ => ⟨S9216x1, .f32⟩
  | .hbm, ⟨55, _⟩ => ⟨S9216x64, .f32⟩
  | .hbm, ⟨56, _⟩ => ⟨S9216x64, .f32⟩
  | .hbm, ⟨57, _⟩ => ⟨S64x128, .f32⟩
  | .hbm, ⟨58, _⟩ => ⟨S9216x128, .f32⟩
  | .hbm, ⟨59, _⟩ => ⟨S1x128, .f32⟩
  | .hbm, ⟨60, _⟩ => ⟨S9216x128, .f32⟩
  | .hbm, ⟨61, _⟩ => ⟨S9216x128, .f32⟩
  | .hbm, ⟨62, _⟩ => ⟨S1x96x96x128, .f32⟩
  | .hbm, ⟨63, _⟩ => ⟨S1x128x96x96, .f32⟩
  | .hbm, ⟨64, _⟩ => ⟨S1x128x96x96, .f32⟩
  | _, _ => ⟨S1x128x96x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_cst_0 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_1 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_2 : Ref sig .tc := ⟨.hbm, 43, rfl⟩
abbrev main_v31 : Ref sig .tc := ⟨.hbm, 44, rfl⟩
abbrev main_cst_3 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_4 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩

abbrev nD : Nat := 1
abbrev τ : Topo := Topo.v7x

variable {F : FTy → Type} [FloatOps F]

class Facts₀ : Prop where
  transposes_S1x128x96x96_S1x96x96x128_0_2_3_1 : S1x128x96x96.Transposes [0, 2, 3, 1] S1x96x96x128
  shapeCasts_S1x96x96x128_S9216x128 : S1x96x96x128.ShapeCasts S9216x128
  transposes_S64x128_S128x64_1_0 : S64x128.Transposes [1, 0] S128x64
  bcast_S64_S1x64_1 : S64.BroadcastsInDim S1x64 (![1] : Fin 1 → Fin S1x64.rank)
  bcast_S1x64_S9216x64_0_1 : S1x64.BroadcastsInDim S9216x64 (![0, 1] : Fin 2 → Fin S9216x64.rank)
  transposes_S9216x64_S64x9216_1_0 : S9216x64.Transposes [1, 0] S64x9216
  reducesTo_S9216x9216_S9216_d1 : S9216x9216.ReducesTo [1] S9216
  h_S_ : 0 < S_.numel
  bcast_S_S9216 : S_.BroadcastsInDim S9216 (![] : Fin 0 → Fin S9216.rank)
  bcast_S9216_S9216x1_0 : S9216.BroadcastsInDim S9216x1 (![0] : Fin 1 → Fin S9216x1.rank)
  bcast_S9216x1_S9216x9216_0_1 : S9216x1.BroadcastsInDim S9216x9216 (![0, 1] : Fin 2 → Fin S9216x9216.rank)
  reducesTo_S9216x64_S9216_d1 : S9216x64.ReducesTo [1] S9216
  bcast_S9216x1_S9216x64_0_1 : S9216x1.BroadcastsInDim S9216x64 (![0, 1] : Fin 2 → Fin S9216x64.rank)
  transposes_S128x64_S64x128_1_0 : S128x64.Transposes [1, 0] S64x128
  bcast_S128_S1x128_1 : S128.BroadcastsInDim S1x128 (![1] : Fin 1 → Fin S1x128.rank)
  bcast_S1x128_S9216x128_0_1 : S1x128.BroadcastsInDim S9216x128 (![0, 1] : Fin 2 → Fin S9216x128.rank)
  shapeCasts_S9216x128_S1x96x96x128 : S9216x128.ShapeCasts S1x96x96x128
  transposes_S1x96x96x128_S1x128x96x96_0_3_1_2 : S1x96x96x128.Transposes [0, 3, 1, 2] S1x128x96x96
  dot_S9216x128_S128x64_S9216x64_1_0_0_1_n_n_wf : DotDims.WF S9216x128 S128x64 S9216x64 [1] [0] [0] [1] [] []
  dot_S9216x64_S64x9216_S9216x9216_1_0_0_1_n_n_wf : DotDims.WF S9216x64 S64x9216 S9216x9216 [1] [0] [0] [1] [] []
  dot_S9216x9216_S9216x64_S9216x64_1_0_0_1_n_n_wf : DotDims.WF S9216x9216 S9216x64 S9216x64 [1] [0] [0] [1] [] []
  dot_S9216x64_S64x128_S9216x128_1_0_0_1_n_n_wf : DotDims.WF S9216x64 S64x128 S9216x128 [1] [0] [0] [1] [] []

variable [Facts₀]

def dot_S9216x128_S128x64_S9216x64_1_0_0_1_n_n : DotDims S9216x128 S128x64 S9216x64 where
  lhsContracting := [1]
  rhsContracting := [0]
  lhsNonContracting := [0]
  rhsNonContracting := [1]
  lhsBatch := []
  rhsBatch := []
  wf := dot_S9216x128_S128x64_S9216x64_1_0_0_1_n_n_wf
def dot_S9216x64_S64x9216_S9216x9216_1_0_0_1_n_n : DotDims S9216x64 S64x9216 S9216x9216 where
  lhsContracting := [1]
  rhsContracting := [0]
  lhsNonContracting := [0]
  rhsNonContracting := [1]
  lhsBatch := []
  rhsBatch := []
  wf := dot_S9216x64_S64x9216_S9216x9216_1_0_0_1_n_n_wf
def dot_S9216x9216_S9216x64_S9216x64_1_0_0_1_n_n : DotDims S9216x9216 S9216x64 S9216x64 where
  lhsContracting := [1]
  rhsContracting := [0]
  lhsNonContracting := [0]
  rhsNonContracting := [1]
  lhsBatch := []
  rhsBatch := []
  wf := dot_S9216x9216_S9216x64_S9216x64_1_0_0_1_n_n_wf
def dot_S9216x64_S64x128_S9216x128_1_0_0_1_n_n : DotDims S9216x64 S64x128 S9216x128 where
  lhsContracting := [1]
  rhsContracting := [0]
  lhsNonContracting := [0]
  rhsNonContracting := [1]
  lhsBatch := []
  rhsBatch := []
  wf := dot_S9216x64_S64x128_S9216x128_1_0_0_1_n_n_wf

class Facts : Prop extends Facts₀ where

variable [Facts]
-- ==== Proof.Spec.lean ====
/-
  The mathematics both programs compute, written once over plain coordinate types and the extended reals.

  A non-local attention block on N = 9216 tokens with C = 128 channels and Ci = 64 inner channels. For a token
  matrix X (N × C): three linear projections θ, φ, g (each X Wᵀ + b, N × Ci); the scores s[r, q] = ∑ⱼ θ[r, j] φ[q, j];
  a softmax of each score row; the weighted sum u[r, j] = ∑_q a[r, q] g[q, j]; a second softmax over j; an output
  projection with bias; the residual X added.

  The kernel never forms the N × N score matrix: per query row it walks the keys in nine tiles of 1024, carrying a
  running maximum m and an accumulator over 65 columns (the 64 columns of g and a column of ones, whose sum is the
  softmax denominator), rescaling the accumulator by exp (m_old - m_new) at each tile. `online` is that recursion,
  literally; `kernelMat` is the kernel's result and `refMat` the reference's (before the residual).
-/
import Idealize.ShloMosaic.PureOps.Ideal
import Idealize.ShloMosaic.Lib.ValueIdx

noncomputable section

open scoped BigOperators

namespace Cert.Attn

open Idealize.ShloMosaic Idealize.ShloMosaic.ValueIdx

/-- A matrix of extended reals by coordinates. -/
abbrev Mat (a b : ℕ) := Fin a → Fin b → EReal

/-- `X Wᵀ + b`: row r, column j is `(∑ c, X r c * W j c) + b j`. -/
def lin {n k o : ℕ} (X : Mat n k) (W : Mat o k) (b : Fin o → EReal) : Mat n o :=
  fun r j => (∑ c, X r c * W j c) + b j

/-- The values with a column of ones appended (column 64). -/
def aug (g : Mat 9216 64) : Mat 9216 65 :=
  fun q c => if h : c.val < 64 then g q ⟨c.val, h⟩ else 1

/-- Key `q` of tile `k` (tiles of 1024 keys). -/
def tileRow (k : Fin 9) (q : Fin 1024) : Fin 9216 := ⟨k.val * 1024 + q.val, by have := k.isLt; have := q.isLt; omega⟩

/-- The maximum of a row, from the bottom element. -/
def rowMax {n : ℕ} (s : Fin n → EReal) : EReal := (Finset.univ : Finset (Fin n)).fold max ⊥ s

/-- The score of query `θ` against key `q`. -/
def score (θ : Fin 64 → EReal) (Φ : Mat 9216 64) (q : Fin 9216) : EReal := ∑ j, θ j * Φ q j

/-- The softmax of a row: `exp (s q - max s) / ∑ exp (s q' - max s)`, with the ideal division. -/
def softmax {n : ℕ} (s : Fin n → EReal) : Fin n → EReal :=
  fun q => Ideal.div (Ideal.exp (s q - rowMax s)) (∑ q', Ideal.exp (s q' - rowMax s))

/-- One tile of the kernel's recursion for one query row: the running maximum and the 65 accumulator columns. -/
def onlineStep (θ : Fin 64 → EReal) (Φ : Mat 9216 64) (G : Mat 9216 65) (k : Fin 9)
    (st : EReal × (Fin 65 → EReal)) : EReal × (Fin 65 → EReal) :=
  (max st.1 (rowMax fun q => score θ Φ (tileRow k q)),
   fun c => Ideal.exp (st.1 - max st.1 (rowMax fun q => score θ Φ (tileRow k q))) * st.2 c
     + ∑ q : Fin 1024, Ideal.exp (score θ Φ (tileRow k q) - max st.1 (rowMax fun q => score θ Φ (tileRow k q))) * G (tileRow k q) c)

/-- The state before tile `k`: from `(-∞, 0)`. Past the ninth tile it stays. -/
def online (θ : Fin 64 → EReal) (Φ : Mat 9216 64) (G : Mat 9216 65) : ℕ → EReal × (Fin 65 → EReal)
  | 0 => (⊥, fun _ => 0)
  | k + 1 => if h : k < 9 then onlineStep θ Φ G ⟨k, h⟩ (online θ Φ G k) else online θ Φ G k

/-- The output projection with bias. -/
def proj (y : Fin 64 → EReal) (Wo : Mat 128 64) (bo : Fin 128 → EReal) (c : Fin 128) : EReal :=
  (∑ j, y j * Wo c j) + bo c

/-- The kernel's attention row: numerator columns over the ones column's sum. -/
def kernelAttn (θ : Fin 64 → EReal) (Φ : Mat 9216 64) (G : Mat 9216 65) (j : Fin 64) : EReal :=
  Ideal.div ((online θ Φ G 9).2 ⟨j.val, by have := j.isLt; omega⟩) ((online θ Φ G 9).2 ⟨64, by omega⟩)

/-- THE KERNEL's result (tokens × channels), residual included. -/
def kernelMat (X : Mat 9216 128) (Wt : Mat 64 128) (bt : Fin 64 → EReal) (Wp : Mat 64 128) (bp : Fin 64 → EReal)
    (Wg : Mat 64 128) (bg : Fin 64 → EReal) (Wo : Mat 128 64) (bo : Fin 128 → EReal) : Mat 9216 128 :=
  fun r c => proj (softmax (kernelAttn (lin X Wt bt r) (lin X Wp bp) (aug (lin X Wg bg)))) Wo bo c + X r c

/-- The reference's attention row: the softmax weights against the values. -/
def refAttn (θ : Fin 64 → EReal) (Φ : Mat 9216 64) (g : Mat 9216 64) (j : Fin 64) : EReal :=
  ∑ q, softmax (fun q => score θ Φ q) q * g q j

/-- THE REFERENCE's result (tokens × channels), before the residual. -/
def refMat (X : Mat 9216 128) (Wt : Mat 64 128) (bt : Fin 64 → EReal) (Wp : Mat 64 128) (bp : Fin 64 → EReal)
    (Wg : Mat 64 128) (bg : Fin 64 → EReal) (Wo : Mat 128 64) (bo : Fin 128 → EReal) : Mat 9216 128 :=
  fun r c => proj (softmax (refAttn (lin X Wt bt r) (lin X Wp bp) (lin X Wg bg))) Wo bo c

/-- A rank-2 array read by coordinates. -/
def mat2 {a b : ℕ} (w : (⟨2, ![a, b]⟩ : Shape).Idx → EReal) : Mat a b := fun r c => w (ix2 r c)
/-- A rank-1 array read by its coordinate. -/
def vec1 {a : ℕ} (v : (⟨1, ![a]⟩ : Shape).Idx → EReal) : Fin a → EReal := fun r => v (ix1 r)
/-- The image `x : [1, 128, 96, 96]` as tokens × channels: token `r` is the pixel `(r / 96, r % 96)`. -/
def tokens (x : (⟨4, ![1, 128, 96, 96]⟩ : Shape).Idx → EReal) : Mat 9216 128 :=
  fun r c => x (ix4 (0 : Fin 1) c ⟨r.val / 96, by have := r.isLt; omega⟩ ⟨r.val % 96, by omega⟩)
/-- The token of pixel `(h, w)`. -/
def pixel (h w : Fin 96) : Fin 9216 := ⟨h.val * 96 + w.val, by have := h.isLt; have := w.isLt; omega⟩

/-- A matrix of finite entries. -/
def FiniteMat {a b : ℕ} (M : Mat a b) : Prop := ∀ r c, ∃ v : ℝ, M r c = (v : EReal)
/-- A vector of finite entries. -/
def FiniteVec {a : ℕ} (v : Fin a → EReal) : Prop := ∀ r, ∃ w : ℝ, v r = (w : EReal)

end Cert.Attn

end
-- ==== Proof.Algebra.lean ====
/-
  The kernel's tiled recursion and the reference's one softmax are the same function of finite inputs.

  Everything is reduced to the reals. On finite inputs every score is the image of a real number, the maximum of a
  nonempty finite family of such scores is again the image of a real number, and so every exponential, product and
  finite sum that occurs is the image of the corresponding real expression. The tiled recursion then carries, after
  its first tile, a real number m and the sums  ∑ exp (s q - m) * G q c  over the keys seen so far: rescaling by
  exp (m - m') turns exp (s q - m) into exp (s q - m'). At the end the quotient of a numerator column by the column
  of ones does not depend on m, and is the softmax-weighted sum.
-/
import proofs.«421115_j72859825209893_3_alg».proof.Proof.Spec

noncomputable section

open scoped BigOperators

namespace Cert.Attn

open Idealize.ShloMosaic

/-! ### Images of reals -/

/-- The image of a finite real sum is the sum of the images. -/
theorem coe_sum {ι : Type*} (S : Finset ι) (f : ι → ℝ) :
    ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The exponential of a difference of two reals. -/
theorem exp_sub_coe (a b : ℝ) : Ideal.exp ((a : EReal) - (b : EReal)) = ((Real.exp (a - b) : ℝ) : EReal) := by
  rw [← EReal.coe_sub, Ideal.exp_coe]

/-- The maximum of a nonempty finite family of reals is one of them, so it is a real. -/
theorem rowMax_coe {n : ℕ} (t : Fin (n + 1) → ℝ) : ∃ M : ℝ, rowMax (fun q => (t q : EReal)) = (M : EReal) := by
  have h : rowMax (fun q => (t q : EReal)) = Finset.univ.sup (fun q => (t q : EReal)) := rfl
  obtain ⟨i, -, hi⟩ := Finset.exists_mem_eq_sup Finset.univ Finset.univ_nonempty (fun q => (t q : EReal))
  exact ⟨t i, by rw [h, hi]⟩

/-- A linear layer of finite data is finite. -/
theorem lin_finite {n k o : ℕ} {X : Mat n k} {W : Mat o k} {b : Fin o → EReal}
    (hX : FiniteMat X) (hW : FiniteMat W) (hb : FiniteVec b) : FiniteMat (lin X W b) := by
  choose Xr hXr using hX
  choose Wr hWr using hW
  choose br hbr using hb
  intro r j
  refine ⟨(∑ c, Xr r c * Wr j c) + br j, ?_⟩
  unfold lin
  rw [EReal.coe_add, coe_sum, hbr]
  congr 1
  refine Finset.sum_congr rfl fun c _ => ?_
  rw [hXr, hWr, EReal.coe_mul]

/-- The scores of finite data are reals. -/
theorem score_finite {θ : Fin 64 → EReal} {Φ : Mat 9216 64} (hθ : FiniteVec θ) (hΦ : FiniteMat Φ) :
    ∃ s : Fin 9216 → ℝ, ∀ q, score θ Φ q = (s q : EReal) := by
  choose θr hθr using hθ
  choose Φr hΦr using hΦ
  refine ⟨fun q => ∑ j, θr j * Φr q j, fun q => ?_⟩
  unfold score
  rw [coe_sum]
  refine Finset.sum_congr rfl fun j _ => ?_
  rw [hθr, hΦr, EReal.coe_mul]

/-- The softmax of a nonempty real row, in the reals: some real M is subtracted (the maximum). -/
theorem softmax_coe {n : ℕ} (t : Fin (n + 1) → ℝ) :
    ∃ M : ℝ, ∀ q, softmax (fun q => (t q : EReal)) q
      = ((Real.exp (t q - M) / ∑ q', Real.exp (t q' - M) : ℝ) : EReal) := by
  obtain ⟨M, hM⟩ := rowMax_coe t
  refine ⟨M, fun q => ?_⟩
  have hsum : (∑ q', Ideal.exp ((t q' : EReal) - (M : EReal))) = ((∑ q', Real.exp (t q' - M) : ℝ) : EReal) := by
    rw [coe_sum]; exact Finset.sum_congr rfl fun q' _ => exp_sub_coe _ _
  have hpos : (0 : ℝ) < ∑ q', Real.exp (t q' - M) :=
    Finset.sum_pos (fun i _ => Real.exp_pos _) Finset.univ_nonempty
  unfold softmax
  rw [hM, hsum, exp_sub_coe, Ideal.div_coe (ne_of_gt hpos), ← EReal.coe_mul, mul_one_div]

/-! ### The keys seen before a tile -/

/-- The keys of the tiles before tile `k`. -/
def before (k : ℕ) : Finset (Fin 9216) := Finset.univ.filter fun q => q.val < 1024 * k

theorem before_zero : before 0 = ∅ := by
  unfold before
  refine Finset.filter_false_of_mem fun q _ => ?_
  omega

theorem before_nine : before 9 = Finset.univ := by
  unfold before
  refine Finset.filter_true_of_mem fun q _ => ?_
  have := q.isLt
  omega

/-- The keys before tile `k + 1` are those before tile `k` together with tile `k`. -/
theorem sum_before_succ (F : Fin 9216 → ℝ) (k : Fin 9) :
    ∑ q ∈ before (k.val + 1), F q = ∑ q ∈ before k.val, F q + ∑ q' : Fin 1024, F (tileRow k q') := by
  have hdisj : Disjoint (before k.val) (Finset.univ.image (tileRow k)) := by
    rw [Finset.disjoint_left]
    intro q hq hq'
    simp only [before, Finset.mem_filter, Finset.mem_univ, true_and] at hq
    obtain ⟨q', -, rfl⟩ := Finset.mem_image.mp hq'
    simp only [tileRow] at hq
    omega
  have hun : before (k.val + 1) = before k.val ∪ Finset.univ.image (tileRow k) := by
    ext q
    simp only [before, Finset.mem_filter, Finset.mem_univ, true_and, Finset.mem_union, Finset.mem_image]
    constructor
    · intro h
      by_cases h' : q.val < 1024 * k.val
      · exact Or.inl h'
      · right
        refine ⟨⟨q.val - 1024 * k.val, by omega⟩, ?_⟩
        apply Fin.ext
        simp only [tileRow]
        omega
    · rintro (h | ⟨q', rfl⟩)
      · omega
      · simp only [tileRow]
        have := q'.isLt
        omega
  rw [hun, Finset.sum_union hdisj, Finset.sum_image]
  intro a _ b _ hab
  have := congrArg Fin.val hab
  simp only [tileRow] at this
  exact Fin.ext (by omega)

/-! ### The recursion in the reals -/

section Online

variable {θ : Fin 64 → EReal} {Φ : Mat 9216 64} {G : Mat 9216 65} {s : Fin 9216 → ℝ} {Gr : Fin 9216 → Fin 65 → ℝ}

/-- The maximum of a tile of real scores is a real. -/
theorem tileMax_coe (hs : ∀ q, score θ Φ q = (s q : EReal)) (k : Fin 9) :
    ∃ t : ℝ, rowMax (fun q => score θ Φ (tileRow k q)) = (t : EReal) := by
  have h : (fun q : Fin 1024 => score θ Φ (tileRow k q)) = fun q => ((s (tileRow k q) : ℝ) : EReal) :=
    funext fun q => hs _
  rw [h]
  exact rowMax_coe (n := 1023) _

/-- The contribution of a tile to an accumulator column, in the reals. -/
theorem tileSum_coe (hs : ∀ q, score θ Φ q = (s q : EReal)) (hG : ∀ q c, G q c = (Gr q c : EReal))
    (k : Fin 9) (m' : ℝ) (c : Fin 65) :
    ∑ q : Fin 1024, Ideal.exp (score θ Φ (tileRow k q) - (m' : EReal)) * G (tileRow k q) c
      = ((∑ q : Fin 1024, Real.exp (s (tileRow k q) - m') * Gr (tileRow k q) c : ℝ) : EReal) := by
  rw [coe_sum]
  refine Finset.sum_congr rfl fun q _ => ?_
  rw [hs, hG, exp_sub_coe, EReal.coe_mul]

/-- The first tile: from `(-∞, 0)` the old accumulator contributes nothing. -/
theorem onlineStep_init (hs : ∀ q, score θ Φ q = (s q : EReal)) (hG : ∀ q c, G q c = (Gr q c : EReal)) (k : Fin 9) :
    ∃ m' : ℝ, onlineStep θ Φ G k (⊥, fun _ => 0)
      = ((m' : EReal), fun c => ((∑ q : Fin 1024, Real.exp (s (tileRow k q) - m') * Gr (tileRow k q) c : ℝ) : EReal)) := by
  obtain ⟨t, ht⟩ := tileMax_coe hs k
  refine ⟨t, ?_⟩
  unfold onlineStep
  simp only [ht, bot_le, max_eq_right, mul_zero, zero_add]
  refine Prod.ext rfl (funext fun c => ?_)
  exact tileSum_coe hs hG k t c

/-- A later tile: from a real state to a real state. -/
theorem onlineStep_coe (hs : ∀ q, score θ Φ q = (s q : EReal)) (hG : ∀ q c, G q c = (Gr q c : EReal)) (k : Fin 9)
    (m : ℝ) (A : Fin 65 → ℝ) :
    ∃ m' : ℝ, onlineStep θ Φ G k ((m : EReal), fun c => (A c : EReal))
      = ((m' : EReal), fun c => ((Real.exp (m - m') * A c
          + ∑ q : Fin 1024, Real.exp (s (tileRow k q) - m') * Gr (tileRow k q) c : ℝ) : EReal)) := by
  obtain ⟨t, ht⟩ := tileMax_coe hs k
  refine ⟨max m t, ?_⟩
  have hmax : max (m : EReal) (t : EReal) = ((max m t : ℝ) : EReal) :=
    (EReal.coe_strictMono.monotone.map_max).symm
  unfold onlineStep
  simp only [ht, hmax]
  refine Prod.ext rfl (funext fun c => ?_)
  simp only
  rw [tileSum_coe hs hG k (max m t) c, exp_sub_coe, ← EReal.coe_mul, ← EReal.coe_add]

/-- After `k + 1` tiles the state is a real `m` and the sums `∑ exp (s q - m) * G q c` over the keys seen. -/
theorem online_succ (hs : ∀ q, score θ Φ q = (s q : EReal)) (hG : ∀ q c, G q c = (Gr q c : EReal)) :
    ∀ k : ℕ, k < 9 → ∃ m : ℝ, online θ Φ G (k + 1)
      = ((m : EReal), fun c => ((∑ q ∈ before (k + 1), Real.exp (s q - m) * Gr q c : ℝ) : EReal)) := by
  intro k
  induction k with
  | zero =>
    intro h
    obtain ⟨m', hm'⟩ := onlineStep_init hs hG ⟨0, h⟩
    refine ⟨m', ?_⟩
    rw [online, dif_pos h, online, hm']
    refine Prod.ext rfl (funext fun c => ?_)
    simp only
    rw [sum_before_succ (fun q => Real.exp (s q - m') * Gr q c) ⟨0, h⟩, before_zero, Finset.sum_empty, zero_add]
  | succ k ih =>
    intro h
    obtain ⟨m, hm⟩ := ih (by omega)
    obtain ⟨m', hm'⟩ := onlineStep_coe hs hG ⟨k + 1, h⟩ m (fun c => ∑ q ∈ before (k + 1), Real.exp (s q - m) * Gr q c)
    refine ⟨m', ?_⟩
    rw [online, dif_pos h, hm, hm']
    refine Prod.ext rfl (funext fun c => ?_)
    simp only
    rw [sum_before_succ (fun q => Real.exp (s q - m') * Gr q c) ⟨k + 1, h⟩, Finset.mul_sum]
    congr 2
    refine Finset.sum_congr rfl fun q _ => ?_
    rw [← mul_assoc, ← Real.exp_add]
    congr 2
    ring

/-- After the nine tiles: a real `m` and the sums over all keys. -/
theorem online_nine (hs : ∀ q, score θ Φ q = (s q : EReal)) (hG : ∀ q c, G q c = (Gr q c : EReal)) :
    ∃ m : ℝ, online θ Φ G 9 = ((m : EReal), fun c => ((∑ q, Real.exp (s q - m) * Gr q c : ℝ) : EReal)) := by
  obtain ⟨m, hm⟩ := online_succ hs hG 8 (by omega)
  exact ⟨m, by rw [hm, before_nine]⟩

end Online

/-! ### The quotient does not depend on the subtracted real -/

/-- A weighted mean with weights `exp (s q - m)` is the same for every `m`. -/
theorem mean_shift {n : ℕ} (s g : Fin (n + 1) → ℝ) (m M : ℝ) :
    (∑ q, Real.exp (s q - m) * g q) * (1 / ∑ q, Real.exp (s q - m))
      = ∑ q, Real.exp (s q - M) / (∑ q', Real.exp (s q' - M)) * g q := by
  have hE : ∀ q, Real.exp (s q - m) = Real.exp (M - m) * Real.exp (s q - M) := by
    intro q
    rw [← Real.exp_add]
    congr 1
    ring
  have hpos : (0 : ℝ) < ∑ q', Real.exp (s q' - M) :=
    Finset.sum_pos (fun i _ => Real.exp_pos _) Finset.univ_nonempty
  have hR : ∑ q, Real.exp (s q - M) / (∑ q', Real.exp (s q' - M)) * g q
      = (∑ q, Real.exp (s q - M) * g q) / ∑ q', Real.exp (s q' - M) := by
    rw [Finset.sum_div]
    exact Finset.sum_congr rfl fun q _ => by ring
  rw [hR]
  simp only [hE, mul_assoc, ← Finset.mul_sum]
  rw [mul_one_div, ← mul_div_assoc, mul_div_mul_left _ _ (Real.exp_pos _).ne']

/-! ### The two attention rows -/

/-- The kernel's attention row is the reference's. -/
theorem kernelAttn_eq_refAttn {θ : Fin 64 → EReal} {Φ : Mat 9216 64} {g : Mat 9216 64}
    (hθ : FiniteVec θ) (hΦ : FiniteMat Φ) (hg : FiniteMat g) (j : Fin 64) :
    kernelAttn θ Φ (aug g) j = refAttn θ Φ g j := by
  obtain ⟨s, hs⟩ := score_finite hθ hΦ
  choose gr hgr using hg
  have hG : ∀ q c, aug g q c = ((if h : c.val < 64 then gr q ⟨c.val, h⟩ else 1 : ℝ) : EReal) := by
    intro q c
    unfold aug
    split_ifs with h
    · exact hgr _ _
    · exact EReal.coe_one.symm
  obtain ⟨m, hm⟩ := online_nine hs hG
  obtain ⟨M, hM⟩ := softmax_coe (n := 9215) s
  have hfun : (fun q => score θ Φ q) = fun q => (s q : EReal) := funext hs
  have hpos : (0 : ℝ) < ∑ q, Real.exp (s q - m) :=
    Finset.sum_pos (fun i _ => Real.exp_pos _) Finset.univ_nonempty
  unfold kernelAttn refAttn
  rw [hm, hfun]
  simp only [hM, hgr, ← EReal.coe_mul, ← coe_sum]
  have hj : j.val < 64 := j.isLt
  simp only [hj, dite_true, show ¬ (64 < 64) from lt_irrefl _, dite_false, mul_one, Fin.eta]
  rw [Ideal.div_coe (ne_of_gt hpos), ← EReal.coe_mul, mean_shift s (fun q => gr q j) m M]

/-! ### The result -/

/-- On finite inputs the kernel's result is the reference's plus the residual. -/
theorem kernelMat_eq_refMat (X : Mat 9216 128) (Wt : Mat 64 128) (bt : Fin 64 → EReal) (Wp : Mat 64 128) (bp : Fin 64 → EReal)
    (Wg : Mat 64 128) (bg : Fin 64 → EReal) (Wo : Mat 128 64) (bo : Fin 128 → EReal)
    (hX : FiniteMat X) (hWt : FiniteMat Wt) (hbt : FiniteVec bt) (hWp : FiniteMat Wp) (hbp : FiniteVec bp)
    (hWg : FiniteMat Wg) (hbg : FiniteVec bg) (hWo : FiniteMat Wo) (hbo : FiniteVec bo) (r : Fin 9216) (c : Fin 128) :
    kernelMat X Wt bt Wp bp Wg bg Wo bo r c = refMat X Wt bt Wp bp Wg bg Wo bo r c + X r c := by
  have hθ : FiniteVec (lin X Wt bt r) := fun j => lin_finite hX hWt hbt r j
  have hΦ : FiniteMat (lin X Wp bp) := lin_finite hX hWp hbp
  have hg : FiniteMat (lin X Wg bg) := lin_finite hX hWg hbg
  have h : kernelAttn (lin X Wt bt r) (lin X Wp bp) (aug (lin X Wg bg)) = refAttn (lin X Wt bt r) (lin X Wp bp) (lin X Wg bg) :=
    funext fun j => kernelAttn_eq_refAttn hθ hΦ hg j
  unfold kernelMat refMat
  rw [h]

end Cert.Attn

end
-- ==== Proof.Finite.lean ====
/-
  The precondition says every entry of every input is a real number.
-/
import proofs.«421115_j72859825209893_3_alg».proof.Proof.Gen.Pre_finite_inputs
import proofs.«421115_j72859825209893_3_alg».proof.Proof.Spec
import Idealize.ShloMosaic.Lib.ReduceAll

noncomputable section

namespace Cert.Pre_finite_inputs.Finite

open Cert.Pre_finite_inputs Cert.Pre_finite_inputs.Gen Idealize.ShloMosaic Idealize.ShloMosaic.ValueIdx

/-- The rank-zero shape has exactly one index. -/
instance subsingleton_scalar_idx : Subsingleton S_.Idx := ⟨fun a b => funext fun d => d.elim0⟩

/-- The f32 pattern with all exponent bits set and a zero fraction denotes +∞. -/
theorem inf_pattern : Ideal.ofBits .f32 0x7F800000#32 = (⊤ : EReal) := by
  simp [Ideal.ofBits, Ideal.ieee]

/-- An extended real whose absolute value max x (-x) lies strictly below +∞ is a real:
    +∞ gives max ⊤ ⊥ = ⊤ and -∞ gives max ⊥ ⊤ = ⊤, neither of which is below ⊤. -/
theorem real_of_abs_lt_top (x : EReal) (h : max x (-x) < ⊤) : ∃ v : ℝ, x = (v : EReal) := by
  induction x using EReal.rec with
  | bot => simp at h
  | coe r => exact ⟨r, rfl⟩
  | top => simp at h

/-- If the test |x| < +∞, taken entrywise over an array of any shape and reduced with AND over all
    axes from the initial value 1, comes out 1, then every entry of the array is a real. -/
theorem real_of_all_abs_lt_inf {s : Shape} {axes : List (Fin s.rank)}
    (hb : S_.BroadcastsInDim s (![] : Fin 0 → Fin s.rank)) (hr : s.ReducesTo axes S_) (hu : 0 < S_.numel)
    (x : FVec Ideal s .f32)
    (e : Host.reduce IntOp.andi
          (cmpf .olt (Host.absf x) (broadcastInDim s ![] hb (constant (F := Ideal) S_ .f32 0x7F800000#32)))
          (constantI S_ 1 1#1) hr hu ix0 = 1#1) :
    ∀ i, ∃ v : ℝ, x i = (v : EReal) := by
  intro i
  have hi := Host.reduce_andi_all _ _ hr hu ix0 e i
  apply real_of_abs_lt_top
  have hlt : FloatOps.cmpf .olt (FloatOps.hostAbsf (x i)) (Ideal.ofBits .f32 0x7F800000#32) = 1#1 := hi
  rw [inf_pattern] at hlt
  change BitVec.ofBool (decide (max (x i) (-(x i)) < ⊤)) = 1#1 at hlt
  by_contra hn
  rw [decide_eq_false hn] at hlt
  exact absurd hlt (by decide)

/-- Where the precondition's predicate is all ones, every entry of each of the nine inputs is (the coercion of) a real. -/
theorem finite_of_pre (x0 : FVec Ideal S1x128x96x96 .f32) (x1 : FVec Ideal S64x128 .f32) (x2 : FVec Ideal S64 .f32)
    (x3 : FVec Ideal S64x128 .f32) (x4 : FVec Ideal S64 .f32) (x5 : FVec Ideal S64x128 .f32) (x6 : FVec Ideal S64 .f32)
    (x7 : FVec Ideal S128x64 .f32) (x8 : FVec Ideal S128 .f32)
    (h : Cert.Pre_finite_inputs.fn (F := Ideal) x0 x1 x2 x3 x4 x5 x6 x7 x8 = fun _ => 1#1) :
    (∀ i, ∃ v : ℝ, x0 i = (v : EReal)) ∧ (∀ i, ∃ v : ℝ, x1 i = (v : EReal)) ∧ (∀ i, ∃ v : ℝ, x2 i = (v : EReal))
      ∧ (∀ i, ∃ v : ℝ, x3 i = (v : EReal)) ∧ (∀ i, ∃ v : ℝ, x4 i = (v : EReal)) ∧ (∀ i, ∃ v : ℝ, x5 i = (v : EReal))
      ∧ (∀ i, ∃ v : ℝ, x6 i = (v : EReal)) ∧ (∀ i, ∃ v : ℝ, x7 i = (v : EReal)) ∧ (∀ i, ∃ v : ℝ, x8 i = (v : EReal)) := by
  have h0 := congrFun h ix0
  unfold Cert.Pre_finite_inputs.fn Cert.Pre_finite_inputs.fn_part1 Cert.Pre_finite_inputs.fn_part2 at h0
  dsimp only at h0
  obtain ⟨h07, e8⟩ := IntOp.andi_eq_one.1 h0
  obtain ⟨h06, e7⟩ := IntOp.andi_eq_one.1 h07
  obtain ⟨h05, e6⟩ := IntOp.andi_eq_one.1 h06
  obtain ⟨h04, e5⟩ := IntOp.andi_eq_one.1 h05
  obtain ⟨h03, e4⟩ := IntOp.andi_eq_one.1 h04
  obtain ⟨h02, e3⟩ := IntOp.andi_eq_one.1 h03
  obtain ⟨h01, e2⟩ := IntOp.andi_eq_one.1 h02
  obtain ⟨e0, e1⟩ := IntOp.andi_eq_one.1 h01
  exact ⟨real_of_all_abs_lt_inf _ _ _ x0 e0, real_of_all_abs_lt_inf _ _ _ x1 e1,
    real_of_all_abs_lt_inf _ _ _ x2 e2, real_of_all_abs_lt_inf _ _ _ x3 e3,
    real_of_all_abs_lt_inf _ _ _ x4 e4, real_of_all_abs_lt_inf _ _ _ x5 e5,
    real_of_all_abs_lt_inf _ _ _ x6 e6, real_of_all_abs_lt_inf _ _ _ x7 e7,
    real_of_all_abs_lt_inf _ _ _ x8 e8⟩

end Cert.Pre_finite_inputs.Finite

end
-- ==== Proof.LibPlainDot.lean ====
/-
  The plain matrix product read at an index.

  A dot record with dimension numbers `<[1], [0], [0], [1]>` and no batch axes (an `M × K` by `K × N` product) is the
  library's `DotDims.plain M K N`; at the ideal values both the kernel's matrix unit product into a zero accumulator
  and the host's `dot_general` of such a record, read at the output index `(a, b)`, are the sum over the contracted
  coordinate `c` of `A (a, c) * B (c, b)` on the extended reals. Stated for any record that EQUALS the plain one, so
  that a program's own record is passed with `rfl`.
-/
import Idealize.ShloMosaic.PureOps.Ideal
import Idealize.ShloMosaic.PureOps.Ideal.Laws
import Idealize.ShloMosaic.Lib.ValueIdx
import Idealize.ShloMosaic.Lib.StackMember

noncomputable section

namespace Cert.LibPlainDot

open Idealize.ShloMosaic Idealize.ShloMosaic.ValueIdx

variable {m k n : Nat} {φ₁ φ₂ : FTy}

/-- The host's product of a plain record, at `(a, b)`: `∑ c, A (a, c) * B (c, b)`. -/
theorem dotGeneral_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂) (a : Fin m) (b : Fin n) :
    Host.dotGeneral D prec A B (ix2 a b) = ∑ c : Fin k, A (ix2 a c) * B (ix2 c b) := by
  subst hD
  exact StackMember.dotGeneral_plain_apply prec A B a b

/-- The kernel's product of a plain record into the zero accumulator, at `(a, b)`: the same sum. -/
theorem matmul_zero_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂) (a : Fin m) (b : Fin n) :
    matmul D prec A B (constant (F := Ideal) ⟨2, ![m, n]⟩ .f32 0x00000000#32) (ix2 a b) = ∑ c : Fin k, A (ix2 a c) * B (ix2 c b) := by
  subst hD
  have h := StackMember.dotGeneral_plain_apply (m := m) (n := n) prec A B a b
  rw [← h]
  show FloatOps.matmul _ prec A B _ (ix2 a b) = FloatOps.dotGeneral _ prec _ A B (ix2 a b)
  rw [Ideal.matmul_constant_zero_apply, Ideal.dotGeneral_apply]

end Cert.LibPlainDot

end
-- ==== Proof.RefValue.lean ====
/-
  The reference program's result, read at one pixel and channel, is the attention block's formula on the token matrix.
-/
import proofs.«421115_j72859825209893_3_alg».proof.Proof.Gen.ReferenceIdeal.Read
import proofs.«421115_j72859825209893_3_alg».proof.Proof.Spec
import proofs.«421115_j72859825209893_3_alg».proof.Proof.LibPlainDot

noncomputable section

open scoped BigOperators

namespace Cert.ReferenceIdeal.RefValue

open Cert.ReferenceIdeal Cert.ReferenceIdeal.Gen Idealize.ShloMosaic Idealize.ShloMosaic.ValueIdx

/-- The word `0xFF800000` is −∞. -/
theorem negInf_word : Ideal.ofBits .f32 0xFF800000#32 = (⊥ : EReal) := by simp [Ideal.ofBits, Ideal.ieee]

/-- Two rank-2 index functions with the same coordinates are equal. -/
local macro "idx_eq" : tactic =>
  `(tactic| (funext a; match a with | ⟨0, _⟩ => rfl | ⟨1, _⟩ => rfl))
/-- The same for rank 1. -/
local macro "idx_eq1" : tactic =>
  `(tactic| (funext a; match a with | ⟨0, _⟩ => rfl))

/-- Over a matrix's last axis, row `t` with column `k` put back is the entry (t, k). -/
theorem lift_last {m n : Nat} (h : (⟨2, ![m, n]⟩ : Shape).Reduces [1] (⟨1, ![m]⟩ : Shape)) (t : Fin m)
    (k : Fin ((⟨2, ![m, n]⟩ : Shape).size 1)) : h.lift (ix1 t) k = ix2 t (⟨k.val, k.isLt⟩ : Fin n) := by
  funext c; apply Fin.ext
  match c with
  | ⟨0, _⟩ => rfl
  | ⟨1, _⟩ => rfl

/-- From −∞ the maximum-reduce of a matrix over its last axis, at row `t`, is the maximum of that row. -/
theorem hostRowMax {m n : Nat} (x : FVec Ideal ⟨2, ![m, n]⟩ .f32)
    (h' : (⟨2, ![m, n]⟩ : Shape).ReducesTo [1] (⟨1, ![m]⟩ : Shape))
    (h : (⟨2, ![m, n]⟩ : Shape).Reduces [1] (⟨1, ![m]⟩ : Shape)) (hu : 0 < (⟨0, ![]⟩ : Shape).numel) (t : Fin m) :
    Host.reduce FloatOps.maximumf x (constant (F := Ideal) (⟨0, ![]⟩ : Shape) .f32 0xFF800000#32) h' hu (ix1 t)
      = Attn.rowMax (fun q : Fin n => x (ix2 t q)) := by
  rw [Host.reduce_eq_fold_single FloatOps.maximumf x _ h' h hu]
  unfold Attn.rowMax
  have hf : (x ∘ h.lift (ix1 t)) = fun k : Fin n => x (ix2 t k) := funext fun k => congrArg x (lift_last h t k)
  have hb : (constant (F := Ideal) (⟨0, ![]⟩ : Shape) .f32 0xFF800000#32) (Shape.Idx.first hu) = (⊥ : EReal) := negInf_word
  rw [hb]
  exact congrArg (fun f => Finset.fold max ⊥ f (Finset.univ : Finset (Fin n))) hf

section
variable (x0 : (⟨S1x128x96x96, .f32⟩ : BufTy).Contents (Elt Ideal)) (x1 : (⟨S64x128, .f32⟩ : BufTy).Contents (Elt Ideal))
    (x2 : (⟨S64, .f32⟩ : BufTy).Contents (Elt Ideal)) (x3 : (⟨S64x128, .f32⟩ : BufTy).Contents (Elt Ideal))
    (x4 : (⟨S64, .f32⟩ : BufTy).Contents (Elt Ideal)) (x5 : (⟨S64x128, .f32⟩ : BufTy).Contents (Elt Ideal))
    (x6 : (⟨S64, .f32⟩ : BufTy).Contents (Elt Ideal)) (x7 : (⟨S128x64, .f32⟩ : BufTy).Contents (Elt Ideal))
    (x8 : (⟨S128, .f32⟩ : BufTy).Contents (Elt Ideal))

/-- The flattened input at (r, c) is the token matrix there: token `r` is the pixel `(r / 96, r % 96)`. -/
theorem xf_apply (r : Fin 9216) (c : Fin 128) :
    Read.val_main_v1 (F := Ideal) x0 (ix2 r c) = Attn.tokens x0 r c := by
  rw [Read.val_main_v1_apply, Read.val_main_v0_apply]
  unfold Attn.tokens
  refine congrArg x0 (funext fun a => Fin.ext ?_)
  have hr := r.isLt; have hc := c.isLt
  match a with
  | ⟨0, _⟩ => rfl
  | ⟨1, _⟩ => show ((r.val * 128 + c.val) % 128) = c.val; omega
  | ⟨2, _⟩ => show ((r.val * 128 + c.val) / 12288 % 96) = r.val / 96; omega
  | ⟨3, _⟩ => show ((r.val * 128 + c.val) / 128 % 96) = r.val % 96; omega

/-- θ at (r, j): `(∑ c, X r c * Wθ j c) + bθ j`. -/
theorem theta_apply (r : Fin 9216) (j : Fin 64) :
    Read.val_main_v6 (F := Ideal) x0 x1 x2 (ix2 r j) = Attn.lin (Attn.tokens x0) (Attn.mat2 x1) (Attn.vec1 x2) r j := by
  rw [Read.val_main_v6_apply, Read.val_main_v3_apply, Read.val_main_v5_apply, Read.val_main_v4_apply, Ideal.addf_def]
  unfold Attn.lin Attn.mat2 Attn.vec1
  congr 1
  · refine Finset.sum_congr rfl fun c _ => ?_
    rw [show Read.lidx_main_v3 (ix2 r j) c = ix2 r c by idx_eq, show Read.ridx_main_v3 (ix2 r j) c = ix2 c j by idx_eq,
      xf_apply, Read.val_main_v2_apply, show Read.idx_main_v2 (ix2 c j) = ix2 j c by idx_eq]
  · exact congrArg x2 (by idx_eq1)

/-- φ at (r, j): `(∑ c, X r c * Wφ j c) + bφ j`. -/
theorem phi_apply (r : Fin 9216) (j : Fin 64) :
    Read.val_main_v11 (F := Ideal) x0 x3 x4 (ix2 r j) = Attn.lin (Attn.tokens x0) (Attn.mat2 x3) (Attn.vec1 x4) r j := by
  rw [Read.val_main_v11_apply, Read.val_main_v8_apply, Read.val_main_v10_apply, Read.val_main_v9_apply, Ideal.addf_def]
  unfold Attn.lin Attn.mat2 Attn.vec1
  congr 1
  · refine Finset.sum_congr rfl fun c _ => ?_
    rw [show Read.lidx_main_v8 (ix2 r j) c = ix2 r c by idx_eq, show Read.ridx_main_v8 (ix2 r j) c = ix2 c j by idx_eq,
      xf_apply, Read.val_main_v7_apply, show Read.idx_main_v7 (ix2 c j) = ix2 j c by idx_eq]
  · exact congrArg x4 (by idx_eq1)

/-- g at (r, j): `(∑ c, X r c * Wg j c) + bg j`. -/
theorem g_apply (r : Fin 9216) (j : Fin 64) :
    Read.val_main_v16 (F := Ideal) x0 x5 x6 (ix2 r j) = Attn.lin (Attn.tokens x0) (Attn.mat2 x5) (Attn.vec1 x6) r j := by
  rw [Read.val_main_v16_apply, Read.val_main_v13_apply, Read.val_main_v15_apply, Read.val_main_v14_apply, Ideal.addf_def]
  unfold Attn.lin Attn.mat2 Attn.vec1
  congr 1
  · refine Finset.sum_congr rfl fun c _ => ?_
    rw [show Read.lidx_main_v13 (ix2 r j) c = ix2 r c by idx_eq, show Read.ridx_main_v13 (ix2 r j) c = ix2 c j by idx_eq,
      xf_apply, Read.val_main_v12_apply, show Read.idx_main_v12 (ix2 c j) = ix2 j c by idx_eq]
  · exact congrArg x6 (by idx_eq1)

/-- The score at (r, q): `∑ j, θ r j * φ q j`. -/
theorem scores_apply (r q : Fin 9216) :
    Read.val_main_v18 (F := Ideal) x0 x1 x2 x3 x4 (ix2 r q)
      = Attn.score (Attn.lin (Attn.tokens x0) (Attn.mat2 x1) (Attn.vec1 x2) r)
          (Attn.lin (Attn.tokens x0) (Attn.mat2 x3) (Attn.vec1 x4)) q := by
  rw [Read.val_main_v18_apply]
  unfold Attn.score
  refine Finset.sum_congr rfl fun j _ => ?_
  rw [show Read.lidx_main_v18 (ix2 r q) j = ix2 r j by idx_eq, show Read.ridx_main_v18 (ix2 r q) j = ix2 j q by idx_eq,
    theta_apply, Read.val_main_v17_apply, show Read.idx_main_v17 (ix2 j q) = ix2 q j by idx_eq, phi_apply]

/-- The score row of token `r` against every key. -/
abbrev srow (r : Fin 9216) : Fin 9216 → EReal :=
  fun q => Attn.score (Attn.lin (Attn.tokens x0) (Attn.mat2 x1) (Attn.vec1 x2) r)
    (Attn.lin (Attn.tokens x0) (Attn.mat2 x3) (Attn.vec1 x4)) q

/-- The first softmax's subtracted maximum at row `r` is the maximum of the score row (the extra maximum against −∞ changes nothing). -/
theorem rowmax1_apply (r : Fin 9216) :
    Read.val_main_v21 (F := Ideal) x0 x1 x2 x3 x4 (ix1 r) = Attn.rowMax (srow x0 x1 x2 x3 x4 r) := by
  rw [Read.val_main_v21_apply, Read.val_main_v20_apply, Read.val_main_cst_0_apply, Ideal.maximumf_def, Ideal.ofBits_def,
    negInf_word, max_bot_left]
  unfold Read.val_main_v19 Read.val_main_cst
  rw [hostRowMax (m := 9216) (n := 9216) _ reducesTo_S9216x9216_S9216_d1 (by decide) h_S_ r]
  exact congrArg Attn.rowMax (funext fun q => scores_apply x0 x1 x2 x3 x4 r q)

/-- The first softmax's numerator at (r, q): `exp (s q - max s)`. -/
theorem exp1_apply (r q : Fin 9216) :
    Read.val_main_v25 (F := Ideal) x0 x1 x2 x3 x4 (ix2 r q)
      = Ideal.exp (srow x0 x1 x2 x3 x4 r q - Attn.rowMax (srow x0 x1 x2 x3 x4 r)) := by
  rw [Read.val_main_v25_apply, Read.val_main_v24_apply, Read.val_main_v23_apply, Read.val_main_v22_apply,
    Ideal.hostUnary_exp_def, Ideal.subf_def, scores_apply,
    show Read.idx_main_v22 (Read.idx_main_v23 (ix2 r q)) = ix1 r by idx_eq1, rowmax1_apply]

/-- The first softmax's denominator at row `r`: `∑ q, exp (s q - max s)` (the sum starts from 0). -/
theorem sum1_apply (r : Fin 9216) :
    Read.val_main_v26 (F := Ideal) x0 x1 x2 x3 x4 (ix1 r)
      = ∑ q, Ideal.exp (srow x0 x1 x2 x3 x4 r q - Attn.rowMax (srow x0 x1 x2 x3 x4 r)) := by
  rw [Read.val_main_v26_apply, Read.val_main_cst_1_apply, Ideal.ofBits_def, Ideal.ofBits_zero_f32, zero_add]
  refine Finset.sum_congr rfl fun q _ => ?_
  rw [show Read.idx_main_v26 (ix1 r) q = ix2 r q by idx_eq, exp1_apply]

/-- The attention weight at (r, q) is the softmax of the score row at `q`. -/
theorem attn_apply (r q : Fin 9216) :
    Read.val_main_v29 (F := Ideal) x0 x1 x2 x3 x4 (ix2 r q) = Attn.softmax (srow x0 x1 x2 x3 x4 r) q := by
  rw [Read.val_main_v29_apply, Read.val_main_v28_apply, Read.val_main_v27_apply, Ideal.hostDivf_def, exp1_apply,
    show Read.idx_main_v27 (Read.idx_main_v28 (ix2 r q)) = ix1 r by idx_eq1, sum1_apply]
  rfl

/-- The attention row of token `r`: the softmax weights against the values. -/
abbrev urow (r : Fin 9216) : Fin 64 → EReal :=
  Attn.refAttn (Attn.lin (Attn.tokens x0) (Attn.mat2 x1) (Attn.vec1 x2) r)
    (Attn.lin (Attn.tokens x0) (Attn.mat2 x3) (Attn.vec1 x4)) (Attn.lin (Attn.tokens x0) (Attn.mat2 x5) (Attn.vec1 x6))

/-- The weighted values at (r, j): `∑ q, a r q * g q j`. -/
theorem u_apply (r : Fin 9216) (j : Fin 64) :
    Read.val_main_v30 (F := Ideal) x0 x1 x2 x3 x4 x5 x6 (ix2 r j) = urow x0 x1 x2 x3 x4 x5 x6 r j := by
  rw [Read.val_main_v30_apply]
  unfold urow Attn.refAttn
  refine Finset.sum_congr rfl fun q _ => ?_
  rw [show Read.lidx_main_v30 (ix2 r j) q = ix2 r q by idx_eq, show Read.ridx_main_v30 (ix2 r j) q = ix2 q j by idx_eq,
    attn_apply, g_apply]

/-- The second softmax's subtracted maximum at row `r` is the maximum of the attention row. -/
theorem rowmax2_apply (r : Fin 9216) :
    Read.val_main_v33 (F := Ideal) x0 x1 x2 x3 x4 x5 x6 (ix1 r) = Attn.rowMax (urow x0 x1 x2 x3 x4 x5 x6 r) := by
  rw [Read.val_main_v33_apply, Read.val_main_v32_apply, Read.val_main_cst_3_apply, Ideal.maximumf_def, Ideal.ofBits_def,
    negInf_word, max_bot_left]
  unfold Read.val_main_v31 Read.val_main_cst_2
  rw [hostRowMax (m := 9216) (n := 64) _ reducesTo_S9216x64_S9216_d1 (by decide) h_S_ r]
  exact congrArg Attn.rowMax (funext fun j => u_apply x0 x1 x2 x3 x4 x5 x6 r j)

/-- The second softmax's numerator at (r, j): `exp (u j - max u)`. -/
theorem exp2_apply (r : Fin 9216) (j : Fin 64) :
    Read.val_main_v37 (F := Ideal) x0 x1 x2 x3 x4 x5 x6 (ix2 r j)
      = Ideal.exp (urow x0 x1 x2 x3 x4 x5 x6 r j - Attn.rowMax (urow x0 x1 x2 x3 x4 x5 x6 r)) := by
  rw [Read.val_main_v37_apply, Read.val_main_v36_apply, Read.val_main_v35_apply, Read.val_main_v34_apply,
    Ideal.hostUnary_exp_def, Ideal.subf_def, u_apply,
    show Read.idx_main_v34 (Read.idx_main_v35 (ix2 r j)) = ix1 r by idx_eq1, rowmax2_apply]

/-- The second softmax's denominator at row `r`: `∑ j, exp (u j - max u)`. -/
theorem sum2_apply (r : Fin 9216) :
    Read.val_main_v38 (F := Ideal) x0 x1 x2 x3 x4 x5 x6 (ix1 r)
      = ∑ j, Ideal.exp (urow x0 x1 x2 x3 x4 x5 x6 r j - Attn.rowMax (urow x0 x1 x2 x3 x4 x5 x6 r)) := by
  rw [Read.val_main_v38_apply, Read.val_main_cst_4_apply, Ideal.ofBits_def, Ideal.ofBits_zero_f32, zero_add]
  refine Finset.sum_congr rfl fun j _ => ?_
  rw [show Read.idx_main_v38 (ix1 r) j = ix2 r j by idx_eq, exp2_apply]

/-- The second softmax at (r, j) is the softmax of the attention row at `j`. -/
theorem y_apply (r : Fin 9216) (j : Fin 64) :
    Read.val_main_v41 (F := Ideal) x0 x1 x2 x3 x4 x5 x6 (ix2 r j) = Attn.softmax (urow x0 x1 x2 x3 x4 x5 x6 r) j := by
  rw [Read.val_main_v41_apply, Read.val_main_v40_apply, Read.val_main_v39_apply, Ideal.hostDivf_def, exp2_apply,
    show Read.idx_main_v39 (Read.idx_main_v40 (ix2 r j)) = ix1 r by idx_eq1, sum2_apply]
  rfl

/-- The output projection at (r, c): `(∑ j, y r j * Wo c j) + bo c`, the reference formula before the residual. -/
theorem out_apply (r : Fin 9216) (c : Fin 128) :
    Read.val_main_v46 (F := Ideal) x0 x1 x2 x3 x4 x5 x6 x7 x8 (ix2 r c)
      = Attn.refMat (Attn.tokens x0) (Attn.mat2 x1) (Attn.vec1 x2) (Attn.mat2 x3) (Attn.vec1 x4) (Attn.mat2 x5) (Attn.vec1 x6)
          (Attn.mat2 x7) (Attn.vec1 x8) r c := by
  rw [Read.val_main_v46_apply, Read.val_main_v43_apply, Read.val_main_v45_apply, Read.val_main_v44_apply, Ideal.addf_def]
  unfold Attn.refMat Attn.proj
  congr 1
  · refine Finset.sum_congr rfl fun j _ => ?_
    rw [show Read.lidx_main_v43 (ix2 r c) j = ix2 r j by idx_eq, show Read.ridx_main_v43 (ix2 r c) j = ix2 j c by idx_eq,
      y_apply, Read.val_main_v42_apply, show Read.idx_main_v42 (ix2 j c) = ix2 c j by idx_eq]
    rfl
  · exact congrArg x8 (by idx_eq1)

end

/-- The reference's result at channel `k` and pixel `(h, w)`: the reference formula at that pixel's token, plus the
    input there. -/
theorem val_apply (x0 : (⟨S1x128x96x96, .f32⟩ : BufTy).Contents (Elt Ideal)) (x1 : (⟨S64x128, .f32⟩ : BufTy).Contents (Elt Ideal))
    (x2 : (⟨S64, .f32⟩ : BufTy).Contents (Elt Ideal)) (x3 : (⟨S64x128, .f32⟩ : BufTy).Contents (Elt Ideal))
    (x4 : (⟨S64, .f32⟩ : BufTy).Contents (Elt Ideal)) (x5 : (⟨S64x128, .f32⟩ : BufTy).Contents (Elt Ideal))
    (x6 : (⟨S64, .f32⟩ : BufTy).Contents (Elt Ideal)) (x7 : (⟨S128x64, .f32⟩ : BufTy).Contents (Elt Ideal))
    (x8 : (⟨S128, .f32⟩ : BufTy).Contents (Elt Ideal)) (k : Fin 128) (h w : Fin 96) :
    Read.val_main_v49 (F := Ideal) x0 x1 x2 x3 x4 x5 x6 x7 x8 (ix4 (0 : Fin 1) k h w)
      = Attn.refMat (Attn.tokens x0) (Attn.mat2 x1) (Attn.vec1 x2) (Attn.mat2 x3) (Attn.vec1 x4) (Attn.mat2 x5) (Attn.vec1 x6)
          (Attn.mat2 x7) (Attn.vec1 x8) (Attn.pixel h w) k + x0 (ix4 (0 : Fin 1) k h w) := by
  rw [Read.val_main_v49_apply, Read.val_main_v48_apply, Read.val_main_v47_apply, Ideal.addf_def]
  have e : Read.idx_main_v47 (Read.idx_main_v48 (ix4 (0 : Fin 1) k h w)) = ix2 (Attn.pixel h w) k := by
    funext a; apply Fin.ext
    have hh := h.isLt; have hw := w.isLt; have hk := k.isLt
    match a with
    | ⟨0, _⟩ => show (((0 * 96 + h.val) * 96 + w.val) * 128 + k.val) / 128 = h.val * 96 + w.val; omega
    | ⟨1, _⟩ => show (((0 * 96 + h.val) * 96 + w.val) * 128 + k.val) % 128 = k.val; omega
  rw [e, out_apply]

end Cert.ReferenceIdeal.RefValue

end
-- ==== Proof.Reg0.lean ====
/-
  The projection call: what its two output arrays hold after the run.

  Each of the eight grid points takes a block of 1152 token rows (1152 × 128), the whole stacked weight (128 × 128)
  and the bias (128), and forms y = x wᵀ + b (1152 × 128). Columns 0 to 63 of y fill the first output's block; columns
  64 to 127 fill columns 0 to 63 of the second output's block, whose column 64 is set to one. The eight row blocks
  tile the 9216 token rows, so the first output array ends as the first 64 columns of X Wᵀ + b and the second as
  columns 64 to 127 of it followed by a column of ones, whatever the arrays held when the call began.
-/
import proofs.«421115_j72859825209893_3_alg».proof.Proof.Gen.KernelIdeal.Frame
import proofs.«421115_j72859825209893_3_alg».proof.Proof.Spec
import proofs.«421115_j72859825209893_3_alg».proof.Proof.LibPlainDot
import Idealize.ShloMosaic.Lib.Pipeline.Value
import Idealize.ShloMosaic.Lib.ValueLayout
import Idealize.ShloMosaic.Lib.IdealHost

set_option maxRecDepth 16384

noncomputable section

open scoped BigOperators

namespace Cert.KernelIdeal.Val0

open Cert.KernelIdeal Cert.KernelIdeal.Gen Idealize.ShloMosaic Idealize.ShloMosaic.TcCoe Idealize.ShloMosaic.ValueIdx Idealize.SL.Sem
open Idealize.ShloMosaic.Tactic

/-! ## What one grid point leaves in the two output blocks, for any float values -/

section Staged

variable {F : FTy → Type} [FloatOps F]

theorem zero2 : (![0, 0] : Fin 2 → Nat) = fun _ => 0 := funext fun a => by fin_cases a <;> rfl
theorem zero1 : (![0] : Fin 1 → Nat) = fun _ => 0 := funext fun a => by fin_cases a; rfl

/-- The first output's block is written once, whole: it holds the first 64 columns of the projected block. -/
theorem stagedHead_eq (c : Dev nD) (i : grid0.Coords) (arg1 : Memref sig .tc .vmem S1152x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S1152x64 .f32) (harg4 : arg4.IsWhole) (arg5 : Memref sig .tc .vmem S1152x65 .f32) (harg5 : arg5.IsWhole)
    (x0 : Vec F S1152x128 .f32) (x1 : Vec F S128x128 .f32) (x2 : Vec F S128 .f32) :
    out0_A_3 c i arg1 harg1 arg2 harg2 arg3 harg3 arg4 harg4 arg5 harg5 x0 x1 x2 = k0_pay2 x0 x1 x2 := by
  unfold out0_A_3
  rw [View.read_writes_eq_canon _ _ _ (cover0_A_3 c i arg1 harg1 arg2 harg2 arg3 harg3 arg4 harg4 arg5 harg5 x0 x1 x2)]
  unfold kernelRun0_A
  dsimp only
  sl_unfold_words
  rw [View.canon_unit_zero zero2]
  simp only [View.readAt_eq_ld, harg1.read_unread, harg2.read_unread, harg3.read_unread, View.ld_unit_zero (S := S1152x128) zero2, View.ld_unit_zero (S := S128x128) zero2, View.ld_unit_zero (S := S128) zero1]

/-- The second output's block is written twice, on disjoint columns: at (p, q) it holds the projected block's
    column 64 + q when q is below 64, and the splat of ones at column 64. -/
theorem stagedTail_apply (c : Dev nD) (i : grid0.Coords) (arg1 : Memref sig .tc .vmem S1152x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S1152x64 .f32) (harg4 : arg4.IsWhole) (arg5 : Memref sig .tc .vmem S1152x65 .f32) (harg5 : arg5.IsWhole)
    (x0 : Vec F S1152x128 .f32) (x1 : Vec F S128x128 .f32) (x2 : Vec F S128 .f32) (p : Fin 1152) (q : Fin 65) :
    out0_A_4 c i arg1 harg1 arg2 harg2 arg3 harg3 arg4 harg4 arg5 harg5 x0 x1 x2 (ix2 p q) = if h : q.val < 64 then k0_pay3 x0 x1 x2 (ix2 p ⟨q.val, h⟩) else k0_pay4 (F := F) (ix2 p (0 : Fin 1)) := by
  unfold out0_A_4
  rw [View.read_writes_eq_canon _ _ _ (cover0_A_4 c i arg1 harg1 arg2 harg2 arg3 harg3 arg4 harg4 arg5 harg5 x0 x1 x2)]
  unfold kernelRun0_A
  dsimp only
  sl_unfold_words
  simp only [View.readAt_eq_ld, harg1.read_unread, harg2.read_unread, harg3.read_unread, View.ld_unit_zero (S := S1152x128) zero2, View.ld_unit_zero (S := S128x128) zero2, View.ld_unit_zero (S := S128) zero1]
  by_cases h : q.val < 64
  · -- a column below 64 lies outside the later write (column 64 alone) and inside the earlier one
    rw [dif_pos h, View.canon_cons_of_not_mem]
    · have e : (ix2 p q : S1152x65.Idx) = (Rect.unit (s := S1152x65) ![0, 0] ![1152, 64] inb_S1152x65_S1152x64_0_0).emb (ix2 p ⟨q.val, h⟩) := by
        funext a; apply Fin.ext
        match a with
        | ⟨0, _⟩ => show p.val = 0 + 1 * p.val; omega
        | ⟨1, _⟩ => show q.val = 0 + 1 * q.val; omega
      rw [e]
      exact View.canon_cons_emb _ _ _ _
    · intro hm
      rw [Rect.mem_set_unit] at hm
      have h1 : 64 ≤ q.val := (hm 1).1
      omega
  · -- column 64 lies inside the later write
    rw [dif_neg h]
    have hq : q.val = 64 := by have := q.isLt; omega
    have e : (ix2 p q : S1152x65.Idx) = (Rect.unit (s := S1152x65) ![0, 64] ![1152, 1] inb_S1152x65_S1152x1_0_64).emb (ix2 p (0 : Fin 1)) := by
      funext a; apply Fin.ext
      match a with
      | ⟨0, _⟩ => show p.val = 0 + 1 * p.val; omega
      | ⟨1, _⟩ => show q.val = 64 + 1 * 0; omega
    rw [e]
    exact View.canon_cons_emb _ _ _ _

end Staged

/-! ## The body's arithmetic at an index, over the extended reals -/

/-- The projected block at row p, column k: row p of the token block against row k of the weight, plus the bias at k.
    The narrowing to bf16 changes no extended real; the transposed weight read at (c, k) is the weight at (k, c); the
    product into the zero accumulator is the plain sum over the contracted coordinate. -/
theorem proj_apply (x0 : Vec Ideal S1152x128 .f32) (x1 : Vec Ideal S128x128 .f32) (x2 : Vec Ideal S128 .f32) (p : Fin 1152) (k : Fin 128) :
    k0_pay1 (F := Ideal) x0 x1 x2 (ix2 p k) = (∑ c : Fin 128, x0 (ix2 p c) * x1 (ix2 k c)) + x2 (ix1 k) := by
  unfold k0_pay1
  refine (addf_apply _ _ (ix2 p k)).trans ?_
  refine congrArg₂ (· + ·) ?_ ?_
  · refine (Cert.LibPlainDot.matmul_zero_apply dot_S1152x128_S128x128_S1152x128_1_0_0_1_n_n rfl none _ _ p k).trans ?_
    refine Finset.sum_congr rfl fun c _ => ?_
    refine congrArg₂ (· * ·) ?_ ?_
    · exact congrFun (shapeCast_self x0 shapeCasts_S1152x128_S1152x128) (ix2 p c)
    · refine (transpose_ix2_apply _ _ c k).trans ?_
      exact congrFun (shapeCast_self x1 shapeCasts_S128x128_S128x128) (ix2 k c)
  · refine (broadcastTo_1b_ab_apply _ _ p k).trans ?_
    refine (shapeCast_a_1a_apply _ _ (0 : Fin 1) k).trans ?_
    exact congrFun (shapeCast_self x2 _) (ix1 k)

/-- Its first 64 columns. -/
theorem projHead_apply (x0 : Vec Ideal S1152x128 .f32) (x1 : Vec Ideal S128x128 .f32) (x2 : Vec Ideal S128 .f32) (p : Fin 1152) (j : Fin 64) :
    k0_pay2 (F := Ideal) x0 x1 x2 (ix2 p j) = (∑ c : Fin 128, x0 (ix2 p c) * x1 (ix2 ⟨j.val, by have := j.isLt; omega⟩ c)) + x2 (ix1 ⟨j.val, by have := j.isLt; omega⟩) := by
  unfold k0_pay2
  refine (slice2_axis1_apply 0 _ _ p j ⟨j.val, by have := j.isLt; omega⟩ (by show j.val = 0 + j.val; omega)).trans ?_
  exact proj_apply x0 x1 x2 p _

/-- Its last 64 columns. -/
theorem projTail_apply (x0 : Vec Ideal S1152x128 .f32) (x1 : Vec Ideal S128x128 .f32) (x2 : Vec Ideal S128 .f32) (p : Fin 1152) (j : Fin 64) :
    k0_pay3 (F := Ideal) x0 x1 x2 (ix2 p j) = (∑ c : Fin 128, x0 (ix2 p c) * x1 (ix2 ⟨64 + j.val, by have := j.isLt; omega⟩ c)) + x2 (ix1 ⟨64 + j.val, by have := j.isLt; omega⟩) := by
  unfold k0_pay3
  refine (slice2_axis1_apply 64 _ _ p j ⟨64 + j.val, by have := j.isLt; omega⟩ rfl).trans ?_
  exact proj_apply x0 x1 x2 p _

/-- The splat column is the extended real one. -/
theorem ones_apply (p : Fin 1152) (u : Fin 1) : k0_pay4 (F := Ideal) (ix2 p u) = 1 := by
  unfold k0_pay4
  exact Ideal.ofBits_one_f32

/-- The first 64 columns, at any index of the block. -/
theorem projHead_at (x0 : Vec Ideal S1152x128 .f32) (x1 : Vec Ideal S128x128 .f32) (x2 : Vec Ideal S128 .f32) (y : S1152x64.Idx) :
    k0_pay2 (F := Ideal) x0 x1 x2 y
      = (∑ c : Fin 128, x0 (ix2 (y 0) c) * x1 (ix2 ⟨(y 1).val, by have h : (y 1).val < 64 := (y 1).isLt; omega⟩ c))
        + x2 (ix1 ⟨(y 1).val, by have h : (y 1).val < 64 := (y 1).isLt; omega⟩) := by
  obtain ⟨p, q, rfl⟩ : ∃ (p : Fin 1152) (q : Fin 64), y = ix2 p q := ⟨y 0, y 1, eq_ix2 y⟩
  exact projHead_apply x0 x1 x2 p q

/-- Columns 64 to 127 of a row of 128, then a one. -/
def tail65 (y : Fin 128 → EReal) (q : Fin 65) : EReal := if h : q.val < 64 then y ⟨64 + q.val, by omega⟩ else 1

/-- What a grid point leaves in the second output's block, at any index of it, over the extended reals. -/
theorem stagedTail_at (c : Dev nD) (i : grid0.Coords) (arg1 : Memref sig .tc .vmem S1152x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S1152x64 .f32) (harg4 : arg4.IsWhole) (arg5 : Memref sig .tc .vmem S1152x65 .f32) (harg5 : arg5.IsWhole)
    (x0 : Vec Ideal S1152x128 .f32) (x1 : Vec Ideal S128x128 .f32) (x2 : Vec Ideal S128 .f32) (y : S1152x65.Idx) :
    out0_A_4 (F := Ideal) c i arg1 harg1 arg2 harg2 arg3 harg3 arg4 harg4 arg5 harg5 x0 x1 x2 y
      = tail65 (fun k => (∑ c' : Fin 128, x0 (ix2 (y 0) c') * x1 (ix2 k c')) + x2 (ix1 k)) (y 1) := by
  obtain ⟨p, q, rfl⟩ : ∃ (p : Fin 1152) (q : Fin 65), y = ix2 p q := ⟨y 0, y 1, eq_ix2 y⟩
  rw [stagedTail_apply]
  show _ = tail65 (fun k => (∑ c' : Fin 128, x0 (ix2 p c') * x1 (ix2 k c')) + x2 (ix1 k)) q
  unfold tail65
  by_cases h : q.val < 64
  · rw [dif_pos h, dif_pos h]
    exact projTail_apply x0 x1 x2 p ⟨q.val, h⟩
  · rw [dif_neg h, dif_neg h]
    exact ones_apply p 0

/-! ## From the blocks to the arrays -/

variable (V : (c : Dev nD) → (b : Ref sig .tc) → Buf (Elt Ideal) ((c : Thread nD τ).loc b))

/-- The whole projection X Wᵀ + b (tokens × 128) of the arrays the call finds. -/
abbrev projAll (c : Dev nD) : Attn.Mat 9216 128 :=
  Attn.lin (Attn.mat2 (a := 9216) (b := 128) (V c main_v1)) (Attn.mat2 (a := 128) (b := 128) (V c main_v2)) (Attn.vec1 (a := 128) (V c main_v3))

/-- What the first output array ends holding: the first 64 columns of the projection. -/
def headArr (c : Dev nD) : S9216x64.Idx → EReal := fun i => projAll V c (i 0) ⟨(i 1).val, by have h : (i 1).val < 64 := (i 1).isLt; omega⟩

/-- What the second output array ends holding: the last 64 columns of the projection, then ones. -/
def tailArr (c : Dev nD) : S9216x65.Idx → EReal := fun i => tail65 (projAll V c (i 0)) (i 1)

theorem eight_points : cfg0.N = 8 := N_0

/-- The block index maps over the grid: the token window and both output windows move one block of rows per point,
    on the row axis only; the weight and the bias stay at block zero. -/
theorem block_indices : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The token block of point t at (p, k) is the token matrix at row 1152 t + p. -/
theorem tokenBlock_apply (c : Dev nD) (t : Fin cfg0.N) (p : Fin 1152) (k : Fin 128) (r : Fin 9216) (hr : r.val = t.val * 1152 + p.val) :
    (iblk0 V c 0 t : Vec Ideal S1152x128 .f32) (ix2 p k) = Attn.mat2 (a := 9216) (b := 128) (V c main_v1) r k := by
  obtain ⟨e0, e1, -⟩ := block_indices t
  unfold iblk0 Attn.mat2
  rw [View.read_apply]
  show V c main_v1 _ = V c main_v1 _
  congr 1
  funext a; apply Fin.ext
  match a with
  | ⟨0, _⟩ => show win0_0.index t (0 : Fin 2) * 1152 + 1 * p.val = r.val; rw [e0, hr]; omega
  | ⟨1, _⟩ => show win0_0.index t (1 : Fin 2) * 128 + 1 * k.val = k.val; rw [e1]; omega

/-- The weight block of any point is the weight. -/
theorem weightBlock_apply (c : Dev nD) (t : Fin cfg0.N) (a b : Fin 128) :
    (iblk0 V c 1 t : Vec Ideal S128x128 .f32) (ix2 a b) = Attn.mat2 (a := 128) (b := 128) (V c main_v2) a b := by
  obtain ⟨-, -, e0, e1, -⟩ := block_indices t
  unfold iblk0 Attn.mat2
  rw [View.read_apply]
  show V c main_v2 _ = V c main_v2 _
  congr 1
  funext d; apply Fin.ext
  match d with
  | ⟨0, _⟩ => show win0_1.index t (0 : Fin 2) * 128 + 1 * a.val = a.val; rw [e0]; omega
  | ⟨1, _⟩ => show win0_1.index t (1 : Fin 2) * 128 + 1 * b.val = b.val; rw [e1]; omega

/-- The bias block of any point is the bias. -/
theorem biasBlock_apply (c : Dev nD) (t : Fin cfg0.N) (a : Fin 128) :
    (iblk0 V c 2 t : Vec Ideal S128 .f32) (ix1 a) = Attn.vec1 (a := 128) (V c main_v3) a := by
  obtain ⟨-, -, -, -, e0, -⟩ := block_indices t
  unfold iblk0 Attn.vec1
  rw [View.read_apply]
  show V c main_v3 _ = V c main_v3 _
  congr 1
  funext d; apply Fin.ext
  match d with
  | ⟨0, _⟩ => show win0_2.index t (0 : Fin 1) * 128 + 1 * a.val = a.val; rw [e0]; omega

/-- What point t writes back to the first output array is its block of the first 64 columns of the projection. -/
theorem head_written (c : Dev nD) (t : Fin cfg0.N) :
    (dat0 V c).flushed 3 t = ((cfg0.win 3).blk t).view.read (Elt Ideal) (headArr V c) := by
  show (cfg0.win 3).cut (grid0.coords t) ((dat0 V c).after 3 t) = _
  rw [after0_3]
  unfold outsAt0
  dsimp only
  rw [stagedHead_eq]
  obtain ⟨-, -, -, -, -, e0, e1, -⟩ := block_indices t
  funext j
  refine (projHead_at (iblk0 V c 0 t) (iblk0 V c 1 t) (iblk0 V c 2 t) _).trans ?_
  show _ = (∑ k : Fin 128, Attn.mat2 (a := 9216) (b := 128) (V c main_v1) _ k * Attn.mat2 (a := 128) (b := 128) (V c main_v2) _ k) + Attn.vec1 (a := 128) (V c main_v3) _
  refine congrArg₂ (· + ·) (Finset.sum_congr rfl fun k _ => congrArg₂ (· * ·) ?_ ?_) ?_
  · refine tokenBlock_apply V c t _ k _ ?_
    show win0_3.index t (0 : Fin 2) * 1152 + 1 * (j 0).val = t.val * 1152 + (j 0).val
    rw [e0]; omega
  · refine (weightBlock_apply V c t _ k).trans ?_
    refine congrArg (fun r => Attn.mat2 (a := 128) (b := 128) (V c main_v2) r k) (Fin.ext ?_)
    show (j 1).val = win0_3.index t (1 : Fin 2) * 64 + 1 * (j 1).val
    rw [e1]; omega
  · refine (biasBlock_apply V c t _).trans ?_
    refine congrArg (fun r => Attn.vec1 (a := 128) (V c main_v3) r) (Fin.ext ?_)
    show (j 1).val = win0_3.index t (1 : Fin 2) * 64 + 1 * (j 1).val
    rw [e1]; omega

/-- What point t writes back to the second output array is its block of the last 64 columns and the ones. -/
theorem tail_written (c : Dev nD) (t : Fin cfg0.N) :
    (dat0 V c).flushed 4 t = ((cfg0.win 4).blk t).view.read (Elt Ideal) (tailArr V c) := by
  show (cfg0.win 4).cut (grid0.coords t) ((dat0 V c).after 4 t) = _
  rw [after0_4]
  unfold outsAt0
  dsimp only
  obtain ⟨-, -, -, -, -, -, -, e0, e1⟩ := block_indices t
  funext j
  refine (stagedTail_at c (grid0.coords t) (ms0_0 t) (hs0_0 t) (ms0_1 t) (hs0_1 t) (ms0_2 t) (hs0_2 t) (ms0_3 t) (hs0_3 t) (ms0_4 t) (hs0_4 t) (iblk0 V c 0 t) (iblk0 V c 1 t) (iblk0 V c 2 t) _).trans ?_
  show _ = tail65 (projAll V c _) _
  refine congrArg₂ tail65 (funext fun k => ?_) (Fin.ext ?_)
  · show _ = (∑ c' : Fin 128, Attn.mat2 (a := 9216) (b := 128) (V c main_v1) _ c' * Attn.mat2 (a := 128) (b := 128) (V c main_v2) k c') + Attn.vec1 (a := 128) (V c main_v3) k
    refine congrArg₂ (· + ·) (Finset.sum_congr rfl fun c' _ => congrArg₂ (· * ·) ?_ ?_) ?_
    · refine tokenBlock_apply V c t _ c' _ ?_
      show win0_4.index t (0 : Fin 2) * 1152 + 1 * (j 0).val = t.val * 1152 + (j 0).val
      rw [e0]; omega
    · exact weightBlock_apply V c t k c'
    · exact biasBlock_apply V c t k
  · show (j 1).val = win0_4.index t (1 : Fin 2) * 65 + 1 * (j 1).val
    rw [e1]; omega

/-- An index of the first output array is in point t's block iff each coordinate is in the block's range. -/
theorem mem_headBlock (t : Fin cfg0.N) (i : S9216x64.Idx) :
    i ∈ ((cfg0.win 3).blk t).view.set ↔ ∀ a : Fin 2, win0_3.index t a * S1152x64.size a ≤ (i a).val ∧ (i a).val < win0_3.index t a * S1152x64.size a + S1152x64.size a := by
  show i ∈ ((View.whole main_v4_0).slice (win0_3.rect t)).set ↔ _
  rw [View.set_slice_whole, Rect.mem_set_unit]
  exact Iff.rfl

/-- The same for the second output array. -/
theorem mem_tailBlock (t : Fin cfg0.N) (i : S9216x65.Idx) :
    i ∈ ((cfg0.win 4).blk t).view.set ↔ ∀ a : Fin 2, win0_4.index t a * S1152x65.size a ≤ (i a).val ∧ (i a).val < win0_4.index t a * S1152x65.size a + S1152x65.size a := by
  show i ∈ ((View.whole main_v4_1).slice (win0_4.rect t)).set ↔ _
  rw [View.set_slice_whole, Rect.mem_set_unit]
  exact Iff.rfl

/-- Row r of the first output array is written by point r / 1152. -/
theorem head_covered (i : S9216x64.Idx) : ∃ t : Fin cfg0.N, (cfg0.win 3).flush t = true ∧ i ∈ ((cfg0.win 3).blk t).view.set := by
  have h0 : (i 0).val < 9216 := (i 0).isLt
  have h1 : (i 1).val < 64 := (i 1).isLt
  have hN : cfg0.N = 8 := eight_points
  have ht : (i 0).val / 1152 < cfg0.N := by omega
  refine ⟨⟨(i 0).val / 1152, ht⟩, flush0_3 _, ?_⟩
  rw [mem_headBlock]
  obtain ⟨-, -, -, -, -, e0, e1, -⟩ := block_indices ⟨(i 0).val / 1152, ht⟩
  intro a
  match a with
  | ⟨0, _⟩ =>
    show win0_3.index ⟨(i 0).val / 1152, ht⟩ (0 : Fin 2) * 1152 ≤ (i 0).val ∧ (i 0).val < win0_3.index ⟨(i 0).val / 1152, ht⟩ (0 : Fin 2) * 1152 + 1152
    rw [e0]; dsimp only; omega
  | ⟨1, _⟩ =>
    show win0_3.index ⟨(i 0).val / 1152, ht⟩ (1 : Fin 2) * 64 ≤ (i 1).val ∧ (i 1).val < win0_3.index ⟨(i 0).val / 1152, ht⟩ (1 : Fin 2) * 64 + 64
    rw [e1]; omega

/-- Row r of the second output array is written by point r / 1152. -/
theorem tail_covered (i : S9216x65.Idx) : ∃ t : Fin cfg0.N, (cfg0.win 4).flush t = true ∧ i ∈ ((cfg0.win 4).blk t).view.set := by
  have h0 : (i 0).val < 9216 := (i 0).isLt
  have h1 : (i 1).val < 65 := (i 1).isLt
  have hN : cfg0.N = 8 := eight_points
  have ht : (i 0).val / 1152 < cfg0.N := by omega
  refine ⟨⟨(i 0).val / 1152, ht⟩, flush0_4 _, ?_⟩
  rw [mem_tailBlock]
  obtain ⟨-, -, -, -, -, -, -, e0, e1⟩ := block_indices ⟨(i 0).val / 1152, ht⟩
  intro a
  match a with
  | ⟨0, _⟩ =>
    show win0_4.index ⟨(i 0).val / 1152, ht⟩ (0 : Fin 2) * 1152 ≤ (i 0).val ∧ (i 0).val < win0_4.index ⟨(i 0).val / 1152, ht⟩ (0 : Fin 2) * 1152 + 1152
    rw [e0]; dsimp only; omega
  | ⟨1, _⟩ =>
    show win0_4.index ⟨(i 0).val / 1152, ht⟩ (1 : Fin 2) * 65 ≤ (i 1).val ∧ (i 1).val < win0_4.index ⟨(i 0).val / 1152, ht⟩ (1 : Fin 2) * 65 + 65
    rw [e1]; omega

/-- The first output array (tokens × 64) after the call: the first 64 columns of `X Wᵀ + b` for the stacked weight. -/
theorem arr0_3 (c : Dev nD) (r : Fin 9216) (j : Fin 64) :
    (dat0 V c).arrAt 3 cfg0.N (ix2 r j)
      = Attn.lin (Attn.mat2 (a := 9216) (b := 128) (V c main_v1)) (Attn.mat2 (a := 128) (b := 128) (V c main_v2)) (Attn.vec1 (a := 128) (V c main_v3)) r
          ⟨j.val, by have := j.isLt; omega⟩ := by
  have h := (dat0 V c).arrAt_eq_of_cover 3 (headArr V c) (fun t _ => head_written V c t) head_covered
  exact congrFun h (ix2 r j)

/-- The second output array (tokens × 65): columns 64 to 127 of `X Wᵀ + b`, then a column of ones. -/
theorem arr0_4 (c : Dev nD) (r : Fin 9216) (q : Fin 65) :
    (dat0 V c).arrAt 4 cfg0.N (ix2 r q)
      = if h : q.val < 64 then
          Attn.lin (Attn.mat2 (a := 9216) (b := 128) (V c main_v1)) (Attn.mat2 (a := 128) (b := 128) (V c main_v2)) (Attn.vec1 (a := 128) (V c main_v3)) r
            ⟨64 + q.val, by omega⟩
        else 1 := by
  have h := (dat0 V c).arrAt_eq_of_cover 4 (tailArr V c) (fun t _ => tail_written V c t) tail_covered
  exact congrFun h (ix2 r q)

end Cert.KernelIdeal.Val0

end
-- ==== Proof.Reg1Defs.lean ====
/-
  The attention call's body as a pure recursion over the nine key tiles: the running maximum (1152 × 1) and the
  accumulator (1152 × 65) after each tile, from the payload terms of the printed body.
-/
import proofs.«421115_j72859825209893_3_alg».proof.Proof.Gen.KernelIdeal.Frame
import Idealize.ShloMosaic.Lib.Pipeline.Value

set_option maxRecDepth 16384

noncomputable section

namespace Cert.KernelIdeal.Val1

open Cert.KernelIdeal Cert.KernelIdeal.Gen Idealize.ShloMosaic Idealize.ShloMosaic.TcCoe Idealize.SL.Sem

variable {F : FTy → Type} [FloatOps F]

/-- Tile `k` of the keys: rows `1024 k … 1024 k + 1023` of the key array, as the loop's load reads them. -/
def keyTile (x3 : Vec F S9216x64 .f32) (k : Fin k1_t1_loop.trips) : Vec F S1024x64 .f32 :=
  View.ld x3 (Rect.unit (s := S9216x64) (k1_off1 k) S1024x64.size (k1_off1_inb k))

/-- Tile `k` of the augmented values. -/
def valTile (x4 : Vec F S9216x65 .f32) (k : Fin k1_t1_loop.trips) : Vec F S1024x65 .f32 :=
  View.ld x4 (Rect.unit (s := S9216x65) (k1_off2 k) S1024x65.size (k1_off2_inb k))

/-- The two scratch buffers before tile `k`: the running maximum from `-∞`, the accumulator from zero; each tile
    applies the body's two stored payloads to what the tile before left. Past the last tile the state stays. -/
def st (x0 : Vec F S1152x128 .f32) (x1 : Vec F S64x128 .f32) (x2 : Vec F S64 .f32) (x3 : Vec F S9216x64 .f32)
    (x4 : Vec F S9216x65 .f32) : ℕ → Vec F S1152x1 .f32 × Vec F S1152x65 .f32
  | 0 => (k1_pay3 (F := F), k1_pay4 (F := F))
  | k + 1 =>
    if h : k < k1_t1_loop.trips then
      (k1_pay8 x0 x1 x2 (keyTile x3 ⟨k, h⟩) (st x0 x1 x2 x3 x4 k).1,
       k1_pay7 x0 x1 x2 (keyTile x3 ⟨k, h⟩) (valTile x4 ⟨k, h⟩) (st x0 x1 x2 x3 x4 k).1 (st x0 x1 x2 x3 x4 k).2)
    else st x0 x1 x2 x3 x4 k

/-- The block the body stores into the output window, from its seven input blocks. -/
def body (x0 : Vec F S1152x128 .f32) (x1 : Vec F S64x128 .f32) (x2 : Vec F S64 .f32) (x3 : Vec F S9216x64 .f32)
    (x4 : Vec F S9216x65 .f32) (x5 : Vec F S128x64 .f32) (x6 : Vec F S128 .f32) : Vec F S1152x128 .f32 :=
  k1_pay1 (k1_pay2 x0) (k1_pay9 (st x0 x1 x2 x3 x4 k1_t1_loop.trips).2) x5 x6

end Cert.KernelIdeal.Val1

end
-- ==== Proof.Reg1Body.lean ====
/-
  What the attention call's symbolic run leaves in the output window's staging buffer is the body's pure recursion.
-/
import proofs.«421115_j72859825209893_3_alg».proof.Proof.Reg1Defs

set_option maxRecDepth 16384

noncomputable section

namespace Cert.KernelIdeal.Val1

open Cert.KernelIdeal Cert.KernelIdeal.Gen Idealize.ShloMosaic Idealize.ShloMosaic.TcCoe Idealize.ShloMosaic.Tactic Idealize.SL.Sem

variable {F : FTy → Type} [FloatOps F]

/-- The two-coordinate zero offset, however it is spelt. -/
theorem hz2 : (![0, 0] : Fin 2 → ℕ) = fun _ => 0 := funext fun a => by fin_cases a <;> rfl

/-- The one-coordinate zero offset. -/
theorem hz1 : (![0] : Fin 1 → ℕ) = fun _ => 0 := funext fun a => by fin_cases a; rfl

section whole

variable {sg : RefSig} {κ : Kind} {sp : Space} {S : Shape} {e : EltTy}

/-- A load through the whole-shape rectangle at zero offsets reads what the view reads. -/
theorem readAt_whole (v : View sg κ sp S e) {off : Fin S.rank → ℕ} (h : off = fun _ => 0)
    (inb : ∀ a, off a + S.size a ≤ S.size a) (f : v.ty.Contents (Elt F)) :
    v.readAt (Elt F) (Rect.unit off S.size inb).toLoadRect f = v.read (Elt F) f := by
  rw [View.readAt_eq_ld]; exact View.ld_unit_zero h inb _

/-- A store through the whole-shape rectangle at zero offsets, made last, is what the view reads afterwards. -/
theorem read_writes_whole (v : View sg κ sp S e) {off : Fin S.rank → ℕ} (h : off = fun _ => 0)
    (inb : ∀ a, off a + S.size a ≤ S.size a) (f : v.ty.Contents (Elt F)) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero h inb y⟩)]
  exact View.canon_cons_unit_zero h inb w L

end whole

/-- One tile's two stores: each scratch buffer is stored whole, with the payload of the key tile, the value tile and
    what the two buffers held. -/
theorem trip_pieces (𝒱 : Variants) (c : Dev nD) (bd : Option 𝒱.V) (i : grid1.Coords) (arg1 : Memref sig .tc .vmem S1152x128 .f32) (harg1 : arg1.IsWhole) (arg2 : Memref sig .tc .vmem S64x128 .f32) (harg2 : arg2.IsWhole) (arg3 : Memref sig .tc .vmem S64 .f32) (harg3 : arg3.IsWhole) (arg4 : Memref sig .tc .vmem S9216x64 .f32) (harg4 : arg4.IsWhole) (arg5 : Memref sig .tc .vmem S9216x65 .f32) (harg5 : arg5.IsWhole) (arg6 : Memref sig .tc .vmem S128x64 .f32) (harg6 : arg6.IsWhole) (arg7 : Memref sig .tc .vmem S128 .f32) (harg7 : arg7.IsWhole) (arg8 : Memref sig .tc .vmem S1152x128 .f32) (harg8 : arg8.IsWhole) (arg9 : Memref sig .tc .vmem S1152x1 .f32) (harg9 : arg9.IsWhole) (arg10 : Memref sig .tc .vmem S1152x65 .f32) (harg10 : arg10.IsWhole) (v0 : Vec F S1152x128 .f32) (v3 : Vec F S64x128 .f32) (v7 : Vec F S64 .f32) (X4 : BufTy.Contents (Elt F) arg4.view.ty) (X5 : BufTy.Contents (Elt F) arg5.view.ty) (k : Fin k1_t1_loop.trips) (f9 : BufTy.Contents (Elt F) arg9.view.ty) (f10 : BufTy.Contents (Elt F) arg10.view.ty) :
    tripL_k1_t1 (F := F) 𝒱 c bd i arg1 harg1 arg2 harg2 arg3 harg3 arg4 harg4 arg5 harg5 arg6 harg6 arg7 harg7 arg8 harg8 arg9 harg9 arg10 harg10 v0 v3 v7 X4 X5 k f9 f10
      = ([(⟨Rect.unit (s := S1152x1) ![0, 0] S1152x1.size inb_S1152x1_S1152x1_0_0, k1_pay8 v0 v3 v7 (View.readAt (Elt F) arg4.view (Rect.unit (s := S9216x64) (k1_off1 k) S1024x64.size (k1_off1_inb k)).toLoadRect X4) (View.readAt (Elt F) arg9.view (Rect.unit (s := S1152x1) ![0, 0] S1152x1.size inb_S1152x1_S1152x1_0_0).toLoadRect f9)⟩ : View.Piece (Elt F) S1152x1 .f32)],
         [(⟨Rect.unit (s := S1152x65) ![0, 0] S1152x65.size inb_S1152x65_S1152x65_0_0, k1_pay7 v0 v3 v7 (View.readAt (Elt F) arg4.view (Rect.unit (s := S9216x64) (k1_off1 k) S1024x64.size (k1_off1_inb k)).toLoadRect X4) (View.readAt (Elt F) arg5.view (Rect.unit (s := S9216x65) (k1_off2 k) S1024x65.size (k1_off2_inb k)).toLoadRect X5) (View.readAt (Elt F) arg9.view (Rect.unit (s := S1152x1) ![0, 0] S1152x1.size inb_S1152x1_S1152x1_0_0).toLoadRect f9) (View.readAt (Elt F) arg10.view (Rect.unit (s := S1152x65) ![0, 0] S1152x65.size inb_S1152x65_S1152x65_0_0).toLoadRect f10)⟩ : View.Piece (Elt F) S1152x65 .f32)]) := by
  unfold tripL_k1_t1
  unfold trip_k1_t1
  rfl

/-- The key tile as the loop's load reads it from a buffer holding the key array. -/
theorem readAt_keyTile (arg4 : Memref sig .tc .vmem S9216x64 .f32) (harg4 : arg4.IsWhole) (x3 : Vec F S9216x64 .f32) (k : Fin k1_t1_loop.trips) :
    View.readAt (Elt F) arg4.view (Rect.unit (s := S9216x64) (k1_off1 k) S1024x64.size (k1_off1_inb k)).toLoadRect (harg4.unread x3) = keyTile x3 k := by
  rw [View.readAt_eq_ld, harg4.read_unread]; rfl

/-- The value tile as the loop's load reads it from a buffer holding the augmented value array. -/
theorem readAt_valTile (arg5 : Memref sig .tc .vmem S9216x65 .f32) (harg5 : arg5.IsWhole) (x4 : Vec F S9216x65 .f32) (k : Fin k1_t1_loop.trips) :
    View.readAt (Elt F) arg5.view (Rect.unit (s := S9216x65) (k1_off2 k) S1024x65.size (k1_off2_inb k)).toLoadRect (harg5.unread x4) = valTile x4 k := by
  rw [View.readAt_eq_ld, harg5.read_unread]; rfl

/-- After one tile the running maximum reads as the tile's maximum payload of what it read before. -/
theorem trip_read9 (𝒱 : Variants) (c : Dev nD) (bd : Option 𝒱.V) (i : grid1.Coords) (arg1 : Memref sig .tc .vmem S1152x128 .f32) (harg1 : arg1.IsWhole) (arg2 : Memref sig .tc .vmem S64x128 .f32) (harg2 : arg2.IsWhole) (arg3 : Memref sig .tc .vmem S64 .f32) (harg3 : arg3.IsWhole) (arg4 : Memref sig .tc .vmem S9216x64 .f32) (harg4 : arg4.IsWhole) (arg5 : Memref sig .tc .vmem S9216x65 .f32) (harg5 : arg5.IsWhole) (arg6 : Memref sig .tc .vmem S128x64 .f32) (harg6 : arg6.IsWhole) (arg7 : Memref sig .tc .vmem S128 .f32) (harg7 : arg7.IsWhole) (arg8 : Memref sig .tc .vmem S1152x128 .f32) (harg8 : arg8.IsWhole) (arg9 : Memref sig .tc .vmem S1152x1 .f32) (harg9 : arg9.IsWhole) (arg10 : Memref sig .tc .vmem S1152x65 .f32) (harg10 : arg10.IsWhole) (x0 : Vec F S1152x128 .f32) (x1 : Vec F S64x128 .f32) (x2 : Vec F S64 .f32) (x3 : Vec F S9216x64 .f32) (x4 : Vec F S9216x65 .f32) (k : Fin k1_t1_loop.trips) (f9 : BufTy.Contents (Elt F) arg9.view.ty) (f10 : BufTy.Contents (Elt F) arg10.view.ty) :
    arg9.view.read (Elt F) (arg9.view.writes (Elt F) f9 (tripL_k1_t1 (F := F) 𝒱 c bd i arg1 harg1 arg2 harg2 arg3 harg3 arg4 harg4 arg5 harg5 arg6 harg6 arg7 harg7 arg8 harg8 arg9 harg9 arg10 harg10 x0 x1 x2 (harg4.unread x3) (harg5.unread x4) k f9 f10).1)
      = k1_pay8 x0 x1 x2 (keyTile x3 k) (arg9.view.read (Elt F) f9) := by
  rw [trip_pieces 𝒱 c bd i arg1 harg1 arg2 harg2 arg3 harg3 arg4 harg4 arg5 harg5 arg6 harg6 arg7 harg7 arg8 harg8 arg9 harg9 arg10 harg10 x0 x1 x2 (harg4.unread x3) (harg5.unread x4) k f9 f10]
  dsimp only
  rw [read_writes_whole arg9.view hz2, readAt_keyTile arg4 harg4 x3 k, readAt_whole arg9.view hz2]

/-- After one tile the accumulator reads as the tile's accumulator payload of what the two buffers read before. -/
theorem trip_read10 (𝒱 : Variants) (c : Dev nD) (bd : Option 𝒱.V) (i : grid1.Coords) (arg1 : Memref sig .tc .vmem S1152x128 .f32) (harg1 : arg1.IsWhole) (arg2 : Memref sig .tc .vmem S64x128 .f32) (harg2 : arg2.IsWhole) (arg3 : Memref sig .tc .vmem S64 .f32) (harg3 : arg3.IsWhole) (arg4 : Memref sig .tc .vmem S9216x64 .f32) (harg4 : arg4.IsWhole) (arg5 : Memref sig .tc .vmem S9216x65 .f32) (harg5 : arg5.IsWhole) (arg6 : Memref sig .tc .vmem S128x64 .f32) (harg6 : arg6.IsWhole) (arg7 : Memref sig .tc .vmem S128 .f32) (harg7 : arg7.IsWhole) (arg8 : Memref sig .tc .vmem S1152x128 .f32) (harg8 : arg8.IsWhole) (arg9 : Memref sig .tc .vmem S1152x1 .f32) (harg9 : arg9.IsWhole) (arg10 : Memref sig .tc .vmem S1152x65 .f32) (harg10 : arg10.IsWhole) (x0 : Vec F S1152x128 .f32) (x1 : Vec F S64x128 .f32) (x2 : Vec F S64 .f32) (x3 : Vec F S9216x64 .f32) (x4 : Vec F S9216x65 .f32) (k : Fin k1_t1_loop.trips) (f9 : BufTy.Contents (Elt F) arg9.view.ty) (f10 : BufTy.Contents (Elt F) arg10.view.ty) :
    arg10.view.read (Elt F) (arg10.view.writes (Elt F) f10 (tripL_k1_t1 (F := F) 𝒱 c bd i arg1 harg1 arg2 harg2 arg3 harg3 arg4 harg4 arg5 harg5 arg6 harg6 arg7 harg7 arg8 harg8 arg9 harg9 arg10 harg10 x0 x1 x2 (harg4.unread x3) (harg5.unread x4) k f9 f10).2)
      = k1_pay7 x0 x1 x2 (keyTile x3 k) (valTile x4 k) (arg9.view.read (Elt F) f9) (arg10.view.read (Elt F) f10) := by
  rw [trip_pieces 𝒱 c bd i arg1 harg1 arg2 harg2 arg3 harg3 arg4 harg4 arg5 harg5 arg6 harg6 arg7 harg7 arg8 harg8 arg9 harg9 arg10 harg10 x0 x1 x2 (harg4.unread x3) (harg5.unread x4) k f9 f10]
  dsimp only
  rw [read_writes_whole arg10.view hz2, readAt_keyTile arg4 harg4 x3 k, readAt_valTile arg5 harg5 x4 k, readAt_whole arg9.view hz2, readAt_whole arg10.view hz2]

/-- The recursion one tile on. -/
theorem st_succ (x0 : Vec F S1152x128 .f32) (x1 : Vec F S64x128 .f32) (x2 : Vec F S64 .f32) (x3 : Vec F S9216x64 .f32) (x4 : Vec F S9216x65 .f32) (n : ℕ) (h : n < k1_t1_loop.trips) :
    st x0 x1 x2 x3 x4 (n + 1)
      = (k1_pay8 x0 x1 x2 (keyTile x3 ⟨n, h⟩) (st x0 x1 x2 x3 x4 n).1,
         k1_pay7 x0 x1 x2 (keyTile x3 ⟨n, h⟩) (valTile x4 ⟨n, h⟩) (st x0 x1 x2 x3 x4 n).1 (st x0 x1 x2 x3 x4 n).2) := by
  rw [st.eq_2]; exact dif_pos h

/-- Before tile `n` the two scratch buffers read as the recursion's state `n`, when at loop entry they read as the
    reset values: by induction over the tiles, each tile's stores read back whole. -/
theorem loop_read (𝒱 : Variants) (c : Dev nD) (bd : Option 𝒱.V) (i : grid1.Coords) (arg1 : Memref sig .tc .vmem S1152x128 .f32) (harg1 : arg1.IsWhole) (arg2 : Memref sig .tc .vmem S64x128 .f32) (harg2 : arg2.IsWhole) (arg3 : Memref sig .tc .vmem S64 .f32) (harg3 : arg3.IsWhole) (arg4 : Memref sig .tc .vmem S9216x64 .f32) (harg4 : arg4.IsWhole) (arg5 : Memref sig .tc .vmem S9216x65 .f32) (harg5 : arg5.IsWhole) (arg6 : Memref sig .tc .vmem S128x64 .f32) (harg6 : arg6.IsWhole) (arg7 : Memref sig .tc .vmem S128 .f32) (harg7 : arg7.IsWhole) (arg8 : Memref sig .tc .vmem S1152x128 .f32) (harg8 : arg8.IsWhole) (arg9 : Memref sig .tc .vmem S1152x1 .f32) (harg9 : arg9.IsWhole) (arg10 : Memref sig .tc .vmem S1152x65 .f32) (harg10 : arg10.IsWhole) (x0 : Vec F S1152x128 .f32) (x1 : Vec F S64x128 .f32) (x2 : Vec F S64 .f32) (x3 : Vec F S9216x64 .f32) (x4 : Vec F S9216x65 .f32) (G9 : BufTy.Contents (Elt F) arg9.view.ty) (G10 : BufTy.Contents (Elt F) arg10.view.ty)
    (hG9 : arg9.view.read (Elt F) G9 = k1_pay3 (F := F)) (hG10 : arg10.view.read (Elt F) G10 = k1_pay4 (F := F)) :
    ∀ n : ℕ, n ≤ k1_t1_loop.trips →
      arg9.view.read (Elt F) (arg9.view.writes (Elt F) G9 (pb_k1_t1 (F := F) 𝒱 c bd i arg1 harg1 arg2 harg2 arg3 harg3 arg4 harg4 arg5 harg5 arg6 harg6 arg7 harg7 arg8 harg8 arg9 harg9 arg10 harg10 x0 x1 x2 (harg4.unread x3) (harg5.unread x4) G9 G10 n).1) = (st x0 x1 x2 x3 x4 n).1
      ∧ arg10.view.read (Elt F) (arg10.view.writes (Elt F) G10 (pb_k1_t1 (F := F) 𝒱 c bd i arg1 harg1 arg2 harg2 arg3 harg3 arg4 harg4 arg5 harg5 arg6 harg6 arg7 harg7 arg8 harg8 arg9 harg9 arg10 harg10 x0 x1 x2 (harg4.unread x3) (harg5.unread x4) G9 G10 n).2) = (st x0 x1 x2 x3 x4 n).2
  | 0, _ => ⟨hG9, hG10⟩
  | n + 1, hn => by
    have h : n < k1_t1_loop.trips := hn
    obtain ⟨ih9, ih10⟩ := loop_read 𝒱 c bd i arg1 harg1 arg2 harg2 arg3 harg3 arg4 harg4 arg5 harg5 arg6 harg6 arg7 harg7 arg8 harg8 arg9 harg9 arg10 harg10 x0 x1 x2 x3 x4 G9 G10 hG9 hG10 n (Nat.le_of_lt h)
    have hs : pb_k1_t1 (F := F) 𝒱 c bd i arg1 harg1 arg2 harg2 arg3 harg3 arg4 harg4 arg5 harg5 arg6 harg6 arg7 harg7 arg8 harg8 arg9 harg9 arg10 harg10 x0 x1 x2 (harg4.unread x3) (harg5.unread x4) G9 G10 (n + 1) = _ := pb_k1_t1_succ (F := F) 𝒱 c bd i arg1 harg1 arg2 harg2 arg3 harg3 arg4 harg4 arg5 harg5 arg6 harg6 arg7 harg7 arg8 harg8 arg9 harg9 arg10 harg10 x0 x1 x2 (harg4.unread x3) (harg5.unread x4) G9 G10 ⟨n, h⟩
    rw [hs, st_succ x0 x1 x2 x3 x4 n h]
    dsimp only
    rw [View.writes_append, View.writes_append, trip_read9 𝒱 c bd i arg1 harg1 arg2 harg2 arg3 harg3 arg4 harg4 arg5 harg5 arg6 harg6 arg7 harg7 arg8 harg8 arg9 harg9 arg10 harg10 x0 x1 x2 x3 x4, trip_read10 𝒱 c bd i arg1 harg1 arg2 harg2 arg3 harg3 arg4 harg4 arg5 harg5 arg6 harg6 arg7 harg7 arg8 harg8 arg9 harg9 arg10 harg10 x0 x1 x2 x3 x4, ih9, ih10]
    exact ⟨rfl, rfl⟩

/-- The run's one piece for the output window, read back, is `body` of the seven input blocks: the scratch buffers are
    reset, walked through the nine tiles (each tile's two stores are the payloads of what the tile before left), and
    the accumulator after the last tile feeds the epilogue. -/
theorem out1_eq (c : Dev nD) (i : grid1.Coords) (arg1 : Memref sig .tc .vmem S1152x128 .f32) (harg1 : arg1.IsWhole) (arg2 : Memref sig .tc .vmem S64x128 .f32) (harg2 : arg2.IsWhole) (arg3 : Memref sig .tc .vmem S64 .f32) (harg3 : arg3.IsWhole) (arg4 : Memref sig .tc .vmem S9216x64 .f32) (harg4 : arg4.IsWhole) (arg5 : Memref sig .tc .vmem S9216x65 .f32) (harg5 : arg5.IsWhole) (arg6 : Memref sig .tc .vmem S128x64 .f32) (harg6 : arg6.IsWhole) (arg7 : Memref sig .tc .vmem S128 .f32) (harg7 : arg7.IsWhole) (arg8 : Memref sig .tc .vmem S1152x128 .f32) (harg8 : arg8.IsWhole) (arg9 : Memref sig .tc .vmem S1152x1 .f32) (harg9 : arg9.IsWhole) (arg10 : Memref sig .tc .vmem S1152x65 .f32) (harg10 : arg10.IsWhole)
    (x0 : Vec F S1152x128 .f32) (x1 : Vec F S64x128 .f32) (x2 : Vec F S64 .f32) (x3 : Vec F S9216x64 .f32) (x4 : Vec F S9216x65 .f32) (x5 : Vec F S128x64 .f32) (x6 : Vec F S128 .f32) :
    out1_A_7 c i arg1 harg1 arg2 harg2 arg3 harg3 arg4 harg4 arg5 harg5 arg6 harg6 arg7 harg7 arg8 harg8 arg9 harg9 arg10 harg10 x0 x1 x2 x3 x4 x5 x6 = body x0 x1 x2 x3 x4 x5 x6 := by
  unfold out1_A_7
  rw [View.read_writes_eq_canon _ _ _ (cover1_A_7 c i arg1 harg1 arg2 harg2 arg3 harg3 arg4 harg4 arg5 harg5 arg6 harg6 arg7 harg7 arg8 harg8 arg9 harg9 arg10 harg10 x0 x1 x2 x3 x4 x5 x6)]
  unfold kernelRun1_A
  dsimp only
  sl_unfold_words
  rw [View.canon_unit_zero hz2]
  simp only [readAt_whole (S := S1152x128) _ hz2, readAt_whole (S := S64x128) _ hz2, readAt_whole (S := S64) _ hz1,
    readAt_whole (S := S128x64) _ hz2, readAt_whole (S := S128) _ hz1, readAt_whole (S := S1152x65) _ hz2,
    Memref.IsWhole.read_unread]
  rw [View.writes_append]
  unfold body
  refine congrArg (fun z => k1_pay1 (k1_pay2 x0) (k1_pay9 z) x5 x6) ?_
  exact (loop_read Variants.none c none i arg1 harg1 arg2 harg2 arg3 harg3 arg4 harg4 arg5 harg5 arg6 harg6 arg7 harg7 arg8 harg8 arg9 harg9 arg10 harg10 x0 x1 x2 x3 x4
    (arg9.view.writes (Elt F) arg9.view.junk [(⟨Rect.unit (s := S1152x1) ![0, 0] S1152x1.size inb_S1152x1_S1152x1_0_0, k1_pay3 (F := F)⟩ : View.Piece (Elt F) S1152x1 .f32)])
    (arg10.view.writes (Elt F) arg10.view.junk [(⟨Rect.unit (s := S1152x65) ![0, 0] S1152x65.size inb_S1152x65_S1152x65_0_0, k1_pay4 (F := F)⟩ : View.Piece (Elt F) S1152x65 .f32)])
    (read_writes_whole arg9.view hz2 inb_S1152x1_S1152x1_0_0 arg9.view.junk (k1_pay3 (F := F)) [])
    (read_writes_whole arg10.view hz2 inb_S1152x65_S1152x65_0_0 arg10.view.junk (k1_pay4 (F := F)) [])
    k1_t1_loop.trips le_rfl).2

end Cert.KernelIdeal.Val1

end
-- ==== Proof.Reg1Math.lean ====
/-
  The attention call's body read at one row and channel: the kernel's formula on the row's query.
-/
import proofs.«421115_j72859825209893_3_alg».proof.Proof.Reg1Defs
import proofs.«421115_j72859825209893_3_alg».proof.Proof.Spec
import proofs.«421115_j72859825209893_3_alg».proof.Proof.LibPlainDot
import Idealize.ShloMosaic.Lib.ValueLayout

set_option maxRecDepth 16384

noncomputable section

open scoped BigOperators

namespace Cert.KernelIdeal.Val1

open Cert.KernelIdeal Cert.KernelIdeal.Gen Idealize.ShloMosaic Idealize.ShloMosaic.TcCoe Idealize.ShloMosaic.ValueIdx Idealize.SL.Sem

/-- The loop over the key tiles runs nine times. -/
theorem trips_eq : k1_t1_loop.trips = 9 := by decide

/-- The reductions' starting pattern for a maximum is `-∞`. -/
theorem negInf_eq : Ideal.ofBits .f32 0xFF800000#32 = (⊥ : EReal) := by simp [Ideal.ofBits, Ideal.ieee]

section Generic
variable {n k o : ℕ}

/-- `X Wᵀ + b` as the program writes it: the product of `X` with the transposed weight into a zero accumulator, plus
    the bias row broadcast over the rows. -/
theorem linear_apply (D : DotDims ⟨2, ![n, k]⟩ ⟨2, ![k, o]⟩ ⟨2, ![n, o]⟩) (hD : D = DotDims.plain n k o)
    (X : FVec Ideal ⟨2, ![n, k]⟩ .bf16) (W : FVec Ideal ⟨2, ![o, k]⟩ .bf16) (b : FVec Ideal ⟨1, ![o]⟩ .f32)
    (ht : (⟨2, ![o, k]⟩ : Shape).Transposes [1, 0] ⟨2, ![k, o]⟩)
    (hs : (⟨1, ![o]⟩ : Shape).ShapeCasts ⟨2, ![1, o]⟩)
    (hb : (⟨2, ![1, o]⟩ : Shape).Broadcasts ⟨2, ![n, o]⟩) (p : Fin n) (j : Fin o) :
    addf (matmul D none X (transpose ⟨2, ![k, o]⟩ [1, 0] W ht) (constant (F := Ideal) ⟨2, ![n, o]⟩ .f32 0x00000000#32))
        (broadcastTo ⟨2, ![n, o]⟩ (shapeCast ⟨2, ![1, o]⟩ b hs) hb) (ix2 p j)
      = (∑ c : Fin k, X (ix2 p c) * W (ix2 j c)) + b (ix1 j) := by
  rw [addf_apply, LibPlainDot.matmul_zero_apply D hD, broadcastTo_1b_ab_apply, shapeCast_a_1a_apply]
  congr 1
  refine Finset.sum_congr rfl fun c _ => ?_
  rw [transpose_ix2_apply]

end Generic

/-- The token block cast to its own shape is the token block. -/
theorem pay2_eq (x0 : Vec Ideal S1152x128 .f32) : k1_pay2 (F := Ideal) x0 = x0 := shapeCast_self _ _

/-- The score block of one key tile: row `p`, key `q` is the query of row `p` against key `q` of the tile. -/
theorem pay5_apply (x0 : Vec Ideal S1152x128 .f32) (x1 : Vec Ideal S64x128 .f32) (x2 : Vec Ideal S64 .f32)
    (v51 : Vec Ideal S1024x64 .f32) (p : Fin 1152) (q : Fin 1024) :
    k1_pay5 (F := Ideal) x0 x1 x2 v51 (ix2 p q)
      = ∑ j : Fin 64, Attn.lin (Attn.mat2 (a := 1152) (b := 128) x0) (Attn.mat2 (a := 64) (b := 128) x1) (Attn.vec1 (a := 64) x2) p j
          * v51 (ix2 q j) := by
  refine (LibPlainDot.matmul_zero_apply dot_S1152x64_S64x1024_S1152x1024_1_0_0_1_n_n rfl none _ _ p q).trans ?_
  refine Finset.sum_congr rfl fun j _ => ?_
  rw [transpose_ix2_apply]
  congr 1
  · refine (linear_apply dot_S1152x128_S128x64_S1152x64_1_0_0_1_n_n rfl _ _ _ _ _ _ p j).trans ?_
    rw [pay2_eq]
    rfl
  · rw [truncf_apply, shapeCast_self]

section Layout
variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

theorem exp_apply {s : Shape} {φ : FTy} (a : FVec Ideal s φ) (i : s.Idx) : exp a i = Ideal.exp (a i) := rfl

/-- The maximum over the columns of a matrix, from `-∞`, at row `p`. -/
theorem maxReduce_apply {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = FKind.maximumf.neutral .f32 hφ) (p : Fin a) :
    multiReduction .maximumf [1] ⟨1, ![a]⟩ src 0xFF800000#32 h hφ hacc (ix1 p) = Attn.rowMax fun q : Fin b => src (ix2 p q) := by
  rw [Ideal.multiReduction_maximumf_single]
  show (Finset.univ : Finset (Fin b)).fold max (Ideal.ofBits .f32 0xFF800000#32) (fun q => src (h.lift (ix1 p) q))
    = (Finset.univ : Finset (Fin b)).fold max ⊥ fun q => src (ix2 p q)
  rw [negInf_eq]
  congr 1
  funext q
  congr 1
  funext c
  match c with
  | ⟨0, _⟩ => rfl
  | ⟨1, _⟩ => rfl

/-- The sum over the columns of a matrix at row `p`. -/
theorem sumReduce_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ src 0x00000000#32 h hφ hacc (ix1 p) = ∑ q : Fin b, src (ix2 p q) := by
  rw [Ideal.multiReduction_add_single]
  show ∑ q : Fin b, src (h.lift (ix1 p) q) = ∑ q : Fin b, src (ix2 p q)
  refine Finset.sum_congr rfl fun q _ => ?_
  congr 1
  funext c
  match c with
  | ⟨0, _⟩ => rfl
  | ⟨1, _⟩ => rfl

/-- The new running maximum at row `p`: the old one against the maximum of the row's scores over the tile. -/
theorem pay6_apply (x0 : Vec Ideal S1152x128 .f32) (x1 : Vec Ideal S64x128 .f32) (x2 : Vec Ideal S64 .f32)
    (v51 : Vec Ideal S1024x64 .f32) (v60 : Vec Ideal S1152x1 .f32) (p : Fin 1152) (c : Fin 1) :
    k1_pay6 (F := Ideal) x0 x1 x2 v51 v60 (ix2 p c)
      = max (v60 (ix2 p c)) (Attn.rowMax fun q : Fin 1024 => k1_pay5 (F := Ideal) x0 x1 x2 v51 (ix2 p q)) := by
  refine (maximumf_apply _ _ _).trans ?_
  refine congrArg (max _) ?_
  rw [shapeCast_a_a1_apply]
  exact maxReduce_apply (a := 1152) (b := 1024) _ _ _ _ p

/-- The stored running maximum is the new running maximum. -/
theorem pay8_eq (x0 : Vec Ideal S1152x128 .f32) (x1 : Vec Ideal S64x128 .f32) (x2 : Vec Ideal S64 .f32)
    (v51 : Vec Ideal S1024x64 .f32) (v60 : Vec Ideal S1152x1 .f32) :
    k1_pay8 (F := Ideal) x0 x1 x2 v51 v60 = k1_pay6 (F := Ideal) x0 x1 x2 v51 v60 := shapeCast_self _ _

/-- The new accumulator at row `p`, column `c`: the old one rescaled, plus the tile's weighted values. -/
theorem pay7_apply (x0 : Vec Ideal S1152x128 .f32) (x1 : Vec Ideal S64x128 .f32) (x2 : Vec Ideal S64 .f32)
    (v51 : Vec Ideal S1024x64 .f32) (v55 : Vec Ideal S1024x65 .f32) (v60 : Vec Ideal S1152x1 .f32) (v70 : Vec Ideal S1152x65 .f32)
    (p : Fin 1152) (c : Fin 65) :
    k1_pay7 (F := Ideal) x0 x1 x2 v51 v55 v60 v70 (ix2 p c)
      = Ideal.exp (v60 (ix2 p (0 : Fin 1)) - k1_pay6 (F := Ideal) x0 x1 x2 v51 v60 (ix2 p (0 : Fin 1))) * v70 (ix2 p c)
        + ∑ q : Fin 1024, Ideal.exp (k1_pay5 (F := Ideal) x0 x1 x2 v51 (ix2 p q) - k1_pay6 (F := Ideal) x0 x1 x2 v51 v60 (ix2 p (0 : Fin 1)))
            * v55 (ix2 q c) := by
  simp only [k1_pay7]
  rw [shapeCast_self, shapeCast_self, addf_apply, mulf_apply, broadcastTo_a1_ab_apply,
    LibPlainDot.matmul_zero_apply dot_S1152x1024_S1024x65_S1152x65_1_0_0_1_n_n rfl]
  congr 1
  refine Finset.sum_congr rfl fun q _ => ?_
  rw [truncf_apply, truncf_apply, exp_apply, subf_apply, broadcastTo_a1_ab_apply]

/-- The softmax of each row of a matrix as the program writes it: the row's maximum subtracted, the exponential, the row's
    sum, the quotient. -/
theorem softmaxRow_apply {a b : ℕ} (V : FVec Ideal ⟨2, ![a, b]⟩ .f32) (hr : (⟨2, ![a, b]⟩ : Shape).Reduces [1] ⟨1, ![a]⟩)
    (hφ₁ : FKind.Formats .f32) (hacc₁ : (0xFF800000#32 : BitVec 32) = FKind.maximumf.neutral .f32 hφ₁)
    (hφ₂ : FKind.Formats .f32) (hacc₂ : (0x00000000#32 : BitVec 32) = FKind.add.neutral .f32 hφ₂)
    (hs : (⟨1, ![a]⟩ : Shape).ShapeCasts ⟨2, ![a, 1]⟩) (hb : (⟨2, ![a, 1]⟩ : Shape).Broadcasts ⟨2, ![a, b]⟩)
    (p : Fin a) (j : Fin b) :
    divf (exp (subf V (broadcastTo ⟨2, ![a, b]⟩ (shapeCast ⟨2, ![a, 1]⟩
              (multiReduction .maximumf [1] ⟨1, ![a]⟩ V 0xFF800000#32 hr hφ₁ hacc₁) hs) hb)))
        (broadcastTo ⟨2, ![a, b]⟩ (shapeCast ⟨2, ![a, 1]⟩
          (multiReduction .add [1] ⟨1, ![a]⟩
            (exp (subf V (broadcastTo ⟨2, ![a, b]⟩ (shapeCast ⟨2, ![a, 1]⟩
              (multiReduction .maximumf [1] ⟨1, ![a]⟩ V 0xFF800000#32 hr hφ₁ hacc₁) hs) hb)))
            0x00000000#32 hr hφ₂ hacc₂) hs) hb) (ix2 p j)
      = Attn.softmax (fun j' : Fin b => V (ix2 p j')) j := by
  have hE : ∀ q : Fin b,
      exp (subf V (broadcastTo ⟨2, ![a, b]⟩ (shapeCast ⟨2, ![a, 1]⟩
              (multiReduction .maximumf [1] ⟨1, ![a]⟩ V 0xFF800000#32 hr hφ₁ hacc₁) hs) hb)) (ix2 p q)
        = Ideal.exp (V (ix2 p q) - Attn.rowMax fun j' : Fin b => V (ix2 p j')) := fun q => by
    rw [exp_apply, subf_apply, broadcastTo_a1_ab_apply, shapeCast_a_a1_apply, maxReduce_apply]
  rw [divf_apply, broadcastTo_a1_ab_apply, shapeCast_a_a1_apply, sumReduce_apply, hE]
  unfold Attn.softmax
  refine congrArg (Ideal.div _) (Finset.sum_congr rfl fun q _ => hE q)

/-- The second softmax at row `p`: of the accumulator's 64 value columns over its column of sums. -/
theorem pay9_apply (v21 : Vec Ideal S1152x65 .f32) (p : Fin 1152) (j : Fin 64) :
    k1_pay9 (F := Ideal) v21 (ix2 p j)
      = Attn.softmax (fun j' : Fin 64 => Ideal.div (v21 (ix2 p (⟨j'.val, by have := j'.isLt; omega⟩ : Fin 65)))
          (v21 (ix2 p (⟨64, by omega⟩ : Fin 65)))) j := by
  refine (softmaxRow_apply (a := 1152) (b := 64) _ _ _ _ _ _ _ _ p j).trans ?_
  refine congrArg (fun s => Attn.softmax s j) (funext fun j' => ?_)
  rw [divf_apply, broadcastTo_a1_ab_apply,
    slice2_axis1_apply 0 v21 _ p j' (⟨j'.val, by have := j'.isLt; omega⟩ : Fin 65) (Nat.zero_add _).symm,
    slice2_axis1_apply 64 v21 _ p (0 : Fin 1) (⟨64, by omega⟩ : Fin 65) rfl]

/-- The stored block at row `p`, channel `k`: the output projection of the row `y`, plus the bias, plus the residual. -/
theorem pay1_apply (v1 : FVec Ideal S1152x128 .f32) (v35 : FVec Ideal S1152x64 .bf16) (v36 : Vec Ideal S128x64 .f32)
    (v40 : Vec Ideal S128 .f32) (p : Fin 1152) (k : Fin 128) :
    k1_pay1 (F := Ideal) v1 v35 v36 v40 (ix2 p k)
      = ((∑ j : Fin 64, v35 (ix2 p j) * v36 (ix2 k j)) + v40 (ix1 k)) + v1 (ix2 p k) := by
  refine (addf_apply _ _ _).trans ?_
  refine congrArg (· + v1 (ix2 p k)) ?_
  exact linear_apply dot_S1152x64_S64x128_S1152x128_1_0_0_1_n_n rfl _ _ _ _ _ _ p k

/-- The running maximum starts at `-∞`. -/
theorem pay3_eq : k1_pay3 (F := Ideal) = fun _ => (⊥ : EReal) := by
  refine (shapeCast_self _ _).trans ?_
  funext i
  exact negInf_eq

/-- The accumulator starts at zero. -/
theorem pay4_eq : k1_pay4 (F := Ideal) = fun _ => (0 : EReal) := by
  refine (shapeCast_self _ _).trans ?_
  funext i
  exact Ideal.ofBits_zero_f32

/-- Row `q` of key tile `k` is row `1024 k + q` of the key array. -/
theorem keyTile_apply (x3 : Vec Ideal S9216x64 .f32) (k : ℕ) (h : k < k1_t1_loop.trips) (h' : k < 9) (q : Fin 1024) (j : Fin 64) :
    keyTile (F := Ideal) x3 ⟨k, h⟩ (ix2 q j) = x3 (ix2 (Attn.tileRow ⟨k, h'⟩ q) j) := by
  unfold keyTile
  refine congrArg x3 (Shape.idx_ext₂ ?_ ?_)
  · show k1_off1 ⟨k, h⟩ 0 + 1 * q.val = k * 1024 + q.val
    rw [k1_off1_eq]
    show 1024 * k + 1 * q.val = k * 1024 + q.val
    omega
  · show k1_off1 ⟨k, h⟩ 1 + 1 * j.val = j.val
    rw [k1_off1_eq]
    show 0 + 1 * j.val = j.val
    omega

/-- Row `q` of value tile `k` is row `1024 k + q` of the augmented value array. -/
theorem valTile_apply (x4 : Vec Ideal S9216x65 .f32) (k : ℕ) (h : k < k1_t1_loop.trips) (h' : k < 9) (q : Fin 1024) (c : Fin 65) :
    valTile (F := Ideal) x4 ⟨k, h⟩ (ix2 q c) = x4 (ix2 (Attn.tileRow ⟨k, h'⟩ q) c) := by
  unfold valTile
  refine congrArg x4 (Shape.idx_ext₂ ?_ ?_)
  · show k1_off2 ⟨k, h⟩ 0 + 1 * q.val = k * 1024 + q.val
    rw [k1_off2_eq]
    show 1024 * k + 1 * q.val = k * 1024 + q.val
    omega
  · show k1_off2 ⟨k, h⟩ 1 + 1 * c.val = c.val
    rw [k1_off2_eq]
    show 0 + 1 * c.val = c.val
    omega

/-- The query of row `p` of the token block. -/
abbrev query (x0 : Vec Ideal S1152x128 .f32) (x1 : Vec Ideal S64x128 .f32) (x2 : Vec Ideal S64 .f32) (p : Fin 1152) : Fin 64 → EReal :=
  Attn.lin (Attn.mat2 (a := 1152) (b := 128) x0) (Attn.mat2 (a := 64) (b := 128) x1) (Attn.vec1 (a := 64) x2) p

/-- The score block of tile `k` at row `p`, key `q`: the row's query against key `1024 k + q`. -/
theorem score_tile (x0 : Vec Ideal S1152x128 .f32) (x1 : Vec Ideal S64x128 .f32) (x2 : Vec Ideal S64 .f32)
    (x3 : Vec Ideal S9216x64 .f32) (k : ℕ) (h : k < k1_t1_loop.trips) (h' : k < 9) (p : Fin 1152) (q : Fin 1024) :
    k1_pay5 (F := Ideal) x0 x1 x2 (keyTile x3 ⟨k, h⟩) (ix2 p q)
      = Attn.score (query x0 x1 x2 p) (Attn.mat2 (a := 9216) (b := 64) x3) (Attn.tileRow ⟨k, h'⟩ q) := by
  rw [pay5_apply]
  unfold Attn.score
  refine Finset.sum_congr rfl fun j _ => ?_
  rw [keyTile_apply x3 k h h']
  rfl

/-- The two scratch buffers at row `p` before tile `k` are the recursion's state for the row's query. -/
theorem st_online (x0 : Vec Ideal S1152x128 .f32) (x1 : Vec Ideal S64x128 .f32) (x2 : Vec Ideal S64 .f32)
    (x3 : Vec Ideal S9216x64 .f32) (x4 : Vec Ideal S9216x65 .f32) (p : Fin 1152) : ∀ k : ℕ,
    ((st (F := Ideal) x0 x1 x2 x3 x4 k).1 (ix2 p (0 : Fin 1)), fun c : Fin 65 => (st (F := Ideal) x0 x1 x2 x3 x4 k).2 (ix2 p c))
      = Attn.online (query x0 x1 x2 p) (Attn.mat2 (a := 9216) (b := 64) x3) (Attn.mat2 (a := 9216) (b := 65) x4) k
  | 0 => by
    show ((k1_pay3 (F := Ideal)) (ix2 p (0 : Fin 1)), fun c : Fin 65 => (k1_pay4 (F := Ideal)) (ix2 p c)) = (⊥, fun _ => 0)
    rw [pay3_eq, pay4_eq]
  | k + 1 => by
    have ih := st_online x0 x1 x2 x3 x4 p k
    by_cases h' : k < 9
    · have h : k < k1_t1_loop.trips := trips_eq ▸ h'
      rw [st, dif_pos h, Attn.online, dif_pos h', ← ih]
      have hs : ∀ q : Fin 1024, k1_pay5 (F := Ideal) x0 x1 x2 (keyTile x3 ⟨k, h⟩) (ix2 p q)
          = Attn.score (query x0 x1 x2 p) (Attn.mat2 (a := 9216) (b := 64) x3) (Attn.tileRow ⟨k, h'⟩ q) :=
        fun q => score_tile x0 x1 x2 x3 k h h' p q
      have hm : k1_pay6 (F := Ideal) x0 x1 x2 (keyTile x3 ⟨k, h⟩) (st (F := Ideal) x0 x1 x2 x3 x4 k).1 (ix2 p (0 : Fin 1))
          = max ((st (F := Ideal) x0 x1 x2 x3 x4 k).1 (ix2 p (0 : Fin 1)))
              (Attn.rowMax fun q : Fin 1024 => Attn.score (query x0 x1 x2 p) (Attn.mat2 (a := 9216) (b := 64) x3) (Attn.tileRow ⟨k, h'⟩ q)) := by
        rw [pay6_apply]
        refine congrArg (max _) (congrArg Attn.rowMax (funext hs))
      unfold Attn.onlineStep
      refine Prod.ext ?_ (funext fun c => ?_)
      · show k1_pay8 (F := Ideal) x0 x1 x2 (keyTile x3 ⟨k, h⟩) (st (F := Ideal) x0 x1 x2 x3 x4 k).1 (ix2 p (0 : Fin 1)) = _
        rw [pay8_eq, hm]
      · show k1_pay7 (F := Ideal) x0 x1 x2 (keyTile x3 ⟨k, h⟩) (valTile x4 ⟨k, h⟩) (st (F := Ideal) x0 x1 x2 x3 x4 k).1
            (st (F := Ideal) x0 x1 x2 x3 x4 k).2 (ix2 p c) = _
        rw [pay7_apply, hm]
        refine congrArg (_ + ·) (Finset.sum_congr rfl fun q _ => ?_)
        rw [hs q, valTile_apply x4 k h h']
        rfl
    · have h : ¬ k < k1_t1_loop.trips := fun hh => h' (trips_eq ▸ hh)
      rw [st, dif_neg h, Attn.online, dif_neg h']
      exact ih

/-- The accumulator at row `p` before tile `n` is the recursion's accumulator for the row's query. -/
theorem st_snd (x0 : Vec Ideal S1152x128 .f32) (x1 : Vec Ideal S64x128 .f32) (x2 : Vec Ideal S64 .f32)
    (x3 : Vec Ideal S9216x64 .f32) (x4 : Vec Ideal S9216x65 .f32) (p : Fin 1152) (n : ℕ) (c : Fin 65) :
    (st (F := Ideal) x0 x1 x2 x3 x4 n).2 (ix2 p c)
      = (Attn.online (query x0 x1 x2 p) (Attn.mat2 (a := 9216) (b := 64) x3) (Attn.mat2 (a := 9216) (b := 65) x4) n).2 c :=
  congrFun (congrArg Prod.snd (st_online x0 x1 x2 x3 x4 p n)) c

/-- Row `p` and channel `k` of the stored block: the output projection of the second softmax of the kernel's
    attention row — the tiled recursion over the whole key and value arrays, for the query of row `p` of the token
    block — plus the token block's entry. -/
theorem body_apply (x0 : Vec Ideal S1152x128 .f32) (x1 : Vec Ideal S64x128 .f32) (x2 : Vec Ideal S64 .f32) (x3 : Vec Ideal S9216x64 .f32)
    (x4 : Vec Ideal S9216x65 .f32) (x5 : Vec Ideal S128x64 .f32) (x6 : Vec Ideal S128 .f32) (p : Fin 1152) (k : Fin 128) :
    body (F := Ideal) x0 x1 x2 x3 x4 x5 x6 (ix2 p k)
      = Attn.proj (Attn.softmax (Attn.kernelAttn
            (Attn.lin (Attn.mat2 (a := 1152) (b := 128) x0) (Attn.mat2 (a := 64) (b := 128) x1) (Attn.vec1 (a := 64) x2) p)
            (Attn.mat2 (a := 9216) (b := 64) x3) (Attn.mat2 (a := 9216) (b := 65) x4)))
          (Attn.mat2 (a := 128) (b := 64) x5) (Attn.vec1 (a := 128) x6) k
        + x0 (ix2 p k) := by
  unfold body
  rw [pay1_apply, pay2_eq]
  refine congrArg (· + x0 (ix2 p k)) ?_
  unfold Attn.proj
  refine congrArg (· + Attn.vec1 (a := 128) x6 k) (Finset.sum_congr rfl fun j _ => ?_)
  refine congrArg (· * Attn.mat2 (a := 128) (b := 64) x5 k j) ?_
  rw [pay9_apply]
  refine congrArg (fun s => Attn.softmax s j) (funext fun j' => ?_)
  have h2 : ∀ c : Fin 65, (st (F := Ideal) x0 x1 x2 x3 x4 k1_t1_loop.trips).2 (ix2 p c)
      = (Attn.online (query x0 x1 x2 p) (Attn.mat2 (a := 9216) (b := 64) x3) (Attn.mat2 (a := 9216) (b := 65) x4) 9).2 c := fun c =>
    (st_snd x0 x1 x2 x3 x4 p k1_t1_loop.trips c).trans
      (congrArg (fun n => (Attn.online (query x0 x1 x2 p) (Attn.mat2 (a := 9216) (b := 64) x3) (Attn.mat2 (a := 9216) (b := 65) x4) n).2 c)
        trips_eq)
  unfold Attn.kernelAttn
  rw [h2, h2]

end Cert.KernelIdeal.Val1

end
-- ==== Proof.Reg1.lean ====
/-
  The attention call: what its output array holds after the run.

  The call walks the 9216 tokens in 8 blocks of 1152 rows. At block t the body sees rows 1152 t … 1152 t + 1151 of the
  token matrix, and the six other arrays whole; its stored block is, row by row, the kernel's formula on that row's
  query plus the row itself. So every block written back is the restriction of ONE function of the arrays to the
  block's rows, and the 8 blocks fill the output array.
-/
import proofs.«421115_j72859825209893_3_alg».proof.Proof.Gen.KernelIdeal.Frame
import proofs.«421115_j72859825209893_3_alg».proof.Proof.Reg1Body
import proofs.«421115_j72859825209893_3_alg».proof.Proof.Reg1Math
import proofs.«421115_j72859825209893_3_alg».proof.Proof.Spec
import proofs.«421115_j72859825209893_3_alg».proof.Proof.LibPlainDot
import Idealize.ShloMosaic.Lib.Pipeline.Value
import Idealize.ShloMosaic.Lib.ValueLayout

set_option maxRecDepth 16384

noncomputable section

open scoped BigOperators

namespace Cert.KernelIdeal.Val1

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

/-! ## The blocks the body sees -/

/-- The index maps over the 8 grid points: the token matrix and the output move with the point along the rows, every
    other window stays at block (0, 0). -/
theorem grid_idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 1) = 0
    ∧ win1_7.index t (0 : Fin 2) = t.val ∧ win1_7.index t (1 : Fin 2) = 0 :=
  (by decide +kernel : ∀ t : Fin grid1.N, _)

/-- Row `p` of block `t` is a row of the array: 8 blocks of 1152 rows make 9216. -/
theorem blockRow_lt (t : Fin cfg1.N) (p : Fin 1152) : t.val * 1152 + p.val < 9216 := by
  have h : t.val < 8 := lt_of_lt_of_eq t.isLt N_1
  have := p.isLt
  omega

/-- The token block at point `t`: its entry (p, q) is the token matrix's entry (1152 t + p, q). -/
theorem tokenBlk_apply (c : Dev nD) (t : Fin cfg1.N) (p : Fin 1152) (q : Fin 128) :
    (iblk1 V c 0 t : Vec Ideal S1152x128 .f32) (ix2 p q)
      = (V c main_v1 : S9216x128.Idx → EReal) (ix2 ⟨t.val * 1152 + p.val, blockRow_lt t p⟩ q) := by
  obtain ⟨e0, e1, -⟩ := grid_idx_facts t
  unfold iblk1
  rw [View.read_apply]
  show V c main_v1 _ = V c main_v1 _
  congr 1
  funext a
  apply Fin.ext
  match a with
  | ⟨0, _⟩ => show win1_0.index t (0 : Fin 2) * 1152 + 1 * p.val = t.val * 1152 + p.val; rw [e0]; omega
  | ⟨1, _⟩ => show win1_0.index t (1 : Fin 2) * 128 + 1 * q.val = q.val; rw [e1]; omega

/-- The query weights' block is the whole array, at every point. -/
theorem wholeBlk1_eq (c : Dev nD) (t : Fin cfg1.N) :
    (iblk1 V c 1 t : Vec Ideal S64x128 .f32) = (V c main_arg1 : S64x128.Idx → EReal) := by
  obtain ⟨-, -, e0, e1, -⟩ := grid_idx_facts t
  funext y
  unfold iblk1
  rw [View.read_apply]
  show V c main_arg1 _ = V c main_arg1 _
  congr 1
  funext a
  apply Fin.ext
  match a with
  | ⟨0, _⟩ => show win1_1.index t (0 : Fin 2) * 64 + 1 * (y 0).val = (y 0).val; rw [e0]; omega
  | ⟨1, _⟩ => show win1_1.index t (1 : Fin 2) * 128 + 1 * (y 1).val = (y 1).val; rw [e1]; omega

/-- The query bias's block is the whole array. -/
theorem wholeBlk2_eq (c : Dev nD) (t : Fin cfg1.N) :
    (iblk1 V c 2 t : Vec Ideal S64 .f32) = (V c main_arg2 : S64.Idx → EReal) := by
  obtain ⟨-, -, -, -, e0, -⟩ := grid_idx_facts t
  funext y
  unfold iblk1
  rw [View.read_apply]
  show V c main_arg2 _ = V c main_arg2 _
  congr 1
  funext a
  apply Fin.ext
  match a with
  | ⟨0, _⟩ => show win1_2.index t (0 : Fin 1) * 64 + 1 * (y 0).val = (y 0).val; rw [e0]; omega

/-- The keys' block is the whole array. -/
theorem wholeBlk3_eq (c : Dev nD) (t : Fin cfg1.N) :
    (iblk1 V c 3 t : Vec Ideal S9216x64 .f32) = (V c main_v4_0 : S9216x64.Idx → EReal) := by
  obtain ⟨-, -, -, -, -, e0, e1, -⟩ := grid_idx_facts t
  funext y
  unfold iblk1
  rw [View.read_apply]
  show V c main_v4_0 _ = V c main_v4_0 _
  congr 1
  funext a
  apply Fin.ext
  match a with
  | ⟨0, _⟩ => show win1_3.index t (0 : Fin 2) * 9216 + 1 * (y 0).val = (y 0).val; rw [e0]; omega
  | ⟨1, _⟩ => show win1_3.index t (1 : Fin 2) * 64 + 1 * (y 1).val = (y 1).val; rw [e1]; omega

/-- The augmented values' block is the whole array. -/
theorem wholeBlk4_eq (c : Dev nD) (t : Fin cfg1.N) :
    (iblk1 V c 4 t : Vec Ideal S9216x65 .f32) = (V c main_v4_1 : S9216x65.Idx → EReal) := by
  obtain ⟨-, -, -, -, -, -, -, e0, e1, -⟩ := grid_idx_facts t
  funext y
  unfold iblk1
  rw [View.read_apply]
  show V c main_v4_1 _ = V c main_v4_1 _
  congr 1
  funext a
  apply Fin.ext
  match a with
  | ⟨0, _⟩ => show win1_4.index t (0 : Fin 2) * 9216 + 1 * (y 0).val = (y 0).val; rw [e0]; omega
  | ⟨1, _⟩ => show win1_4.index t (1 : Fin 2) * 65 + 1 * (y 1).val = (y 1).val; rw [e1]; omega

/-- The output weights' block is the whole array. -/
theorem wholeBlk5_eq (c : Dev nD) (t : Fin cfg1.N) :
    (iblk1 V c 5 t : Vec Ideal S128x64 .f32) = (V c main_arg7 : S128x64.Idx → EReal) := by
  obtain ⟨-, -, -, -, -, -, -, -, -, e0, e1, -⟩ := grid_idx_facts t
  funext y
  unfold iblk1
  rw [View.read_apply]
  show V c main_arg7 _ = V c main_arg7 _
  congr 1
  funext a
  apply Fin.ext
  match a with
  | ⟨0, _⟩ => show win1_5.index t (0 : Fin 2) * 128 + 1 * (y 0).val = (y 0).val; rw [e0]; omega
  | ⟨1, _⟩ => show win1_5.index t (1 : Fin 2) * 64 + 1 * (y 1).val = (y 1).val; rw [e1]; omega

/-- The output bias's block is the whole array. -/
theorem wholeBlk6_eq (c : Dev nD) (t : Fin cfg1.N) :
    (iblk1 V c 6 t : Vec Ideal S128 .f32) = (V c main_arg8 : S128.Idx → EReal) := by
  obtain ⟨-, -, -, -, -, -, -, -, -, -, -, e0, -⟩ := grid_idx_facts t
  funext y
  unfold iblk1
  rw [View.read_apply]
  show V c main_arg8 _ = V c main_arg8 _
  congr 1
  funext a
  apply Fin.ext
  match a with
  | ⟨0, _⟩ => show win1_6.index t (0 : Fin 1) * 128 + 1 * (y 0).val = (y 0).val; rw [e0]; omega

/-- The query of a row reads that row of the token matrix only. -/
theorem lin_congr_row {n n' k o : ℕ} (X : Attn.Mat n k) (X' : Attn.Mat n' k) (W : Attn.Mat o k) (b : Fin o → EReal)
    (r : Fin n) (r' : Fin n') (h : X r = X' r') : Attn.lin X W b r = Attn.lin X' W b r' := by
  unfold Attn.lin
  funext j
  rw [h]

/-! ## The whole-array function, and what each point writes back -/

/-- What the output array ends holding, index by index: the kernel's formula on the row's query against all keys and
    augmented values, projected, plus the token matrix's entry. -/
def outFn (c : Dev nD) : S9216x128.Idx → EReal := fun i =>
  Attn.proj (Attn.softmax (Attn.kernelAttn
        (Attn.lin (Attn.mat2 (a := 9216) (b := 128) (V c main_v1)) (Attn.mat2 (a := 64) (b := 128) (V c main_arg1)) (Attn.vec1 (a := 64) (V c main_arg2)) (i 0))
        (Attn.mat2 (a := 9216) (b := 64) (V c main_v4_0)) (Attn.mat2 (a := 9216) (b := 65) (V c main_v4_1))))
      (Attn.mat2 (a := 128) (b := 64) (V c main_arg7)) (Attn.vec1 (a := 128) (V c main_arg8)) (i 1)
    + V c main_v1 (ix2 (i 0) (i 1))

/-- The body's block at point `t`, at row `p` and channel `k`, is `outFn` at row 1152 t + p. -/
theorem body_at_block (c : Dev nD) (t : Fin cfg1.N) (p : Fin 1152) (k : Fin 128) :
    body (F := Ideal) (iblk1 V c 0 t) (iblk1 V c 1 t) (iblk1 V c 2 t) (iblk1 V c 3 t) (iblk1 V c 4 t) (iblk1 V c 5 t) (iblk1 V c 6 t) (ix2 p k)
      = outFn V c (ix2 ⟨t.val * 1152 + p.val, blockRow_lt t p⟩ k) := by
  refine (body_apply (iblk1 V c 0 t) (iblk1 V c 1 t) (iblk1 V c 2 t) (iblk1 V c 3 t) (iblk1 V c 4 t) (iblk1 V c 5 t) (iblk1 V c 6 t) p k).trans ?_
  rw [wholeBlk1_eq V c t, wholeBlk2_eq V c t, wholeBlk3_eq V c t, wholeBlk4_eq V c t, wholeBlk5_eq V c t, wholeBlk6_eq V c t]
  rw [lin_congr_row (Attn.mat2 (a := 1152) (b := 128) (iblk1 V c 0 t)) (Attn.mat2 (a := 9216) (b := 128) (V c main_v1))
    (Attn.mat2 (a := 64) (b := 128) (V c main_arg1)) (Attn.vec1 (a := 64) (V c main_arg2)) p ⟨t.val * 1152 + p.val, blockRow_lt t p⟩
    (funext fun q => tokenBlk_apply V c t p q)]
  rw [tokenBlk_apply V c t p k]
  rfl

/-- After the body at point `t` the output's staging buffer holds the body's block of the seven input blocks. -/
theorem outsAt1_eq_body (c : Dev nD) (t : Fin cfg1.N) :
    outsAt1 V c t = body (F := Ideal) (iblk1 V c 0 t) (iblk1 V c 1 t) (iblk1 V c 2 t) (iblk1 V c 3 t) (iblk1 V c 4 t) (iblk1 V c 5 t) (iblk1 V c 6 t) := by
  unfold outsAt1
  exact out1_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (iblk1 V c 0 t) (iblk1 V c 1 t) (iblk1 V c 2 t) (iblk1 V c 3 t) (iblk1 V c 4 t) (iblk1 V c 5 t) (iblk1 V c 6 t)

/-- What point `t` writes back is block `t` of `outFn`: rows 1152 t … 1152 t + 1151, all 128 channels. -/
theorem flushed7_eq (c : Dev nD) (t : Fin cfg1.N) :
    (dat1 V c).flushed 7 t = ((cfg1.win 7).blk t).view.read (Elt Ideal) (outFn V c) := by
  show (cfg1.win 7).cut (grid1.coords t) ((dat1 V c).after 7 t) = _
  rw [after1_7, outsAt1_eq_body]
  obtain ⟨-, -, -, -, -, -, -, -, -, -, -, -, e0, e1⟩ := grid_idx_facts t
  funext y
  obtain ⟨p, k, rfl⟩ : ∃ (p : Fin 1152) (k : Fin 128), y = ix2 p k := ⟨y 0, y 1, eq_ix2 y⟩
  rw [View.read_apply]
  show body (F := Ideal) (iblk1 V c 0 t) (iblk1 V c 1 t) (iblk1 V c 2 t) (iblk1 V c 3 t) (iblk1 V c 4 t) (iblk1 V c 5 t) (iblk1 V c 6 t) (ix2 p k)
    = outFn V c (((cfg1.win 7).blk t).view.emb (ix2 p k))
  rw [body_at_block V c t p k]
  congr 1
  funext a
  apply Fin.ext
  match a with
  | ⟨0, _⟩ => show t.val * 1152 + p.val = win1_7.index t (0 : Fin 2) * 1152 + 1 * p.val; rw [e0]; omega
  | ⟨1, _⟩ => show k.val = win1_7.index t (1 : Fin 2) * 128 + 1 * k.val; rw [e1]; omega

/-! ## The 8 blocks fill the array -/

/-- An index of the output array is in point `t`'s block iff each coordinate is in the block's range on its axis. -/
theorem mem_blk7 (t : Fin cfg1.N) (i : S9216x128.Idx) :
    i ∈ ((cfg1.win 7).blk t).view.set ↔ ∀ a : Fin 2, win1_7.index t a * S1152x128.size a ≤ (i a).val ∧ (i a).val < win1_7.index t a * S1152x128.size a + S1152x128.size a := by
  show i ∈ ((View.whole main_v5).slice (win1_7.rect t)).set ↔ _
  rw [View.set_slice_whole, Rect.mem_set_unit]
  exact Iff.rfl

/-- Row `r` lies in the block of point `r / 1152`. -/
theorem cover7 (i : S9216x128.Idx) :
    ∃ t : Fin cfg1.N, (cfg1.win 7).flush t = true ∧ i ∈ ((cfg1.win 7).blk t).view.set := by
  have hi0 : (i 0).val < 9216 := (i 0).isLt
  have hi1 : (i 1).val < 128 := (i 1).isLt
  have ht : (i 0).val / 1152 < cfg1.N := by rw [show cfg1.N = 8 from N_1]; omega
  refine ⟨⟨(i 0).val / 1152, ht⟩, flush1_7 _, ?_⟩
  rw [mem_blk7]
  obtain ⟨-, -, -, -, -, -, -, -, -, -, -, -, e0, e1⟩ := grid_idx_facts ⟨(i 0).val / 1152, ht⟩
  intro a
  match a with
  | ⟨0, _⟩ =>
    show win1_7.index ⟨(i 0).val / 1152, ht⟩ (0 : Fin 2) * 1152 ≤ (i 0).val ∧ (i 0).val < win1_7.index ⟨(i 0).val / 1152, ht⟩ (0 : Fin 2) * 1152 + 1152
    rw [e0]
    show (i 0).val / 1152 * 1152 ≤ (i 0).val ∧ (i 0).val < (i 0).val / 1152 * 1152 + 1152
    omega
  | ⟨1, _⟩ =>
    show win1_7.index ⟨(i 0).val / 1152, ht⟩ (1 : Fin 2) * 128 ≤ (i 1).val ∧ (i 1).val < win1_7.index ⟨(i 0).val / 1152, ht⟩ (1 : Fin 2) * 128 + 128
    rw [e1]
    omega

/-- The output array (tokens × 128) after the call, at token `r` and channel `k`: the kernel's formula on the arrays the
    call finds — queries from the token matrix, keys and augmented values as they lie in the two arrays the projection
    call wrote — plus the token matrix's entry. -/
theorem arr1_7 (c : Dev nD) (r : Fin 9216) (k : Fin 128) :
    (dat1 V c).arrAt 7 cfg1.N (ix2 r k)
      = Attn.proj (Attn.softmax (Attn.kernelAttn
            (Attn.lin (Attn.mat2 (a := 9216) (b := 128) (V c main_v1)) (Attn.mat2 (a := 64) (b := 128) (V c main_arg1)) (Attn.vec1 (a := 64) (V c main_arg2)) r)
            (Attn.mat2 (a := 9216) (b := 64) (V c main_v4_0)) (Attn.mat2 (a := 9216) (b := 65) (V c main_v4_1))))
          (Attn.mat2 (a := 128) (b := 64) (V c main_arg7)) (Attn.vec1 (a := 128) (V c main_arg8)) k
        + V c main_v1 (ix2 r k) :=
  congrFun ((dat1 V c).arrAt_eq_of_cover 7 (outFn V c) (fun t _ => flushed7_eq V c t) cover7) (ix2 r k)

end Cert.KernelIdeal.Val1

end
-- ==== Proof.KernelValue.lean ====
/-
  The idealized kernel program's result, read at one pixel and channel, is the kernel's formula on the token matrix.

  The program: transpose and reshape the image into tokens × channels; stack the key and value weights and biases;
  the projection call writes the key array and the augmented value array; the attention call reads them back whole
  and writes tokens × channels; reshape and transpose back. Each array at a boundary is named by the generated frame
  (`V1` after the first host stretch, `V2` after the projection call, `W3` after the attention call, `W4` at the
  end); here each is read at an index.
-/
import proofs.«421115_j72859825209893_3_alg».proof.Proof.Run
import proofs.«421115_j72859825209893_3_alg».proof.Proof.Reg0
import proofs.«421115_j72859825209893_3_alg».proof.Proof.Reg1
import proofs.«421115_j72859825209893_3_alg».proof.Proof.Spec
import Idealize.ShloMosaic.Lib.StableHlo.Run
import Idealize.ShloMosaic.Lib.Pipeline.Value

set_option maxRecDepth 16384

noncomputable section

open scoped BigOperators

namespace Cert.KernelIdeal.KVal

open Cert.KernelIdeal Cert.KernelIdeal.Gen Idealize.ShloMosaic Idealize.ShloMosaic.TcCoe Idealize.ShloMosaic.ValueIdx Idealize.SL.Sem Idealize.ShloMosaic.StableHlo

/-! ## The two layout changes at an index -/

/-- Image to tokens: the reshape of the channels-last transpose, at token `r` and channel `c`, is the image at
    channel `c` and pixel `(r / 96, r % 96)`. -/
theorem tokens_apply (x : S1x128x96x96.Idx → EReal) (r : Fin 9216) (c : Fin 128) :
    shapeCast S9216x128 (transpose S1x96x96x128 [0, 2, 3, 1] x transposes_S1x128x96x96_S1x96x96x128_0_2_3_1)
      shapeCasts_S1x96x96x128_S9216x128 (ix2 r c) = Attn.tokens x r c := by
  have hr : r.val < 9216 := r.isLt
  have hc : c.val < 128 := c.isLt
  rw [shapeCast_apply _ shapeCasts_S1x96x96x128_S9216x128 (ix2 r c)
    (ix4 (0 : Fin 1) (⟨r.val / 96, by omega⟩ : Fin 96) (⟨r.val % 96, by omega⟩ : Fin 96) c)
    (by rewrite [Shape.rowMajor_val_four, Shape.rowMajor_val_two]
        show ((0 * 96 + r.val / 96) * 96 + r.val % 96) * 128 + c.val = r.val * 128 + c.val
        omega)]
  exact transpose_apply [0, 2, 3, 1] x transposes_S1x128x96x96_S1x96x96x128_0_2_3_1 _
    (ix4 (0 : Fin 1) c (⟨r.val / 96, by omega⟩ : Fin 96) (⟨r.val % 96, by omega⟩ : Fin 96)) (fun b => match b with
      | ⟨0, _⟩ => rfl
      | ⟨1, _⟩ => rfl
      | ⟨2, _⟩ => rfl
      | ⟨3, _⟩ => rfl)

/-- Tokens back to the image: at channel `k` and pixel `(h, w)` the result reads the token matrix at that pixel's
    token and channel `k`. -/
theorem image_apply (y : S9216x128.Idx → EReal) (k : Fin 128) (h w : Fin 96) :
    transpose S1x128x96x96 [0, 3, 1, 2] (shapeCast S1x96x96x128 y shapeCasts_S9216x128_S1x96x96x128)
      transposes_S1x96x96x128_S1x128x96x96_0_3_1_2 (ix4 (0 : Fin 1) k h w) = y (ix2 (Attn.pixel h w) k) := by
  have hh : h.val < 96 := h.isLt
  have hw : w.val < 96 := w.isLt
  have hk : k.val < 128 := k.isLt
  rw [transpose_apply [0, 3, 1, 2] _ transposes_S1x96x96x128_S1x128x96x96_0_3_1_2 (ix4 (0 : Fin 1) k h w)
    (ix4 (0 : Fin 1) h w k) (fun b => match b with
      | ⟨0, _⟩ => rfl
      | ⟨1, _⟩ => rfl
      | ⟨2, _⟩ => rfl
      | ⟨3, _⟩ => rfl)]
  exact shapeCast_apply y shapeCasts_S9216x128_S1x96x96x128 (ix4 (0 : Fin 1) h w k) (ix2 (Attn.pixel h w) k)
    (by rewrite [Shape.rowMajor_val_two, Shape.rowMajor_val_four]
        show (h.val * 96 + w.val) * 128 + k.val = ((0 * 96 + h.val) * 96 + w.val) * 128 + k.val
        omega)

/-! ## The stacked weight and bias at an index -/

/-- Rows 0 to 63 of the stack are the first matrix's. -/
theorem stackW_left (a b : S64x128.Idx → EReal) (j : Fin 64) (c : Fin 128) :
    concatenate S128x128 0 [⟨S64x128, a⟩, ⟨S64x128, b⟩] concatenates_S64x128_S64x128_S128x128_d0
      (ix2 (⟨j.val, by have := j.isLt; omega⟩ : Fin 128) c) = a (ix2 j c) :=
  concatenate_pair_apply_left 0 a b concatenates_S64x128_S64x128_S128x128_d0 _ rfl (ix2 j c) (fun b => match b with
    | ⟨0, _⟩ => rfl
    | ⟨1, _⟩ => rfl)

/-- Rows 64 to 127 of the stack are the second matrix's. -/
theorem stackW_right (a b : S64x128.Idx → EReal) (j : Fin 64) (c : Fin 128) :
    concatenate S128x128 0 [⟨S64x128, a⟩, ⟨S64x128, b⟩] concatenates_S64x128_S64x128_S128x128_d0
      (ix2 (⟨64 + j.val, by have := j.isLt; omega⟩ : Fin 128) c) = b (ix2 j c) :=
  concatenate_pair_apply_right 0 a b concatenates_S64x128_S64x128_S128x128_d0 _ rfl rfl (ix2 j c) (fun b hb => match b, hb with
    | ⟨0, _⟩, hb => absurd rfl hb
    | ⟨1, _⟩, _ => rfl) (by show j.val + 64 = 64 + j.val; omega)

/-- Entries 0 to 63 of the stacked bias are the first vector's. -/
theorem stackB_left (a b : S64.Idx → EReal) (j : Fin 64) :
    concatenate S128 0 [⟨S64, a⟩, ⟨S64, b⟩] concatenates_S64_S64_S128_d0
      (ix1 (⟨j.val, by have := j.isLt; omega⟩ : Fin 128)) = a (ix1 j) :=
  concatenate_pair_apply_left 0 a b concatenates_S64_S64_S128_d0 _ rfl (ix1 j) (fun b => match b with
    | ⟨0, _⟩ => rfl)

/-- Entries 64 to 127 of the stacked bias are the second vector's. -/
theorem stackB_right (a b : S64.Idx → EReal) (j : Fin 64) :
    concatenate S128 0 [⟨S64, a⟩, ⟨S64, b⟩] concatenates_S64_S64_S128_d0
      (ix1 (⟨64 + j.val, by have := j.isLt; omega⟩ : Fin 128)) = b (ix1 j) :=
  concatenate_pair_apply_right 0 a b concatenates_S64_S64_S128_d0 _ rfl rfl (ix1 j) (fun b hb => match b, hb with
    | ⟨0, _⟩, hb => absurd rfl hb) (by show j.val + 64 = 64 + j.val; omega)

/-! ## The arrays at the boundaries -/

variable (m : (ℓ : Loc nD τ sig) → Buf (Elt Ideal) ℓ) (ρ : Dev nD → PrngReg)

theorem V1_v1 (c : Dev nD) : (V1 m ρ c main_v1 : S9216x128.Idx → EReal)
    = shapeCast S9216x128 (transpose S1x96x96x128 [0, 2, 3, 1] (m ((c : Thread nD τ).loc main_arg0)) transposes_S1x128x96x96_S1x96x96x128_0_2_3_1) shapeCasts_S1x96x96x128_S9216x128 := by
  show StableHlo.after hostOps0 (W0 m ρ c) (Proc.devRef .tc main_v1) = _
  after_results
  rfl

theorem V1_v2 (c : Dev nD) : (V1 m ρ c main_v2 : S128x128.Idx → EReal)
    = concatenate S128x128 0 [⟨S64x128, m ((c : Thread nD τ).loc main_arg3)⟩, ⟨S64x128, m ((c : Thread nD τ).loc main_arg5)⟩] concatenates_S64x128_S64x128_S128x128_d0 := by
  show StableHlo.after hostOps0 (W0 m ρ c) (Proc.devRef .tc main_v2) = _
  after_results

theorem V1_v3 (c : Dev nD) : (V1 m ρ c main_v3 : S128.Idx → EReal)
    = concatenate S128 0 [⟨S64, m ((c : Thread nD τ).loc main_arg4)⟩, ⟨S64, m ((c : Thread nD τ).loc main_arg6)⟩] concatenates_S64_S64_S128_d0 := by
  show StableHlo.after hostOps0 (W0 m ρ c) (Proc.devRef .tc main_v3) = _
  after_results

/-- The first host stretch writes none of the arguments. -/
theorem V1_arg (c : Dev nD) (b : Ref sig .tc) (hb : b = main_arg1 ∨ b = main_arg2 ∨ b = main_arg7 ∨ b = main_arg8) :
    V1 m ρ c b = m ((c : Thread nD τ).loc b) := by
  rcases hb with rfl | rfl | rfl | rfl <;>
  · show StableHlo.after hostOps0 (W0 m ρ c) (Proc.devRef .tc _) = _
    after_results

/-- The token matrix is an input of the projection call: it leaves it as it found it. -/
theorem V2_v1 (c : Dev nD) : V2 m ρ c main_v1 = V1 m ρ c main_v1 :=
  (W2_arr m ρ c 0).trans (((dat0 (V1 m ρ) c).arrAt_in 0 rfl _).trans (A_eq0 (V1 m ρ) c 0))

/-- The projection call does not touch the arguments the attention call reads. -/
theorem V2_arg (c : Dev nD) (b : Ref sig .tc) (hb : b = main_arg1 ∨ b = main_arg2 ∨ b = main_arg7 ∨ b = main_arg8) :
    V2 m ρ c b = m ((c : Thread nD τ).loc b) := by
  rcases hb with rfl | rfl | rfl | rfl
  · exact (W2_of_ne m ρ c main_arg1 (by decide)).trans (V1_arg m ρ c main_arg1 (.inl rfl))
  · exact (W2_of_ne m ρ c main_arg2 (by decide)).trans (V1_arg m ρ c main_arg2 (.inr (.inl rfl)))
  · exact (W2_of_ne m ρ c main_arg7 (by decide)).trans (V1_arg m ρ c main_arg7 (.inr (.inr (.inl rfl))))
  · exact (W2_of_ne m ρ c main_arg8 (by decide)).trans (V1_arg m ρ c main_arg8 (.inr (.inr (.inr rfl))))

/-- The token matrix as the attention call finds it. -/
theorem tokens_V2 (c : Dev nD) :
    Attn.mat2 (a := 9216) (b := 128) (V2 m ρ c main_v1) = Attn.tokens (m ((c : Thread nD τ).loc main_arg0)) := by
  funext r q
  show V2 m ρ c main_v1 (ix2 r q) = _
  rw [V2_v1, V1_v1]
  exact tokens_apply _ r q

/-- The token matrix as the projection call finds it. -/
theorem tokens_V1 (c : Dev nD) :
    Attn.mat2 (a := 9216) (b := 128) (V1 m ρ c main_v1) = Attn.tokens (m ((c : Thread nD τ).loc main_arg0)) := by
  funext r q
  show V1 m ρ c main_v1 (ix2 r q) = _
  rw [V1_v1]
  exact tokens_apply _ r q

/-- The key array after the projection call: the key projection of the tokens. -/
theorem keys_V2 (c : Dev nD) :
    Attn.mat2 (a := 9216) (b := 64) (V2 m ρ c main_v4_0)
      = Attn.lin (Attn.tokens (m ((c : Thread nD τ).loc main_arg0))) (Attn.mat2 (a := 64) (b := 128) (m ((c : Thread nD τ).loc main_arg3)))
          (Attn.vec1 (a := 64) (m ((c : Thread nD τ).loc main_arg4))) := by
  funext r j
  show V2 m ρ c main_v4_0 (ix2 r j) = _
  rw [show V2 m ρ c main_v4_0 = (dat0 (V1 m ρ) c).arrAt 3 cfg0.N from W2_arr m ρ c 3, Val0.arr0_3, tokens_V1]
  unfold Attn.lin
  congr 1
  · refine Finset.sum_congr rfl fun q _ => ?_
    congr 1
    show V1 m ρ c main_v2 (ix2 _ q) = _
    rw [V1_v2]
    exact stackW_left _ _ j q
  · show V1 m ρ c main_v3 (ix1 _) = _
    rw [V1_v3]
    exact stackB_left _ _ j

/-- The value array after the projection call: the value projection of the tokens with a column of ones. -/
theorem values_V2 (c : Dev nD) :
    Attn.mat2 (a := 9216) (b := 65) (V2 m ρ c main_v4_1)
      = Attn.aug (Attn.lin (Attn.tokens (m ((c : Thread nD τ).loc main_arg0))) (Attn.mat2 (a := 64) (b := 128) (m ((c : Thread nD τ).loc main_arg5)))
          (Attn.vec1 (a := 64) (m ((c : Thread nD τ).loc main_arg6)))) := by
  funext r q
  show V2 m ρ c main_v4_1 (ix2 r q) = _
  rw [show V2 m ρ c main_v4_1 = (dat0 (V1 m ρ) c).arrAt 4 cfg0.N from W2_arr m ρ c 4, Val0.arr0_4, tokens_V1]
  unfold Attn.aug
  by_cases h : q.val < 64
  · rw [dif_pos h, dif_pos h]
    unfold Attn.lin
    congr 1
    · refine Finset.sum_congr rfl fun s _ => ?_
      congr 1
      show V1 m ρ c main_v2 (ix2 _ s) = _
      rw [V1_v2]
      exact stackW_right _ _ ⟨q.val, h⟩ s
    · show V1 m ρ c main_v3 (ix1 _) = _
      rw [V1_v3]
      exact stackB_right _ _ ⟨q.val, h⟩
  · rw [dif_neg h, dif_neg h]

/-! ## The result -/

theorem W4_v7 (c : Dev nD) : (W4 m ρ c (Proc.devRef .tc main_v7) : S1x128x96x96.Idx → EReal)
    = transpose S1x128x96x96 [0, 3, 1, 2] (shapeCast S1x96x96x128 (W3 m ρ c (Proc.devRef .tc main_v5) : S9216x128.Idx → EReal) shapeCasts_S9216x128_S1x96x96x128) transposes_S1x96x96x128_S1x128x96x96_0_3_1_2 := by
  show StableHlo.after hostOps2 (W3 m ρ c) (Proc.devRef .tc main_v7) = _
  after_results
  rfl

/-- THE KERNEL PROGRAM's result at channel `k` and pixel `(h, w)`: the kernel's formula at that pixel's token. -/
theorem result_apply (c : Dev nD) (k : Fin 128) (h w : Fin 96) :
    W4 m ρ c (Proc.devRef .tc main_v7) (ix4 (0 : Fin 1) k h w)
      = Attn.kernelMat (Attn.tokens (m ((c : Thread nD τ).loc main_arg0)))
          (Attn.mat2 (a := 64) (b := 128) (m ((c : Thread nD τ).loc main_arg1))) (Attn.vec1 (a := 64) (m ((c : Thread nD τ).loc main_arg2)))
          (Attn.mat2 (a := 64) (b := 128) (m ((c : Thread nD τ).loc main_arg3))) (Attn.vec1 (a := 64) (m ((c : Thread nD τ).loc main_arg4)))
          (Attn.mat2 (a := 64) (b := 128) (m ((c : Thread nD τ).loc main_arg5))) (Attn.vec1 (a := 64) (m ((c : Thread nD τ).loc main_arg6)))
          (Attn.mat2 (a := 128) (b := 64) (m ((c : Thread nD τ).loc main_arg7))) (Attn.vec1 (a := 128) (m ((c : Thread nD τ).loc main_arg8)))
          (Attn.pixel h w) k := by
  rw [W4_v7, image_apply,
    show (W3 m ρ c (Proc.devRef .tc main_v5) : S9216x128.Idx → EReal) = (dat1 (V2 m ρ) c).arrAt 7 cfg1.N from W3_arr m ρ c 7,
    Val1.arr1_7, tokens_V2, keys_V2, values_V2, V2_arg m ρ c main_arg1 (.inl rfl), V2_arg m ρ c main_arg2 (.inr (.inl rfl)),
    V2_arg m ρ c main_arg7 (.inr (.inr (.inl rfl))), V2_arg m ρ c main_arg8 (.inr (.inr (.inr rfl)))]
  unfold Attn.kernelMat
  congr 1
  exact congrFun (congrFun (tokens_V2 m ρ c) (Attn.pixel h w)) k

end Cert.KernelIdeal.KVal

end
-- ==== Proof.lean ====
/-
  The certificate: a two-call attention kernel (a projection call, then a flash-attention call that walks the keys in
  nine tiles with a running maximum and a rescaled accumulator) against the plain double-softmax attention block.

  Frames: the two kernel programs' are the generated ones; the reference's is its generated run with the result
  dropped. The idealization rewrote nothing, so `preserves` is trivial. `algebraic`: the idealized kernel's run ends with
  the result at the kernel's formula on the token matrix (Proof/KernelValue.lean, over the two calls' arrays:
  Proof/Reg0.lean, Proof/Reg1.lean), the reference's at the reference's formula plus the input (Proof/RefValue.lean);
  the precondition makes every input entry a real (Proof/Finite.lean), and on reals the tiled recursion is the one
  softmax (Proof/Algebra.lean); the residual the kernel adds to its token block is the input at that pixel.
-/
import proofs.«421115_j72859825209893_3_alg».proof.Defs
import proofs.«421115_j72859825209893_3_alg».proof.Proof.Gen.Kernel
import proofs.«421115_j72859825209893_3_alg».proof.Proof.Gen.Kernel.Skeleton
import proofs.«421115_j72859825209893_3_alg».proof.Proof.Gen.Kernel.Loops
import proofs.«421115_j72859825209893_3_alg».proof.Proof.Gen.Kernel.Launch
import proofs.«421115_j72859825209893_3_alg».proof.Proof.Gen.Kernel.Points
import proofs.«421115_j72859825209893_3_alg».proof.Proof.Gen.Kernel.Frame
import proofs.«421115_j72859825209893_3_alg».proof.Proof.Gen.KernelIdeal
import proofs.«421115_j72859825209893_3_alg».proof.Proof.Gen.KernelIdeal.Skeleton
import proofs.«421115_j72859825209893_3_alg».proof.Proof.Gen.KernelIdeal.Loops
import proofs.«421115_j72859825209893_3_alg».proof.Proof.Gen.KernelIdeal.Launch
import proofs.«421115_j72859825209893_3_alg».proof.Proof.Gen.KernelIdeal.Points
import proofs.«421115_j72859825209893_3_alg».proof.Proof.Gen.KernelIdeal.Frame
import proofs.«421115_j72859825209893_3_alg».proof.Proof.Gen.ReferenceIdeal
import proofs.«421115_j72859825209893_3_alg».proof.Proof.Gen.ReferenceIdeal.Run
import proofs.«421115_j72859825209893_3_alg».proof.Proof.Gen.ReferenceIdeal.Read
import proofs.«421115_j72859825209893_3_alg».proof.Proof.Gen.Pre_finite_inputs
import proofs.«421115_j72859825209893_3_alg».proof.Proof.Spec
import proofs.«421115_j72859825209893_3_alg».proof.Proof.Algebra
import proofs.«421115_j72859825209893_3_alg».proof.Proof.Finite
import proofs.«421115_j72859825209893_3_alg».proof.Proof.RefValue
import proofs.«421115_j72859825209893_3_alg».proof.Proof.Run
import proofs.«421115_j72859825209893_3_alg».proof.Proof.KernelValue
import Idealize.ShloMosaic.Adequacy
import Idealize.ShloMosaic.Init

noncomputable section

namespace Cert.Proof

open Idealize.ShloMosaic Idealize.ShloMosaic.TcCoe Idealize.ShloMosaic.ValueIdx Idealize.SL.Sem

/-- The token of pixel `(h, w)` reads the image at that pixel. -/
theorem tokens_pixel (x : (⟨4, ![1, 128, 96, 96]⟩ : Shape).Idx → EReal) (k : Fin 128) (h w : Fin 96) :
    Attn.tokens x (Attn.pixel h w) k = x (ix4 (0 : Fin 1) k h w) := by
  have hh : h.val < 96 := h.isLt
  have hw : w.val < 96 := w.isLt
  unfold Attn.tokens Attn.pixel
  congr 1
  funext a
  match a with
  | ⟨0, _⟩ => rfl
  | ⟨1, _⟩ => rfl
  | ⟨2, _⟩ => exact Fin.ext (by show (h.val * 96 + w.val) / 96 = h.val; omega)
  | ⟨3, _⟩ => exact Fin.ext (by show (h.val * 96 + w.val) % 96 = w.val; omega)

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the same result: the kernel's formula equals the reference's plus the residual
    on finite inputs, and the residual is the input at the pixel. -/
theorem algebraic : Cert.algebraic_KernelIdeal_ReferenceIdeal := by
  intro m ρ m' ρ' hpre hagree
  refine ⟨fun c => Cert.KernelIdeal.Gen.W4 m ρ c (Proc.devRef .tc Cert.KernelIdeal.main_v7), Cert.KernelIdeal.GenV.run_vals m ρ, ?_⟩
  refine (θ_run Cert.ReferenceIdeal.defs _ _).mono (fun _ h c => ⟨(h c).1.trans ?_, (h c).2⟩)
    (Cert.ReferenceIdeal.Value.run (F := Ideal) m' ρ')
  obtain ⟨f0, f1, f2, f3, f4, f5, f6, f7, f8⟩ := Cert.Pre_finite_inputs.Finite.finite_of_pre _ _ _ _ _ _ _ _ _ (hpre c)
  obtain ⟨e0, e1, e2, e3, e4, e5, e6, e7, e8⟩ := hagree c
  rw [Cert.ReferenceIdeal.Read.val_main_v49_eq, e0, e1, e2, e3, e4, e5, e6, e7, e8]
  funext i
  obtain ⟨a, k, h, w, rfl⟩ : ∃ (a : Fin 1) (k : Fin 128) (h w : Fin 96), i = ix4 a k h w := ⟨i 0, i 1, i 2, i 3, eq_ix4 i⟩
  obtain rfl : a = 0 := Subsingleton.elim _ _
  rw [Cert.ReferenceIdeal.RefValue.val_apply]
  show _ = Cert.KernelIdeal.Gen.W4 m ρ c (Proc.devRef .tc Cert.KernelIdeal.main_v7) (ix4 (0 : Fin 1) k h w)
  have hx : Attn.FiniteMat (Attn.tokens (m ((c.tc : Thread Cert.KernelIdeal.nD Cert.KernelIdeal.τ).loc Cert.KernelIdeal.main_arg0))) := fun r q => f0 _
  have h1 : Attn.FiniteMat (Attn.mat2 (a := 64) (b := 128) (m ((c.tc : Thread Cert.KernelIdeal.nD Cert.KernelIdeal.τ).loc Cert.KernelIdeal.main_arg1))) := fun r q => f1 _
  have h2 : Attn.FiniteVec (Attn.vec1 (a := 64) (m ((c.tc : Thread Cert.KernelIdeal.nD Cert.KernelIdeal.τ).loc Cert.KernelIdeal.main_arg2))) := fun r => f2 _
  have h3 : Attn.FiniteMat (Attn.mat2 (a := 64) (b := 128) (m ((c.tc : Thread Cert.KernelIdeal.nD Cert.KernelIdeal.τ).loc Cert.KernelIdeal.main_arg3))) := fun r q => f3 _
  have h4 : Attn.FiniteVec (Attn.vec1 (a := 64) (m ((c.tc : Thread Cert.KernelIdeal.nD Cert.KernelIdeal.τ).loc Cert.KernelIdeal.main_arg4))) := fun r => f4 _
  have h5 : Attn.FiniteMat (Attn.mat2 (a := 64) (b := 128) (m ((c.tc : Thread Cert.KernelIdeal.nD Cert.KernelIdeal.τ).loc Cert.KernelIdeal.main_arg5))) := fun r q => f5 _
  have h6 : Attn.FiniteVec (Attn.vec1 (a := 64) (m ((c.tc : Thread Cert.KernelIdeal.nD Cert.KernelIdeal.τ).loc Cert.KernelIdeal.main_arg6))) := fun r => f6 _
  have h7 : Attn.FiniteMat (Attn.mat2 (a := 128) (b := 64) (m ((c.tc : Thread Cert.KernelIdeal.nD Cert.KernelIdeal.τ).loc Cert.KernelIdeal.main_arg7))) := fun r q => f7 _
  have h8 : Attn.FiniteVec (Attn.vec1 (a := 128) (m ((c.tc : Thread Cert.KernelIdeal.nD Cert.KernelIdeal.τ).loc Cert.KernelIdeal.main_arg8))) := fun r => f8 _
  rw [Cert.KernelIdeal.KVal.result_apply, Attn.kernelMat_eq_refMat _ _ _ _ _ _ _ _ _ hx h1 h2 h3 h4 h5 h6 h7 h8, tokens_pixel]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
